-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S500000x4 : Shape := ⟨2, ![500000, 4]⟩
abbrev S128x320 : Shape := ⟨2, ![128, 320]⟩
abbrev S128 : Shape := ⟨1, ![128]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S128x320 : S_.BroadcastsInDim S128x320 (![] : Fin 0 → Fin S128x320.rank)
  reducesTo_S128x320_S_d0_1 : S128x320.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S500000x64 .f32) (main_arg1 : IVec S500000x4 32) (main_arg2 : FVec F S128x320 .f32) (main_arg3 : FVec F S128 .f32) (main_arg4 : FVec F S128 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S128x320 .f32 := Host.absf main_arg2
  let main_cst_0 : FVec F S_ .f32 := constant S_ .f32 0x7F800000#32
  let main_v5 : FVec F S128x320 .f32 := broadcastInDim S128x320 ![] bcast_S_S128x320 main_cst_0
  let main_v6 : IVec S128x320 1 := cmpf .olt main_v4 main_v5
  let main_c_1 : IVec S_ 1 := constantI S_ 1 1#1
  let main_v7 : IVec S_ 1 := (fun x v => Host.reduce IntOp.andi x v reducesTo_S128x320_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S500000x64 : Shape := ⟨2, ![500000, 64]⟩
abbrev S500000x4 : Shape := ⟨2, ![500000, 4]⟩
abbrev S128x320 : Shape := ⟨2, ![128, 320]⟩
abbrev S128 : Shape := ⟨1, ![128]⟩
abbrev S_ : Shape := ⟨0, ![]⟩
abbrev S500000x4x1 : Shape := ⟨3, ![500000, 4, 1]⟩
abbrev S500000x4x64 : Shape := ⟨3, ![500000, 4, 64]⟩
abbrev S500000x1x64 : Shape := ⟨3, ![500000, 1, 64]⟩
abbrev S500000x320 : Shape := ⟨2, ![500000, 320]⟩
abbrev S320x128 : Shape := ⟨2, ![320, 128]⟩
abbrev S1x128 : Shape := ⟨2, ![1, 128]⟩
abbrev S500000x128 : Shape := ⟨2, ![500000, 128]⟩
abbrev S5000x320 : Shape := ⟨2, ![5000, 320]⟩
abbrev S5000x128 : Shape := ⟨2, ![5000, 128]⟩

abbrev nBuf : Space → Nat
  | .hbm => 58
  | .vmem => 15
  | .smem => 0
  | _ => 0

abbrev bufTy : (tb : Table) → Fin (tcTables nBuf tb) → BufTy
  | .hbm, ⟨0, _⟩ => ⟨S500000x64, .f32⟩
  | .hbm, ⟨1, _⟩ => ⟨S500000x4, .i32⟩
  | .hbm, ⟨2, _⟩ => ⟨S128x320, .f32⟩
  | .hbm, ⟨3, _⟩ => ⟨S128, .f32⟩
  | .hbm, ⟨4, _⟩ => ⟨S128, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S500000x4, .i32⟩
  | .hbm, ⟨9, _⟩ => ⟨S500000x4, .i32⟩
  | .hbm, ⟨10, _⟩ => ⟨S_, .i32⟩
  | .hbm, ⟨11, _⟩ => ⟨S500000x4, .i32⟩
  | .hbm, ⟨12, _⟩ => ⟨S500000x4, .i32⟩
  | .hbm, ⟨13, _⟩ => ⟨S_, .i32⟩
  | .hbm, ⟨14, _⟩ => ⟨S500000x4, .i32⟩
  | .hbm, ⟨15, _⟩ => ⟨S500000x4, .i1⟩
  | .hbm, ⟨16, _⟩ => ⟨S_, .i32⟩
  | .hbm, ⟨17, _⟩ => ⟨S500000x4, .i32⟩
  | .hbm, ⟨18, _⟩ => ⟨S500000x4, .i32⟩
  | .hbm, ⟨19, _⟩ => ⟨S500000x4, .i32⟩
  | .hbm, ⟨20, _⟩ => ⟨S500000x4x1, .i32⟩
  | .hbm, ⟨21, _⟩ => ⟨S500000x4x64, .f32⟩
  | .hbm, ⟨22, _⟩ => ⟨S500000x1x64, .f32⟩
  | .hbm, ⟨23, _⟩ => ⟨S500000x64, .f32⟩
  | .hbm, ⟨24, _⟩ => ⟨S500000x1x64, .f32⟩
  | .hbm, ⟨25, _⟩ => ⟨S500000x64, .f32⟩
  | .hbm, ⟨26, _⟩ => ⟨S500000x64, .f32⟩
  | .hbm, ⟨27, _⟩ => ⟨S500000x1x64, .f32⟩
  | .hbm, ⟨28, _⟩ => ⟨S500000x64, .f32⟩
  | .hbm, ⟨29, _⟩ => ⟨S500000x1x64, .f32⟩
  | .hbm, ⟨30, _⟩ => ⟨S500000x64, .f32⟩
  | .hbm, ⟨31, _⟩ => ⟨S500000x64, .f32⟩
  | .hbm, ⟨32, _⟩ => ⟨S500000x1x64, .f32⟩
  | .hbm, ⟨33, _⟩ => ⟨S500000x64, .f32⟩
  | .hbm, ⟨34, _⟩ => ⟨S500000x1x64, .f32⟩
  | .hbm, ⟨35, _⟩ => ⟨S500000x64, .f32⟩
  | .hbm, ⟨36, _⟩ => ⟨S500000x64, .f32⟩
  | .hbm, ⟨37, _⟩ => ⟨S500000x1x64, .f32⟩
  | .hbm, ⟨38, _⟩ => ⟨S500000x64, .f32⟩
  | .hbm, ⟨39, _⟩ => ⟨S500000x1x64, .f32⟩
  | .hbm, ⟨40, _⟩ => ⟨S500000x64, .f32⟩
  | .hbm, ⟨41, _⟩ => ⟨S500000x64, .f32⟩
  | .hbm, ⟨42, _⟩ => ⟨S500000x320, .f32⟩
  | .hbm, ⟨43, _⟩ => ⟨S320x128, .f32⟩
  | .hbm, ⟨44, _⟩ => ⟨S1x128, .f32⟩
  | .hbm, ⟨45, _⟩ => ⟨S1x128, .f32⟩
  | .hbm, ⟨46, _⟩ => ⟨S500000x128, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S500000x128, .f32⟩
  | .local _ .vmem, ⟨0, _⟩ => ⟨S5000x320, .f32⟩
  | .local _ .vmem, ⟨1, _⟩ => ⟨S5000x320, .f32⟩
  | .local _ .vmem, ⟨2, _⟩ => ⟨S320x128, .f32⟩
  | .local _ .vmem, ⟨3, _⟩ => ⟨S5000x128, .f32⟩
  | .local _ .vmem, ⟨4, _⟩ => ⟨S5000x128, .f32⟩
  | .local _ .vmem, ⟨5, _⟩ => ⟨S1x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev main_v32_2 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S500000x4 : S_.BroadcastsInDim S500000x4 (![] : Fin 0 → Fin S500000x4.rank)
  bcast_S500000x4_S500000x4x1_0_1 : S500000x4.BroadcastsInDim S500000x4x1 (![0, 1] : Fin 2 → Fin S500000x4x1.rank)
  slices_S500000x4x64_S500000x1x64_0_0_0 : S500000x4x64.Slices ![0, 0, 0] S500000x1x64
  shapeCasts_S500000x1x64_S500000x64 : S500000x1x64.ShapeCasts S500000x64
  slices_S500000x4x64_S500000x1x64_0_1_0 : S500000x4x64.Slices ![0, 1, 0] S500000x1x64
  slices_S500000x4x64_S500000x1x64_0_2_0 : S500000x4x64.Slices ![0, 2, 0] S500000x1x64
  slices_S500000x4x64_S500000x1x64_0_3_0 : S500000x4x64.Slices ![0, 3, 0] S500000x1x64
  concatenates_S500000x64_S500000x64_S500000x64_S500000x64_S500000x64_S500000x320_d1 : Shape.Concatenates [S500000x64, S500000x64, S500000x64, S500000x64, S500000x64] S500000x320 1
  transposes_S128x320_S320x128_1_0 : S128x320.Transposes [1, 0] S320x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x320_S5000x320_0_0 : ∀ a, (![0, 0] : Fin 2 → Nat) a + S5000x320.size a ≤ S5000x320.size a
  h_S5000x320 : 0 < S5000x320.numel
  shapeCasts_S5000x320_S5000x320 : S5000x320.ShapeCasts S5000x320
  bitsLt_bf16_f32 : FTy.bits .bf16 < FTy.bits .f32
  inb_S320x128_S320x128_0_0 : ∀ a, (![0, 0] : Fin 2 → Nat) a + S320x128.size a ≤ S320x128.size a
  h_S320x128 : 0 < S320x128.numel
  shapeCasts_S320x128_S320x128 : S320x128.ShapeCasts S320x128
  inb_S5000x128_S5000x128_0_0 : ∀ a, (![0, 0] : Fin 2 → Nat) a + S5000x128.size a ≤ S5000x128.size a
  h_S5000x128 : 0 < S5000x128.numel
  shapeCasts_S1x128_S1x128 : S1x128.ShapeCasts S1x128
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  broadcasts_S1x128_S5000x128 : S1x128.Broadcasts S5000x128
  gather_S500000x64_S500000x4x1_S500000x4x64_2_0_n_n_0_2_164_wf : GatherDims.WF S500000x64 S500000x4x1 S500000x4x64 [2] [0] [] [0] [] 2 ![1, 64]
  dot_S5000x320_S320x128_S5000x128_1_0_0_1_n_n_wf : DotDims.WF S5000x320 S320x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x320.size a ≤ S500000x320.size a
  hwx0_0 : ∀ i : grid0.Coords, EltTy.bits .f32 = 32 ∨ (Rect.block (s := S500000x320) S5000x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x128.size a ≤ S320x128.size a
  hwx0_1 : ∀ i : grid0.Coords, EltTy.bits .f32 = 32 ∨ (Rect.block (s := S320x128) S320x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S500000x128.size a
  hwx1_5 : ∀ i : grid1.Coords, EltTy.bits .f32 = 32 ∨ (Rect.block (s := S500000x128) S5000x128.size (cc1_transform_5 i) (hinb1_5 i)).WholeWords (EltTy.packing .f32)

variable [Facts₀]

def gather_S500000x64_S500000x4x1_S500000x4x64_2_0_n_n_0_2_164 : GatherDims S500000x64 S500000x4x1 S500000x4x64 where
  offsetDims := [2]
  collapsedSliceDims := [0]
  operandBatchingDims := []
  startIndicesBatchingDims := []
  startIndexMap := [0]
  indexVectorDim := 2
  sliceSizes := ![1, 64]
  wf := gather_S500000x64_S500000x4x1_S500000x4x64_2_0_n_n_0_2_164_wf
def dot_S5000x320_S320x128_S5000x128_1_0_0_1_n_n : DotDims S5000x320 S320x128 S5000x128 where
  lhsContracting := [1]
  rhsContracting := [0]
  lhsNonContracting := [0]
  rhsNonContracting := [1]
  lhsBatch := []
  rhsBatch := []
  wf := dot_S5000x320_S320x128_S5000x128_1_0_0_1_n_n_wf

abbrev win0_0 : Pipeline.Window sig grid0 :=
  Pipeline.Window.ofSpec (Memref.whole main_v28) S5000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S320x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32_2) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000x64 : Shape := ⟨2, ![500000, 64]⟩
abbrev S500000x4 : Shape := ⟨2, ![500000, 4]⟩
abbrev S128x320 : Shape := ⟨2, ![128, 320]⟩
abbrev S128 : Shape := ⟨1, ![128]⟩
abbrev S_ : Shape := ⟨0, ![]⟩
abbrev S500000x4x1 : Shape := ⟨3, ![500000, 4, 1]⟩
abbrev S500000x4x64 : Shape := ⟨3, ![500000, 4, 64]⟩
abbrev S500000x1x64 : Shape := ⟨3, ![500000, 1, 64]⟩
abbrev S500000x320 : Shape := ⟨2, ![500000, 320]⟩
abbrev S320x128 : Shape := ⟨2, ![320, 128]⟩
abbrev S500000x128 : Shape := ⟨2, ![500000, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S500000x4, .i32⟩
  | .hbm, ⟨2, _⟩ => ⟨S128x320, .f32⟩
  | .hbm, ⟨3, _⟩ => ⟨S128, .f32⟩
  | .hbm, ⟨4, _⟩ => ⟨S128, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S500000x4, .i32⟩
  | .hbm, ⟨9, _⟩ => ⟨S500000x4, .i32⟩
  | .hbm, ⟨10, _⟩ => ⟨S_, .i32⟩
  | .hbm, ⟨11, _⟩ => ⟨S500000x4, .i32⟩
  | .hbm, ⟨12, _⟩ => ⟨S500000x4, .i32⟩
  | .hbm, ⟨13, _⟩ => ⟨S_, .i32⟩
  | .hbm, ⟨14, _⟩ => ⟨S500000x4, .i32⟩
  | .hbm, ⟨15, _⟩ => ⟨S500000x4, .i1⟩
  | .hbm, ⟨16, _⟩ => ⟨S_, .i32⟩
  | .hbm, ⟨17, _⟩ => ⟨S500000x4, .i32⟩
  | .hbm, ⟨18, _⟩ => ⟨S500000x4, .i32⟩
  | .hbm, ⟨19, _⟩ => ⟨S500000x4, .i32⟩
  | .hbm, ⟨20, _⟩ => ⟨S500000x4x1, .i32⟩
  | .hbm, ⟨21, _⟩ => ⟨S500000x4x64, .f32⟩
  | .hbm, ⟨22, _⟩ => ⟨S500000x1x64, .f32⟩
  | .hbm, ⟨23, _⟩ => ⟨S500000x64, .f32⟩
  | .hbm, ⟨24, _⟩ => ⟨S500000x1x64, .f32⟩
  | .hbm, ⟨25, _⟩ => ⟨S500000x64, .f32⟩
  | .hbm, ⟨26, _⟩ => ⟨S500000x64, .f32⟩
  | .hbm, ⟨27, _⟩ => ⟨S500000x1x64, .f32⟩
  | .hbm, ⟨28, _⟩ => ⟨S500000x64, .f32⟩
  | .hbm, ⟨29, _⟩ => ⟨S500000x1x64, .f32⟩
  | .hbm, ⟨30, _⟩ => ⟨S500000x64, .f32⟩
  | .hbm, ⟨31, _⟩ => ⟨S500000x64, .f32⟩
  | .hbm, ⟨32, _⟩ => ⟨S500000x1x64, .f32⟩
  | .hbm, ⟨33, _⟩ => ⟨S500000x64, .f32⟩
  | .hbm, ⟨34, _⟩ => ⟨S500000x1x64, .f32⟩
  | .hbm, ⟨35, _⟩ => ⟨S500000x64, .f32⟩
  | .hbm, ⟨36, _⟩ => ⟨S500000x64, .f32⟩
  | .hbm, ⟨37, _⟩ => ⟨S500000x1x64, .f32⟩
  | .hbm, ⟨38, _⟩ => ⟨S500000x64, .f32⟩
  | .hbm, ⟨39, _⟩ => ⟨S500000x1x64, .f32⟩
  | .hbm, ⟨40, _⟩ => ⟨S500000x64, .f32⟩
  | .hbm, ⟨41, _⟩ => ⟨S500000x64, .f32⟩
  | .hbm, ⟨42, _⟩ => ⟨S500000x320, .f32⟩
  | .hbm, ⟨43, _⟩ => ⟨S320x128, .f32⟩
  | .hbm, ⟨44, _⟩ => ⟨S500000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S500000x128, .f32⟩
  | .hbm, ⟨52, _⟩ => ⟨S500000x128, .f32⟩
  | .hbm, ⟨53, _⟩ => ⟨S500000x128, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S500000x128, .f32⟩
  | .hbm, ⟨61, _⟩ => ⟨S500000x128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S500000x128, .f32⟩
  | .hbm, ⟨69, _⟩ => ⟨S500000x128, .f32⟩
  | .hbm, ⟨70, _⟩ => ⟨S1x128, .f32⟩
  | .hbm, ⟨71, _⟩ => ⟨S500000x128, .f32⟩
  | .hbm, ⟨72, _⟩ => ⟨S500000x128, .f32⟩
  | .hbm, ⟨73, _⟩ => ⟨S_, .f32⟩
  | .hbm, ⟨74, _⟩ => ⟨S500000x128, .f32⟩
  | .hbm, ⟨75, _⟩ => ⟨S500000x128, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  bcast_S_S500000x4 : S_.BroadcastsInDim S500000x4 (![] : Fin 0 → Fin S500000x4.rank)
  bcast_S500000x4_S500000x4x1_0_1 : S500000x4.BroadcastsInDim S500000x4x1 (![0, 1] : Fin 2 → Fin S500000x4x1.rank)
  slices_S500000x4x64_S500000x1x64_0_0_0 : S500000x4x64.Slices ![0, 0, 0] S500000x1x64
  shapeCasts_S500000x1x64_S500000x64 : S500000x1x64.ShapeCasts S500000x64
  slices_S500000x4x64_S500000x1x64_0_1_0 : S500000x4x64.Slices ![0, 1, 0] S500000x1x64
  slices_S500000x4x64_S500000x1x64_0_2_0 : S500000x4x64.Slices ![0, 2, 0] S500000x1x64
  slices_S500000x4x64_S500000x1x64_0_3_0 : S500000x4x64.Slices ![0, 3, 0] S500000x1x64
  concatenates_S500000x64_S500000x64_S500000x64_S500000x64_S500000x64_S500000x320_d1 : Shape.Concatenates [S500000x64, S500000x64, S500000x64, S500000x64, S500000x64] S500000x320 1
  transposes_S128x320_S320x128_1_0 : S128x320.Transposes [1, 0] S320x128
  reducesTo_S500000x128_S128_d0 : S500000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  gather_S500000x64_S500000x4x1_S500000x4x64_2_0_n_n_0_2_164_wf : GatherDims.WF S500000x64 S500000x4x1 S500000x4x64 [2] [0] [] [0] [] 2 ![1, 64]
  dot_S500000x320_S320x128_S500000x128_1_0_0_1_n_n_wf : DotDims.WF S500000x320 S320x128 S500000x128 [1] [0] [0] [1] [] []

variable [Facts₀]

def gather_S500000x64_S500000x4x1_S500000x4x64_2_0_n_n_0_2_164 : GatherDims S500000x64 S500000x4x1 S500000x4x64 where
  offsetDims := [2]
  collapsedSliceDims := [0]
  operandBatchingDims := []
  startIndicesBatchingDims := []
  startIndexMap := [0]
  indexVectorDim := 2
  sliceSizes := ![1, 64]
  wf := gather_S500000x64_S500000x4x1_S500000x4x64_2_0_n_n_0_2_164_wf
def dot_S500000x320_S320x128_S500000x128_1_0_0_1_n_n : DotDims S500000x320 S320x128 S500000x128 where
  lhsContracting := [1]
  rhsContracting := [0]
  lhsNonContracting := [0]
  rhsNonContracting := [1]
  lhsBatch := []
  rhsBatch := []
  wf := dot_S500000x320_S320x128_S500000x128_1_0_0_1_n_n_wf

class Facts : Prop extends Facts₀ where

variable [Facts]
-- ==== Proof.RefRun.lean ====
/-
  The whole-array program's run, proved stretch by stretch over its stages.

  The program is a straight line of 71 operations, each writing one buffer that no other operation writes. The line is
  cut into nine stretches. For each stretch, from any contents V of the buffers: a buffer the stretch does not write
  keeps V's contents, and each buffer a later stretch reads holds its stage as a function of the arguments, given that
  the buffers the stretch reads hold theirs. Chaining the nine stretches from the launch contents gives the result
  buffer at the last stage of the arguments, and the arguments unchanged.
-/
import proofs.«139815_j8323646619907_1_alg».proof.Proof.RunP
import proofs.«139815_j8323646619907_1_alg».proof.Proof.ReadP
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A line writing one named buffer writes inside any list of buffers that names it. -/
theorem wsub {W : List (Ref sig .tc)} (op : HloOp τ sig (Elt F)) (y : Ref sig .tc) (hw : op.writes = {Proc.devRef .tc y}) (hy : y ∈ W) :
    op.writes ⊆ (W.map (Proc.devRef (τ := τ) .tc)).toFinset := by
  rw [hw]; exact Finset.singleton_subset_iff.2 (List.mem_toFinset.2 (List.mem_map_of_mem hy))

/-- Stretch 1 of the program: its operations 1 to 8, in order. -/
def o1 : List (HloOp τ sig (Elt F)) :=
  [ nullary main_c (constantI S_ 32 0#32),
    nullary main_c_0 (constantI S_ 32 499999#32),
    TRef.unary (TRef.of (T := ⟨S_, .i32⟩) main_c) (TRef.of (T := ⟨S_, .i32⟩) main_call0_v0) id,
    TRef.unary (TRef.of (T := ⟨S_, .i32⟩) main_call0_v0) (TRef.of (T := ⟨S500000x4, .i32⟩) main_call0_v1) (broadcastInDim S500000x4 ![] bcast_S_S500000x4),
    TRef.binary (TRef.of (T := ⟨S500000x4, .i32⟩) main_call0_v1) (TRef.of (T := ⟨S500000x4, .i32⟩) main_arg1) (TRef.of (T := ⟨S500000x4, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S500000x4, .i32⟩) main_call0_v4) (broadcastInDim S500000x4 ![] bcast_S_S500000x4),
    TRef.binary (TRef.of (T := ⟨S500000x4, .i32⟩) main_call0_v4) (TRef.of (T := ⟨S500000x4, .i32⟩) main_call0_v2) (TRef.of (T := ⟨S500000x4, .i32⟩) main_v0) minsi ]

/-- The buffers stretch 1 writes. -/
def W1 : List (Ref sig .tc) := [main_c, main_c_0, main_call0_v0, main_call0_v1, main_call0_v2, main_call0_v3, main_call0_v4, main_v0]

theorem hW1 : (o1 (F := F)).Forall fun op => op.writes ⊆ (W1.map (Proc.devRef (τ := τ) .tc)).toFinset := by
  unfold o1
  exact ⟨wsub _ main_c rfl (by decide),
    wsub _ main_c_0 rfl (by decide),
    wsub _ main_call0_v0 rfl (by decide),
    wsub _ main_call0_v1 rfl (by decide),
    wsub _ main_call0_v2 rfl (by decide),
    wsub _ main_call0_v3 rfl (by decide),
    wsub _ main_call0_v4 rfl (by decide),
    wsub _ main_v0 rfl (by decide)⟩

/-- A buffer stretch 1 does not write keeps its contents. -/
theorem keep1 {r : Ref sig .tc} (V : Valuation τ sig (Elt F)) (hr : r ∉ W1) :
    after (o1 (F := F)) V (Proc.devRef .tc r) = V (Proc.devRef .tc r) :=
  after_of_writes_sub _ V hW1 hr

/-- Stretch 2 of the program: its operations 9 to 17, in order. -/
def o2 : List (HloOp τ sig (Elt F)) :=
  [ nullary main_c_1 (constantI S_ 32 0#32),
    unary main_c_1 main_v1 (broadcastInDim S500000x4 ![] bcast_S_S500000x4 : (⟨S_, .i32⟩ : BufTy).Contents (Elt F) → (⟨S500000x4, .i32⟩ : BufTy).Contents (Elt F)),
    binary main_v0 main_v1 main_v2 (cmpi .slt : (⟨S500000x4, .i32⟩ : BufTy).Contents (Elt F) → (⟨S500000x4, .i32⟩ : BufTy).Contents (Elt F) → (⟨S500000x4, .i1⟩ : BufTy).Contents (Elt F)),
    nullary main_c_2 (constantI S_ 32 500000#32),
    unary main_c_2 main_v3 (broadcastInDim S500000x4 ![] bcast_S_S500000x4 : (⟨S_, .i32⟩ : BufTy).Contents (Elt F) → (⟨S500000x4, .i32⟩ : BufTy).Contents (Elt F)),
    binary main_v0 main_v3 main_v4 (addi : (⟨S500000x4, .i32⟩ : BufTy).Contents (Elt F) → (⟨S500000x4, .i32⟩ : BufTy).Contents (Elt F) → (⟨S500000x4, .i32⟩ : BufTy).Contents (Elt F)),
    ternary main_v2 main_v4 main_v0 main_v5 (select : (⟨S500000x4, .i1⟩ : BufTy).Contents (Elt F) → (⟨S500000x4, .i32⟩ : BufTy).Contents (Elt F) → (⟨S500000x4, .i32⟩ : BufTy).Contents (Elt F) → (⟨S500000x4, .i32⟩ : BufTy).Contents (Elt F)),
    unary main_v5 main_v6 (broadcastInDim S500000x4x1 ![0, 1] bcast_S500000x4_S500000x4x1_0_1 : (⟨S500000x4, .i32⟩ : BufTy).Contents (Elt F) → (⟨S500000x4x1, .i32⟩ : BufTy).Contents (Elt F)),
    binary main_arg0 main_v6 main_v7 ((fun x i => Host.gather gather_S500000x64_S500000x4x1_S500000x4x64_2_0_n_n_0_2_164 x i) : (⟨S500000x64, .f32⟩ : BufTy).Contents (Elt F) → (⟨S500000x4x1, .i32⟩ : BufTy).Contents (Elt F) → (⟨S500000x4x64, .f32⟩ : BufTy).Contents (Elt F)) ]

/-- The buffers stretch 2 writes. -/
def W2 : List (Ref sig .tc) := [main_c_1, main_v1, main_v2, main_c_2, main_v3, main_v4, main_v5, main_v6, main_v7]

theorem hW2 : (o2 (F := F)).Forall fun op => op.writes ⊆ (W2.map (Proc.devRef (τ := τ) .tc)).toFinset := by
  unfold o2
  exact ⟨wsub _ main_c_1 rfl (by decide),
    wsub _ main_v1 rfl (by decide),
    wsub _ main_v2 rfl (by decide),
    wsub _ main_c_2 rfl (by decide),
    wsub _ main_v3 rfl (by decide),
    wsub _ main_v4 rfl (by decide),
    wsub _ main_v5 rfl (by decide),
    wsub _ main_v6 rfl (by decide),
    wsub _ main_v7 rfl (by decide)⟩

/-- A buffer stretch 2 does not write keeps its contents. -/
theorem keep2 {r : Ref sig .tc} (V : Valuation τ sig (Elt F)) (hr : r ∉ W2) :
    after (o2 (F := F)) V (Proc.devRef .tc r) = V (Proc.devRef .tc r) :=
  after_of_writes_sub _ V hW2 hr

/-- Stretch 3 of the program: its operations 18 to 27, in order. -/
def o3 : List (HloOp τ sig (Elt F)) :=
  [ unary main_v7 main_v8 ((extractStridedSlice S500000x1x64 ![0, 0, 0] · slices_S500000x4x64_S500000x1x64_0_0_0) : (⟨S500000x4x64, .f32⟩ : BufTy).Contents (Elt F) → (⟨S500000x1x64, .f32⟩ : BufTy).Contents (Elt F)),
    reshape main_v8 main_v9 rfl shapeCasts_S500000x1x64_S500000x64,
    unary main_v7 main_v10 ((extractStridedSlice S500000x1x64 ![0, 1, 0] · slices_S500000x4x64_S500000x1x64_0_1_0) : (⟨S500000x4x64, .f32⟩ : BufTy).Contents (Elt F) → (⟨S500000x1x64, .f32⟩ : BufTy).Contents (Elt F)),
    reshape main_v10 main_v11 rfl shapeCasts_S500000x1x64_S500000x64,
    binary main_v9 main_v11 main_v12 (minimumf : (⟨S500000x64, .f32⟩ : BufTy).Contents (Elt F) → (⟨S500000x64, .f32⟩ : BufTy).Contents (Elt F) → (⟨S500000x64, .f32⟩ : BufTy).Contents (Elt F)),
    unary main_v7 main_v13 ((extractStridedSlice S500000x1x64 ![0, 0, 0] · slices_S500000x4x64_S500000x1x64_0_0_0) : (⟨S500000x4x64, .f32⟩ : BufTy).Contents (Elt F) → (⟨S500000x1x64, .f32⟩ : BufTy).Contents (Elt F)),
    reshape main_v13 main_v14 rfl shapeCasts_S500000x1x64_S500000x64,
    unary main_v7 main_v15 ((extractStridedSlice S500000x1x64 ![0, 1, 0] · slices_S500000x4x64_S500000x1x64_0_1_0) : (⟨S500000x4x64, .f32⟩ : BufTy).Contents (Elt F) → (⟨S500000x1x64, .f32⟩ : BufTy).Contents (Elt F)),
    reshape main_v15 main_v16 rfl shapeCasts_S500000x1x64_S500000x64,
    binary main_v14 main_v16 main_v17 (maximumf : (⟨S500000x64, .f32⟩ : BufTy).Contents (Elt F) → (⟨S500000x64, .f32⟩ : BufTy).Contents (Elt F) → (⟨S500000x64, .f32⟩ : BufTy).Contents (Elt F)) ]

/-- The buffers stretch 3 writes. -/
def W3 : List (Ref sig .tc) := [main_v8, main_v9, main_v10, main_v11, main_v12, main_v13, main_v14, main_v15, main_v16, main_v17]

theorem hW3 : (o3 (F := F)).Forall fun op => op.writes ⊆ (W3.map (Proc.devRef (τ := τ) .tc)).toFinset := by
  unfold o3
  exact ⟨wsub _ main_v8 rfl (by decide),
    wsub _ main_v9 rfl (by decide),
    wsub _ main_v10 rfl (by decide),
    wsub _ main_v11 rfl (by decide),
    wsub _ main_v12 rfl (by decide),
    wsub _ main_v13 rfl (by decide),
    wsub _ main_v14 rfl (by decide),
    wsub _ main_v15 rfl (by decide),
    wsub _ main_v16 rfl (by decide),
    wsub _ main_v17 rfl (by decide)⟩

/-- A buffer stretch 3 does not write keeps its contents. -/
theorem keep3 {r : Ref sig .tc} (V : Valuation τ sig (Elt F)) (hr : r ∉ W3) :
    after (o3 (F := F)) V (Proc.devRef .tc r) = V (Proc.devRef .tc r) :=
  after_of_writes_sub _ V hW3 hr

/-- Stretch 4 of the program: its operations 28 to 37, in order. -/
def o4 : List (HloOp τ sig (Elt F)) :=
  [ unary main_v7 main_v18 ((extractStridedSlice S500000x1x64 ![0, 2, 0] · slices_S500000x4x64_S500000x1x64_0_2_0) : (⟨S500000x4x64, .f32⟩ : BufTy).Contents (Elt F) → (⟨S500000x1x64, .f32⟩ : BufTy).Contents (Elt F)),
    reshape main_v18 main_v19 rfl shapeCasts_S500000x1x64_S500000x64,
    unary main_v7 main_v20 ((extractStridedSlice S500000x1x64 ![0, 3, 0] · slices_S500000x4x64_S500000x1x64_0_3_0) : (⟨S500000x4x64, .f32⟩ : BufTy).Contents (Elt F) → (⟨S500000x1x64, .f32⟩ : BufTy).Contents (Elt F)),
    reshape main_v20 main_v21 rfl shapeCasts_S500000x1x64_S500000x64,
    binary main_v19 main_v21 main_v22 (minimumf : (⟨S500000x64, .f32⟩ : BufTy).Contents (Elt F) → (⟨S500000x64, .f32⟩ : BufTy).Contents (Elt F) → (⟨S500000x64, .f32⟩ : BufTy).Contents (Elt F)),
    unary main_v7 main_v23 ((extractStridedSlice S500000x1x64 ![0, 2, 0] · slices_S500000x4x64_S500000x1x64_0_2_0) : (⟨S500000x4x64, .f32⟩ : BufTy).Contents (Elt F) → (⟨S500000x1x64, .f32⟩ : BufTy).Contents (Elt F)),
    reshape main_v23 main_v24 rfl shapeCasts_S500000x1x64_S500000x64,
    unary main_v7 main_v25 ((extractStridedSlice S500000x1x64 ![0, 3, 0] · slices_S500000x4x64_S500000x1x64_0_3_0) : (⟨S500000x4x64, .f32⟩ : BufTy).Contents (Elt F) → (⟨S500000x1x64, .f32⟩ : BufTy).Contents (Elt F)),
    reshape main_v25 main_v26 rfl shapeCasts_S500000x1x64_S500000x64,
    binary main_v24 main_v26 main_v27 (maximumf : (⟨S500000x64, .f32⟩ : BufTy).Contents (Elt F) → (⟨S500000x64, .f32⟩ : BufTy).Contents (Elt F) → (⟨S500000x64, .f32⟩ : BufTy).Contents (Elt F)) ]

/-- The buffers stretch 4 writes. -/
def W4 : List (Ref sig .tc) := [main_v18, main_v19, main_v20, main_v21, main_v22, main_v23, main_v24, main_v25, main_v26, main_v27]

theorem hW4 : (o4 (F := F)).Forall fun op => op.writes ⊆ (W4.map (Proc.devRef (τ := τ) .tc)).toFinset := by
  unfold o4
  exact ⟨wsub _ main_v18 rfl (by decide),
    wsub _ main_v19 rfl (by decide),
    wsub _ main_v20 rfl (by decide),
    wsub _ main_v21 rfl (by decide),
    wsub _ main_v22 rfl (by decide),
    wsub _ main_v23 rfl (by decide),
    wsub _ main_v24 rfl (by decide),
    wsub _ main_v25 rfl (by decide),
    wsub _ main_v26 rfl (by decide),
    wsub _ main_v27 rfl (by decide)⟩

/-- A buffer stretch 4 does not write keeps its contents. -/
theorem keep4 {r : Ref sig .tc} (V : Valuation τ sig (Elt F)) (hr : r ∉ W4) :
    after (o4 (F := F)) V (Proc.devRef .tc r) = V (Proc.devRef .tc r) :=
  after_of_writes_sub _ V hW4 hr

/-- Stretch 5 of the program: its one operation 38, the concatenation. -/
def o5 : List (HloOp τ sig (Elt F)) :=
  [ nary ![main_arg0, main_v12, main_v17, main_v22, main_v27] main_v28 (fun u => concatenate S500000x320 1 [⟨S500000x64, u 0⟩, ⟨S500000x64, u 1⟩, ⟨S500000x64, u 2⟩, ⟨S500000x64, u 3⟩, ⟨S500000x64, u 4⟩] concatenates_S500000x64_S500000x64_S500000x64_S500000x64_S500000x64_S500000x320_d1) ]

/-- The buffers stretch 5 writes. -/
def W5 : List (Ref sig .tc) := [main_v28]

theorem hW5 : (o5 (F := F)).Forall fun op => op.writes ⊆ (W5.map (Proc.devRef (τ := τ) .tc)).toFinset := by
  unfold o5
  exact wsub _ main_v28 rfl (by decide)

/-- A buffer stretch 5 does not write keeps its contents. -/
theorem keep5 {r : Ref sig .tc} (V : Valuation τ sig (Elt F)) (hr : r ∉ W5) :
    after (o5 (F := F)) V (Proc.devRef .tc r) = V (Proc.devRef .tc r) :=
  after_of_writes_sub _ V hW5 hr

/-- Stretch 6 of the program: its operations 39 to 45, in order. -/
def o6 : List (HloOp τ sig (Elt F)) :=
  [ unary main_arg2 main_v29 ((transpose S320x128 [1, 0] · transposes_S128x320_S320x128_1_0) : (⟨S128x320, .f32⟩ : BufTy).Contents (Elt F) → (⟨S320x128, .f32⟩ : BufTy).Contents (Elt F)),
    binary main_v28 main_v29 main_v30 ((fun l r => Host.dotGeneral dot_S500000x320_S320x128_S500000x128_1_0_0_1_n_n none l r) : (⟨S500000x320, .f32⟩ : BufTy).Contents (Elt F) → (⟨S320x128, .f32⟩ : BufTy).Contents (Elt F) → (⟨S500000x128, .f32⟩ : BufTy).Contents (Elt F)),
    nullary main_cst (constant S_ .f32 0x00000000#32),
    binary main_v30 main_cst main_v31 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    nullary main_cst_3 (constant S_ .f32 0x48F42400#32),
    unary main_cst_3 main_v32 (broadcastInDim S128 ![] bcast_S_S128 : (⟨S_, .f32⟩ : BufTy).Contents (Elt F) → (⟨S128, .f32⟩ : BufTy).Contents (Elt F)),
    binary main_v31 main_v32 main_v33 (Host.divf : (⟨S128, .f32⟩ : BufTy).Contents (Elt F) → (⟨S128, .f32⟩ : BufTy).Contents (Elt F) → (⟨S128, .f32⟩ : BufTy).Contents (Elt F)) ]

/-- The buffers stretch 6 writes. -/
def W6 : List (Ref sig .tc) := [main_v29, main_v30, main_cst, main_v31, main_cst_3, main_v32, main_v33]

theorem hW6 : (o6 (F := F)).Forall fun op => op.writes ⊆ (W6.map (Proc.devRef (τ := τ) .tc)).toFinset := by
  unfold o6
  exact ⟨wsub _ main_v29 rfl (by decide),
    wsub _ main_v30 rfl (by decide),
    wsub _ main_cst rfl (by decide),
    wsub _ main_v31 rfl (by decide),
    wsub _ main_cst_3 rfl (by decide),
    wsub _ main_v32 rfl (by decide),
    wsub _ main_v33 rfl (by decide)⟩

/-- A buffer stretch 6 does not write keeps its contents. -/
theorem keep6 {r : Ref sig .tc} (V : Valuation τ sig (Elt F)) (hr : r ∉ W6) :
    after (o6 (F := F)) V (Proc.devRef .tc r) = V (Proc.devRef .tc r) :=
  after_of_writes_sub _ V hW6 hr

/-- Stretch 7 of the program: its operations 46 to 54, in order. -/
def o7 : List (HloOp τ sig (Elt F)) :=
  [ unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S500000x128 ![0, 1] bcast_S1x128_S500000x128_0_1 : (⟨S1x128, .f32⟩ : BufTy).Contents (Elt F) → (⟨S500000x128, .f32⟩ : BufTy).Contents (Elt F)),
    binary main_v30 main_v35 main_v36 (subf : (⟨S500000x128, .f32⟩ : BufTy).Contents (Elt F) → (⟨S500000x128, .f32⟩ : BufTy).Contents (Elt F) → (⟨S500000x128, .f32⟩ : BufTy).Contents (Elt F)),
    binary main_v36 main_v36 main_v37 (mulf : (⟨S500000x128, .f32⟩ : BufTy).Contents (Elt F) → (⟨S500000x128, .f32⟩ : BufTy).Contents (Elt F) → (⟨S500000x128, .f32⟩ : BufTy).Contents (Elt F)),
    nullary main_cst_4 (constant S_ .f32 0x00000000#32),
    binary main_v37 main_cst_4 main_v38 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    nullary main_cst_5 (constant S_ .f32 0x48F42400#32),
    unary main_cst_5 main_v39 (broadcastInDim S128 ![] bcast_S_S128 : (⟨S_, .f32⟩ : BufTy).Contents (Elt F) → (⟨S128, .f32⟩ : BufTy).Contents (Elt F)),
    binary main_v38 main_v39 main_v40 (Host.divf : (⟨S128, .f32⟩ : BufTy).Contents (Elt F) → (⟨S128, .f32⟩ : BufTy).Contents (Elt F) → (⟨S128, .f32⟩ : BufTy).Contents (Elt F)) ]

/-- The buffers stretch 7 writes. -/
def W7 : List (Ref sig .tc) := [main_v34, main_v35, main_v36, main_v37, main_cst_4, main_v38, main_cst_5, main_v39, main_v40]

theorem hW7 : (o7 (F := F)).Forall fun op => op.writes ⊆ (W7.map (Proc.devRef (τ := τ) .tc)).toFinset := by
  unfold o7
  exact ⟨wsub _ main_v34 rfl (by decide),
    wsub _ main_v35 rfl (by decide),
    wsub _ main_v36 rfl (by decide),
    wsub _ main_v37 rfl (by decide),
    wsub _ main_cst_4 rfl (by decide),
    wsub _ main_v38 rfl (by decide),
    wsub _ main_cst_5 rfl (by decide),
    wsub _ main_v39 rfl (by decide),
    wsub _ main_v40 rfl (by decide)⟩

/-- A buffer stretch 7 does not write keeps its contents. -/
theorem keep7 {r : Ref sig .tc} (V : Valuation τ sig (Elt F)) (hr : r ∉ W7) :
    after (o7 (F := F)) V (Proc.devRef .tc r) = V (Proc.devRef .tc r) :=
  after_of_writes_sub _ V hW7 hr

/-- Stretch 8 of the program: its operations 55 to 62, in order. -/
def o8 : List (HloOp τ sig (Elt F)) :=
  [ unary main_v33 main_v41 (broadcastInDim S1x128 ![1] bcast_S128_S1x128_1 : (⟨S128, .f32⟩ : BufTy).Contents (Elt F) → (⟨S1x128, .f32⟩ : BufTy).Contents (Elt F)),
    unary main_v41 main_v42 (broadcastInDim S500000x128 ![0, 1] bcast_S1x128_S500000x128_0_1 : (⟨S1x128, .f32⟩ : BufTy).Contents (Elt F) → (⟨S500000x128, .f32⟩ : BufTy).Contents (Elt F)),
    binary main_v30 main_v42 main_v43 (subf : (⟨S500000x128, .f32⟩ : BufTy).Contents (Elt F) → (⟨S500000x128, .f32⟩ : BufTy).Contents (Elt F) → (⟨S500000x128, .f32⟩ : BufTy).Contents (Elt F)),
    nullary main_cst_6 (constant S_ .f32 0x3727C5AC#32),
    unary main_cst_6 main_v44 (broadcastInDim S128 ![] bcast_S_S128 : (⟨S_, .f32⟩ : BufTy).Contents (Elt F) → (⟨S128, .f32⟩ : BufTy).Contents (Elt F)),
    binary main_v40 main_v44 main_v45 (addf : (⟨S128, .f32⟩ : BufTy).Contents (Elt F) → (⟨S128, .f32⟩ : BufTy).Contents (Elt F) → (⟨S128, .f32⟩ : BufTy).Contents (Elt F)),
    unary main_v45 main_v46 (Host.sqrt : (⟨S128, .f32⟩ : BufTy).Contents (Elt F) → (⟨S128, .f32⟩ : BufTy).Contents (Elt F)),
    binary main_arg3 main_v46 main_v47 (Host.divf : (⟨S128, .f32⟩ : BufTy).Contents (Elt F) → (⟨S128, .f32⟩ : BufTy).Contents (Elt F) → (⟨S128, .f32⟩ : BufTy).Contents (Elt F)) ]

/-- The buffers stretch 8 writes. -/
def W8 : List (Ref sig .tc) := [main_v41, main_v42, main_v43, main_cst_6, main_v44, main_v45, main_v46, main_v47]

theorem hW8 : (o8 (F := F)).Forall fun op => op.writes ⊆ (W8.map (Proc.devRef (τ := τ) .tc)).toFinset := by
  unfold o8
  exact ⟨wsub _ main_v41 rfl (by decide),
    wsub _ main_v42 rfl (by decide),
    wsub _ main_v43 rfl (by decide),
    wsub _ main_cst_6 rfl (by decide),
    wsub _ main_v44 rfl (by decide),
    wsub _ main_v45 rfl (by decide),
    wsub _ main_v46 rfl (by decide),
    wsub _ main_v47 rfl (by decide)⟩

/-- A buffer stretch 8 does not write keeps its contents. -/
theorem keep8 {r : Ref sig .tc} (V : Valuation τ sig (Elt F)) (hr : r ∉ W8) :
    after (o8 (F := F)) V (Proc.devRef .tc r) = V (Proc.devRef .tc r) :=
  after_of_writes_sub _ V hW8 hr

/-- Stretch 9 of the program: its operations 63 to 71, in order. -/
def o9 : List (HloOp τ sig (Elt F)) :=
  [ unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S500000x128 ![0, 1] bcast_S1x128_S500000x128_0_1 : (⟨S1x128, .f32⟩ : BufTy).Contents (Elt F) → (⟨S500000x128, .f32⟩ : BufTy).Contents (Elt F)),
    binary main_v43 main_v49 main_v50 (mulf : (⟨S500000x128, .f32⟩ : BufTy).Contents (Elt F) → (⟨S500000x128, .f32⟩ : BufTy).Contents (Elt F) → (⟨S500000x128, .f32⟩ : BufTy).Contents (Elt F)),
    unary main_arg4 main_v51 (broadcastInDim S1x128 ![1] bcast_S128_S1x128_1 : (⟨S128, .f32⟩ : BufTy).Contents (Elt F) → (⟨S1x128, .f32⟩ : BufTy).Contents (Elt F)),
    unary main_v51 main_v52 (broadcastInDim S500000x128 ![0, 1] bcast_S1x128_S500000x128_0_1 : (⟨S1x128, .f32⟩ : BufTy).Contents (Elt F) → (⟨S500000x128, .f32⟩ : BufTy).Contents (Elt F)),
    binary main_v50 main_v52 main_v53 (addf : (⟨S500000x128, .f32⟩ : BufTy).Contents (Elt F) → (⟨S500000x128, .f32⟩ : BufTy).Contents (Elt F) → (⟨S500000x128, .f32⟩ : BufTy).Contents (Elt F)),
    nullary main_cst_7 (constant S_ .f32 0x00000000#32),
    unary main_cst_7 main_v54 (broadcastInDim S500000x128 ![] bcast_S_S500000x128 : (⟨S_, .f32⟩ : BufTy).Contents (Elt F) → (⟨S500000x128, .f32⟩ : BufTy).Contents (Elt F)),
    binary main_v53 main_v54 main_v55 (maximumf : (⟨S500000x128, .f32⟩ : BufTy).Contents (Elt F) → (⟨S500000x128, .f32⟩ : BufTy).Contents (Elt F) → (⟨S500000x128, .f32⟩ : BufTy).Contents (Elt F)) ]

/-- The buffers stretch 9 writes. -/
def W9 : List (Ref sig .tc) := [main_v48, main_v49, main_v50, main_v51, main_v52, main_v53, main_cst_7, main_v54, main_v55]

theorem hW9 : (o9 (F := F)).Forall fun op => op.writes ⊆ (W9.map (Proc.devRef (τ := τ) .tc)).toFinset := by
  unfold o9
  exact ⟨wsub _ main_v48 rfl (by decide),
    wsub _ main_v49 rfl (by decide),
    wsub _ main_v50 rfl (by decide),
    wsub _ main_v51 rfl (by decide),
    wsub _ main_v52 rfl (by decide),
    wsub _ main_v53 rfl (by decide),
    wsub _ main_cst_7 rfl (by decide),
    wsub _ main_v54 rfl (by decide),
    wsub _ main_v55 rfl (by decide)⟩

/-- A buffer stretch 9 does not write keeps its contents. -/
theorem keep9 {r : Ref sig .tc} (V : Valuation τ sig (Elt F)) (hr : r ∉ W9) :
    after (o9 (F := F)) V (Proc.devRef .tc r) = V (Proc.devRef .tc r) :=
  after_of_writes_sub _ V hW9 hr

theorem s1_v0 (V : Valuation τ sig (Elt F)) (x1 : (⟨S500000x4, .i32⟩ : BufTy).Contents (Elt F))
    (harg1 : V (Proc.devRef .tc main_arg1) = x1) :
    after (o1 (F := F)) V (Proc.devRef .tc main_v0) = ReadP.val_main_v0 (F := F) x1 := by
  unfold o1
  after_results
  rw [harg1]
  rfl

theorem s2_v7 (V : Valuation τ sig (Elt F)) (x0 : (⟨S500000x64, .f32⟩ : BufTy).Contents (Elt F)) (x1 : (⟨S500000x4, .i32⟩ : BufTy).Contents (Elt F))
    (harg0 : V (Proc.devRef .tc main_arg0) = x0) (hv0 : V (Proc.devRef .tc main_v0) = ReadP.val_main_v0 (F := F) x1) :
    after (o2 (F := F)) V (Proc.devRef .tc main_v7) = ReadP.val_main_v7 (F := F) x0 x1 := by
  unfold o2
  after_results
  rw [harg0, hv0]
  rfl

theorem s3_v12 (V : Valuation τ sig (Elt F)) (x0 : (⟨S500000x64, .f32⟩ : BufTy).Contents (Elt F)) (x1 : (⟨S500000x4, .i32⟩ : BufTy).Contents (Elt F))
    (hv7 : V (Proc.devRef .tc main_v7) = ReadP.val_main_v7 (F := F) x0 x1) :
    after (o3 (F := F)) V (Proc.devRef .tc main_v12) = ReadP.val_main_v12 (F := F) x0 x1 := by
  unfold o3
  after_results
  rw [hv7]
  rfl

theorem s3_v17 (V : Valuation τ sig (Elt F)) (x0 : (⟨S500000x64, .f32⟩ : BufTy).Contents (Elt F)) (x1 : (⟨S500000x4, .i32⟩ : BufTy).Contents (Elt F))
    (hv7 : V (Proc.devRef .tc main_v7) = ReadP.val_main_v7 (F := F) x0 x1) :
    after (o3 (F := F)) V (Proc.devRef .tc main_v17) = ReadP.val_main_v17 (F := F) x0 x1 := by
  unfold o3
  after_results
  rw [hv7]
  rfl

theorem s4_v22 (V : Valuation τ sig (Elt F)) (x0 : (⟨S500000x64, .f32⟩ : BufTy).Contents (Elt F)) (x1 : (⟨S500000x4, .i32⟩ : BufTy).Contents (Elt F))
    (hv7 : V (Proc.devRef .tc main_v7) = ReadP.val_main_v7 (F := F) x0 x1) :
    after (o4 (F := F)) V (Proc.devRef .tc main_v22) = ReadP.val_main_v22 (F := F) x0 x1 := by
  unfold o4
  after_results
  rw [hv7]
  rfl

theorem s4_v27 (V : Valuation τ sig (Elt F)) (x0 : (⟨S500000x64, .f32⟩ : BufTy).Contents (Elt F)) (x1 : (⟨S500000x4, .i32⟩ : BufTy).Contents (Elt F))
    (hv7 : V (Proc.devRef .tc main_v7) = ReadP.val_main_v7 (F := F) x0 x1) :
    after (o4 (F := F)) V (Proc.devRef .tc main_v27) = ReadP.val_main_v27 (F := F) x0 x1 := by
  unfold o4
  after_results
  rw [hv7]
  rfl

theorem s5_v28 (V : Valuation τ sig (Elt F)) (x0 : (⟨S500000x64, .f32⟩ : BufTy).Contents (Elt F)) (x1 : (⟨S500000x4, .i32⟩ : BufTy).Contents (Elt F))
    (harg0 : V (Proc.devRef .tc main_arg0) = x0) (hv12 : V (Proc.devRef .tc main_v12) = ReadP.val_main_v12 (F := F) x0 x1) (hv17 : V (Proc.devRef .tc main_v17) = ReadP.val_main_v17 (F := F) x0 x1) (hv22 : V (Proc.devRef .tc main_v22) = ReadP.val_main_v22 (F := F) x0 x1) (hv27 : V (Proc.devRef .tc main_v27) = ReadP.val_main_v27 (F := F) x0 x1) :
    after (o5 (F := F)) V (Proc.devRef .tc main_v28) = ReadP.val_main_v28 (F := F) x0 x1 := by
  unfold o5
  after_results
  show concatenate S500000x320 1 [⟨S500000x64, V (Proc.devRef .tc main_arg0)⟩, ⟨S500000x64, V (Proc.devRef .tc main_v12)⟩, ⟨S500000x64, V (Proc.devRef .tc main_v17)⟩, ⟨S500000x64, V (Proc.devRef .tc main_v22)⟩, ⟨S500000x64, V (Proc.devRef .tc main_v27)⟩] concatenates_S500000x64_S500000x64_S500000x64_S500000x64_S500000x64_S500000x320_d1 = _
  rw [harg0, hv12, hv17, hv22, hv27]
  rfl

theorem s6_v30 (V : Valuation τ sig (Elt F)) (x0 : (⟨S500000x64, .f32⟩ : BufTy).Contents (Elt F)) (x1 : (⟨S500000x4, .i32⟩ : BufTy).Contents (Elt F)) (x2 : (⟨S128x320, .f32⟩ : BufTy).Contents (Elt F))
    (harg2 : V (Proc.devRef .tc main_arg2) = x2) (hv28 : V (Proc.devRef .tc main_v28) = ReadP.val_main_v28 (F := F) x0 x1) :
    after (o6 (F := F)) V (Proc.devRef .tc main_v30) = ReadP.val_main_v30 (F := F) x0 x1 x2 := by
  unfold o6
  after_results
  rw [harg2, hv28]
  rfl

theorem s6_v33 (V : Valuation τ sig (Elt F)) (x0 : (⟨S500000x64, .f32⟩ : BufTy).Contents (Elt F)) (x1 : (⟨S500000x4, .i32⟩ : BufTy).Contents (Elt F)) (x2 : (⟨S128x320, .f32⟩ : BufTy).Contents (Elt F))
    (harg2 : V (Proc.devRef .tc main_arg2) = x2) (hv28 : V (Proc.devRef .tc main_v28) = ReadP.val_main_v28 (F := F) x0 x1) :
    after (o6 (F := F)) V (Proc.devRef .tc main_v33) = ReadP.val_main_v33 (F := F) x0 x1 x2 := by
  unfold o6
  after_results
  rw [harg2, hv28]
  rfl

theorem s7_v40 (V : Valuation τ sig (Elt F)) (x0 : (⟨S500000x64, .f32⟩ : BufTy).Contents (Elt F)) (x1 : (⟨S500000x4, .i32⟩ : BufTy).Contents (Elt F)) (x2 : (⟨S128x320, .f32⟩ : BufTy).Contents (Elt F))
    (hv30 : V (Proc.devRef .tc main_v30) = ReadP.val_main_v30 (F := F) x0 x1 x2) (hv33 : V (Proc.devRef .tc main_v33) = ReadP.val_main_v33 (F := F) x0 x1 x2) :
    after (o7 (F := F)) V (Proc.devRef .tc main_v40) = ReadP.val_main_v40 (F := F) x0 x1 x2 := by
  unfold o7
  after_results
  rw [hv30, hv33]
  rfl

theorem s8_v43 (V : Valuation τ sig (Elt F)) (x0 : (⟨S500000x64, .f32⟩ : BufTy).Contents (Elt F)) (x1 : (⟨S500000x4, .i32⟩ : BufTy).Contents (Elt F)) (x2 : (⟨S128x320, .f32⟩ : BufTy).Contents (Elt F))
    (hv30 : V (Proc.devRef .tc main_v30) = ReadP.val_main_v30 (F := F) x0 x1 x2) (hv33 : V (Proc.devRef .tc main_v33) = ReadP.val_main_v33 (F := F) x0 x1 x2) :
    after (o8 (F := F)) V (Proc.devRef .tc main_v43) = ReadP.val_main_v43 (F := F) x0 x1 x2 := by
  unfold o8
  after_results
  rw [hv30, hv33]
  rfl

theorem s8_v47 (V : Valuation τ sig (Elt F)) (x0 : (⟨S500000x64, .f32⟩ : BufTy).Contents (Elt F)) (x1 : (⟨S500000x4, .i32⟩ : BufTy).Contents (Elt F)) (x2 : (⟨S128x320, .f32⟩ : BufTy).Contents (Elt F)) (x3 : (⟨S128, .f32⟩ : BufTy).Contents (Elt F))
    (harg3 : V (Proc.devRef .tc main_arg3) = x3) (hv40 : V (Proc.devRef .tc main_v40) = ReadP.val_main_v40 (F := F) x0 x1 x2) :
    after (o8 (F := F)) V (Proc.devRef .tc main_v47) = ReadP.val_main_v47 (F := F) x0 x1 x2 x3 := by
  unfold o8
  after_results
  rw [harg3, hv40]
  rfl

theorem s9_v55 (V : Valuation τ sig (Elt F)) (x0 : (⟨S500000x64, .f32⟩ : BufTy).Contents (Elt F)) (x1 : (⟨S500000x4, .i32⟩ : BufTy).Contents (Elt F)) (x2 : (⟨S128x320, .f32⟩ : BufTy).Contents (Elt F)) (x3 : (⟨S128, .f32⟩ : BufTy).Contents (Elt F)) (x4 : (⟨S128, .f32⟩ : BufTy).Contents (Elt F))
    (harg4 : V (Proc.devRef .tc main_arg4) = x4) (hv43 : V (Proc.devRef .tc main_v43) = ReadP.val_main_v43 (F := F) x0 x1 x2) (hv47 : V (Proc.devRef .tc main_v47) = ReadP.val_main_v47 (F := F) x0 x1 x2 x3) :
    after (o9 (F := F)) V (Proc.devRef .tc main_v55) = ReadP.val_main_v55 (F := F) x0 x1 x2 x3 x4 := by
  unfold o9
  after_results
  rw [harg4, hv43, hv47]
  rfl

/-- The program's operations are the nine stretches in order. -/
theorem ops_cut : (ValueP.ops (F := F)) = o1 ++ (o2 ++ (o3 ++ (o4 ++ (o5 ++ (o6 ++ (o7 ++ (o8 ++ o9))))))) := rfl

/-- Running the whole program is running the stretches one after the other. -/
theorem ops_after (V : Valuation τ sig (Elt F)) :
    after (ValueP.ops (F := F)) V = (after (o9 (F := F)) (after (o8 (F := F)) (after (o7 (F := F)) (after (o6 (F := F)) (after (o5 (F := F)) (after (o4 (F := F)) (after (o3 (F := F)) (after (o2 (F := F)) (after (o1 (F := F)) V))))))))) := by
  rw [ops_cut]; simp only [StableHlo.after_append]

/-- A buffer no stretch writes keeps its contents through the whole program. -/
theorem keep_ops {r : Ref sig .tc} (V : Valuation τ sig (Elt F)) (h1 : r ∉ W1) (h2 : r ∉ W2) (h3 : r ∉ W3) (h4 : r ∉ W4) (h5 : r ∉ W5)
    (h6 : r ∉ W6) (h7 : r ∉ W7) (h8 : r ∉ W8) (h9 : r ∉ W9) :
    after (ValueP.ops (F := F)) V (Proc.devRef .tc r) = V (Proc.devRef .tc r) := by
  rw [ops_after, keep9 _ h9, keep8 _ h8, keep7 _ h7, keep6 _ h6, keep5 _ h5, keep4 _ h4, keep3 _ h3, keep2 _ h2, keep1 _ h1]

/-- The result buffer after the whole program, from any contents, is the last stage at the arguments' contents. -/
theorem after_ops_v55 (V : Valuation τ sig (Elt F)) :
    after (ValueP.ops (F := F)) V (Proc.devRef .tc main_v55)
      = ReadP.val_main_v55 (F := F) (V (Proc.devRef .tc main_arg0)) (V (Proc.devRef .tc main_arg1)) (V (Proc.devRef .tc main_arg2)) (V (Proc.devRef .tc main_arg3)) (V (Proc.devRef .tc main_arg4)) := by
  have f0 := s1_v0 V _ rfl
  have f7 := s2_v7 (after (o1 (F := F)) V) _ _ (keep1 (r := main_arg0) V (by decide)) f0
  have f12 := s3_v12 (after (o2 (F := F)) (after (o1 (F := F)) V)) _ _ f7
  have f17 := s3_v17 (after (o2 (F := F)) (after (o1 (F := F)) V)) _ _ f7
  have f7' := (keep3 (r := main_v7) (after (o2 (F := F)) (after (o1 (F := F)) V)) (by decide)).trans f7
  have f22 := s4_v22 (after (o3 (F := F)) (after (o2 (F := F)) (after (o1 (F := F)) V))) _ _ f7'
  have f27 := s4_v27 (after (o3 (F := F)) (after (o2 (F := F)) (after (o1 (F := F)) V))) _ _ f7'
  have f12' := (keep4 (r := main_v12) (after (o3 (F := F)) (after (o2 (F := F)) (after (o1 (F := F)) V))) (by decide)).trans f12
  have f17' := (keep4 (r := main_v17) (after (o3 (F := F)) (after (o2 (F := F)) (after (o1 (F := F)) V))) (by decide)).trans f17
  have f28 := s5_v28 (after (o4 (F := F)) (after (o3 (F := F)) (after (o2 (F := F)) (after (o1 (F := F)) V)))) _ _ ((keep4 (r := main_arg0) (after (o3 (F := F)) (after (o2 (F := F)) (after (o1 (F := F)) V))) (by decide)).trans ((keep3 (r := main_arg0) (after (o2 (F := F)) (after (o1 (F := F)) V)) (by decide)).trans ((keep2 (r := main_arg0) (after (o1 (F := F)) V) (by decide)).trans (keep1 (r := main_arg0) V (by decide))))) f12' f17' f22 f27
  have a2 : (after (o5 (F := F)) (after (o4 (F := F)) (after (o3 (F := F)) (after (o2 (F := F)) (after (o1 (F := F)) V))))) (Proc.devRef .tc main_arg2) = V (Proc.devRef .tc main_arg2) := (keep5 (r := main_arg2) (after (o4 (F := F)) (after (o3 (F := F)) (after (o2 (F := F)) (after (o1 (F := F)) V)))) (by decide)).trans ((keep4 (r := main_arg2) (after (o3 (F := F)) (after (o2 (F := F)) (after (o1 (F := F)) V))) (by decide)).trans ((keep3 (r := main_arg2) (after (o2 (F := F)) (after (o1 (F := F)) V)) (by decide)).trans ((keep2 (r := main_arg2) (after (o1 (F := F)) V) (by decide)).trans (keep1 (r := main_arg2) V (by decide)))))
  have f30 := s6_v30 (after (o5 (F := F)) (after (o4 (F := F)) (after (o3 (F := F)) (after (o2 (F := F)) (after (o1 (F := F)) V))))) _ _ _ a2 f28
  have f33 := s6_v33 (after (o5 (F := F)) (after (o4 (F := F)) (after (o3 (F := F)) (after (o2 (F := F)) (after (o1 (F := F)) V))))) _ _ _ a2 f28
  have f40 := s7_v40 (after (o6 (F := F)) (after (o5 (F := F)) (after (o4 (F := F)) (after (o3 (F := F)) (after (o2 (F := F)) (after (o1 (F := F)) V)))))) _ _ _ f30 f33
  have f30' := (keep7 (r := main_v30) (after (o6 (F := F)) (after (o5 (F := F)) (after (o4 (F := F)) (after (o3 (F := F)) (after (o2 (F := F)) (after (o1 (F := F)) V)))))) (by decide)).trans f30
  have f33' := (keep7 (r := main_v33) (after (o6 (F := F)) (after (o5 (F := F)) (after (o4 (F := F)) (after (o3 (F := F)) (after (o2 (F := F)) (after (o1 (F := F)) V)))))) (by decide)).trans f33
  have f43 := s8_v43 (after (o7 (F := F)) (after (o6 (F := F)) (after (o5 (F := F)) (after (o4 (F := F)) (after (o3 (F := F)) (after (o2 (F := F)) (after (o1 (F := F)) V))))))) _ _ _ f30' f33'
  have a3 : (after (o7 (F := F)) (after (o6 (F := F)) (after (o5 (F := F)) (after (o4 (F := F)) (after (o3 (F := F)) (after (o2 (F := F)) (after (o1 (F := F)) V))))))) (Proc.devRef .tc main_arg3) = V (Proc.devRef .tc main_arg3) := (keep7 (r := main_arg3) (after (o6 (F := F)) (after (o5 (F := F)) (after (o4 (F := F)) (after (o3 (F := F)) (after (o2 (F := F)) (after (o1 (F := F)) V)))))) (by decide)).trans ((keep6 (r := main_arg3) (after (o5 (F := F)) (after (o4 (F := F)) (after (o3 (F := F)) (after (o2 (F := F)) (after (o1 (F := F)) V))))) (by decide)).trans ((keep5 (r := main_arg3) (after (o4 (F := F)) (after (o3 (F := F)) (after (o2 (F := F)) (after (o1 (F := F)) V)))) (by decide)).trans ((keep4 (r := main_arg3) (after (o3 (F := F)) (after (o2 (F := F)) (after (o1 (F := F)) V))) (by decide)).trans ((keep3 (r := main_arg3) (after (o2 (F := F)) (after (o1 (F := F)) V)) (by decide)).trans ((keep2 (r := main_arg3) (after (o1 (F := F)) V) (by decide)).trans (keep1 (r := main_arg3) V (by decide)))))))
  have f47 := s8_v47 (after (o7 (F := F)) (after (o6 (F := F)) (after (o5 (F := F)) (after (o4 (F := F)) (after (o3 (F := F)) (after (o2 (F := F)) (after (o1 (F := F)) V))))))) _ _ _ _ a3 f40
  have a4 : (after (o8 (F := F)) (after (o7 (F := F)) (after (o6 (F := F)) (after (o5 (F := F)) (after (o4 (F := F)) (after (o3 (F := F)) (after (o2 (F := F)) (after (o1 (F := F)) V)))))))) (Proc.devRef .tc main_arg4) = V (Proc.devRef .tc main_arg4) := (keep8 (r := main_arg4) (after (o7 (F := F)) (after (o6 (F := F)) (after (o5 (F := F)) (after (o4 (F := F)) (after (o3 (F := F)) (after (o2 (F := F)) (after (o1 (F := F)) V))))))) (by decide)).trans ((keep7 (r := main_arg4) (after (o6 (F := F)) (after (o5 (F := F)) (after (o4 (F := F)) (after (o3 (F := F)) (after (o2 (F := F)) (after (o1 (F := F)) V)))))) (by decide)).trans ((keep6 (r := main_arg4) (after (o5 (F := F)) (after (o4 (F := F)) (after (o3 (F := F)) (after (o2 (F := F)) (after (o1 (F := F)) V))))) (by decide)).trans ((keep5 (r := main_arg4) (after (o4 (F := F)) (after (o3 (F := F)) (after (o2 (F := F)) (after (o1 (F := F)) V)))) (by decide)).trans ((keep4 (r := main_arg4) (after (o3 (F := F)) (after (o2 (F := F)) (after (o1 (F := F)) V))) (by decide)).trans ((keep3 (r := main_arg4) (after (o2 (F := F)) (after (o1 (F := F)) V)) (by decide)).trans ((keep2 (r := main_arg4) (after (o1 (F := F)) V) (by decide)).trans (keep1 (r := main_arg4) V (by decide))))))))
  have f55 := s9_v55 (after (o8 (F := F)) (after (o7 (F := F)) (after (o6 (F := F)) (after (o5 (F := F)) (after (o4 (F := F)) (after (o3 (F := F)) (after (o2 (F := F)) (after (o1 (F := F)) V)))))))) _ _ _ _ _ a4 f43 f47
  rw [ops_after]; exact f55

/-- On every device, for any float values, from any memory with zero counters: every weakly fair execution of the
    program terminates with the result buffer at the last stage of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = ReadP.val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v55).trans (after_ops_v55 _),
      (h c main_arg0).trans (keep_ops _ (by decide) (by decide) (by decide) (by decide) (by decide) (by decide) (by decide) (by decide) (by decide)),
      (h c main_arg1).trans (keep_ops _ (by decide) (by decide) (by decide) (by decide) (by decide) (by decide) (by decide) (by decide) (by decide)),
      (h c main_arg2).trans (keep_ops _ (by decide) (by decide) (by decide) (by decide) (by decide) (by decide) (by decide) (by decide) (by decide)),
      (h c main_arg3).trans (keep_ops _ (by decide) (by decide) (by decide) (by decide) (by decide) (by decide) (by decide) (by decide) (by decide)),
      (h c main_arg4).trans (keep_ops _ (by decide) (by decide) (by decide) (by decide) (by decide) (by decide) (by decide) (by decide) (by decide))⟩)
    (run_seq ValueP.scopedRefs_eq ValueP.scopedSems_eq defs main (fun _ => ValueP.ops) ValueP.main_eq (fun _ => ValueP.ops_sub) m ρ)

end Cert.ReferenceIdeal.RefRun

end
-- ==== Proof.KBody.lean ====
/-
  The two kernel bodies on whole staging buffers, at any float instance.

  The normalising body reads five buffers (the product block, the mean row, the variance row, gamma, beta) and stores one
  value, a pure function of the five. The accumulating body stores the block's matrix product and adds the block's column
  sums, and the column sums of its squares, to two one-row accumulators; at the first grid point it first stores a zero
  row into both, so that what it adds to is the zero row; at every later point it adds to what the accumulators hold.
-/
import proofs.«139815_j8323646619907_1_alg».proof.Proof.Gen.Kernel.Launch
import proofs.«139815_j8323646619907_1_alg».proof.Proof.Gen.Kernel.Skeleton
import proofs.«139815_j8323646619907_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Closers
variable {sig' : RefSig} {κ' : Kind} {sp' : Space} {S : Shape} {e : EltTy}

/-- After a last store through the whole-buffer rectangle, whatever was stored before, the buffer reads as that store's value. -/
theorem read_writes_cons_whole (v : View sig' κ' sp' S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

end Closers
/-- The zero offsets of a whole-buffer access, however the literal spells them. -/
theorem hz2 : (![0, 0] : Fin 2 → Nat) = fun _ => 0 := by funext a; fin_cases a <;> rfl

set_option maxHeartbeats 1000000 in
/-- The normalising kernel on whole staging memrefs: the five inputs at their contents, the output at anything; it
    ends with the inputs as they were and the output holding the one stored value, a pure function of the five. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x1 : Vec F S5000x128 .f32) (x2 x3 x4 x5 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay1 x4 x3 x1 x2 x5)) -∗ K ⟨⟩))
      ⊢ wp frame (wpE (defs₀ (F := F)) Variants.none c none) E (cc1__norm_relu_kernel i arg1 harg1 arg2 harg2 arg3 harg3 arg4 harg4 arg5 harg5 arg6 harg6) K := by
  simp only [cc1__norm_relu_kernel_eq_skeleton]; unfold cc1__norm_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  rw [read_writes_cons_whole _ _ hz2]
  simp only [View.readAt_eq_ld, View.ld_unit_zero (S := S1x128) hz2, View.ld_unit_zero (S := S5000x128) hz2, View.ld_unit_zero (S := S5000x320) hz2, View.ld_unit_zero (S := S320x128) hz2]
/-- The accumulating kernel's one branch: taken exactly when the grid coordinate is zero. -/
abbrev cond0_0 (i : grid0.Coords) : Prop := (Scalar.cmpi .ne (Scalar.extui (Scalar.cmpi .eq (BitVec.ofNat 32 (i 0).val) 0#32)) 0#32) = 1#1

set_option maxHeartbeats 1000000 in
theorem sound_kernel0_B (c : Dev nD) (E : Set ℕ) (i : grid0.Coords) (hc0 : ¬cond0_0 i)
    (arg1 : Memref sig .tc .vmem S5000x320 .f32) (harg1 : arg1.IsWhole) (arg2 : Memref sig .tc .vmem S320x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole)
    (x1 : Vec F S5000x320 .f32) (x2 : Vec F S320x128 .f32) (a4 a5 : Vec F S1x128 .f32) (K : PUnit → sProp 𝕄) :
    iprop(owns (c : Thread nD τ) arg1 fullShare x1 ∗ owns (c : Thread nD τ) arg2 fullShare x2 ∗ (∃ d, owns (c : Thread nD τ) arg3 fullShare d)
        ∗ owns (c : Thread nD τ) arg4 fullShare a4 ∗ owns (c : Thread nD τ) arg5 fullShare a5
        ∗ (iprop(owns (c : Thread nD τ) arg1 fullShare x1 ∗ owns (c : Thread nD τ) arg2 fullShare x2
            ∗ owns (c : Thread nD τ) arg3 fullShare (k0_pay3 x1 x2)
            ∗ owns (c : Thread nD τ) arg4 fullShare (k0_pay4 x1 x2 a4) ∗ owns (c : Thread nD τ) arg5 fullShare (k0_pay5 x1 x2 a5)) -∗ K ⟨⟩))
      ⊢ wp frame (wpE (defs₀ (F := F)) Variants.none c none) E (cc0__mm_accum_kernel i arg1 harg1 arg2 harg2 arg3 harg3 arg4 harg4 arg5 harg5) K := by
  simp only [cc0__mm_accum_kernel_eq_skeleton]; unfold cc0__mm_accum_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  subst hf1; subst hf2; subst hf4; subst hf5
  sl_exec (disch := first | exact hc0)
  sl_step
  iapply Hk
  isplitl [H1]; · iexists f1; isplitr; · ipureintro; rfl
                  iexact H1
  isplitl [H2]; · iexists f2; isplitr; · ipureintro; rfl
                  iexact H2
  isplitl [H3]
  · iexists _; isplitr
    swap; · iexact H3
    ipureintro
    rw [read_writes_cons_whole _ _ hz2]
    simp only [View.readAt_eq_ld, View.ld_unit_zero (S := S1x128) hz2, View.ld_unit_zero (S := S5000x128) hz2, View.ld_unit_zero (S := S5000x320) hz2, View.ld_unit_zero (S := S320x128) hz2]
  isplitl [H4]
  · iexists _; isplitr
    swap; · iexact H4
    ipureintro
    rw [read_writes_cons_whole _ _ hz2]
    simp only [View.readAt_eq_ld, View.ld_unit_zero (S := S1x128) hz2, View.ld_unit_zero (S := S5000x128) hz2, View.ld_unit_zero (S := S5000x320) hz2, View.ld_unit_zero (S := S320x128) hz2]
  iexists _; isplitr
  swap; · iexact H5
  ipureintro
  rw [read_writes_cons_whole _ _ hz2]
  simp only [View.readAt_eq_ld, View.ld_unit_zero (S := S1x128) hz2, View.ld_unit_zero (S := S5000x128) hz2, View.ld_unit_zero (S := S5000x320) hz2, View.ld_unit_zero (S := S320x128) hz2]

set_option maxHeartbeats 1000000 in
theorem sound_kernel0_A (c : Dev nD) (E : Set ℕ) (i : grid0.Coords) (hc0 : cond0_0 i)
    (arg1 : Memref sig .tc .vmem S5000x320 .f32) (harg1 : arg1.IsWhole) (arg2 : Memref sig .tc .vmem S320x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole)
    (x1 : Vec F S5000x320 .f32) (x2 : Vec F S320x128 .f32) (K : PUnit → sProp 𝕄) :
    iprop(owns (c : Thread nD τ) arg1 fullShare x1 ∗ owns (c : Thread nD τ) arg2 fullShare x2 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x1 ∗ owns (c : Thread nD τ) arg2 fullShare x2
            ∗ owns (c : Thread nD τ) arg3 fullShare (k0_pay3 x1 x2)
            ∗ owns (c : Thread nD τ) arg4 fullShare (k0_pay4 x1 x2 k0_pay1) ∗ owns (c : Thread nD τ) arg5 fullShare (k0_pay5 x1 x2 k0_pay2)) -∗ K ⟨⟩))
      ⊢ wp frame (wpE (defs₀ (F := F)) Variants.none c none) E (cc0__mm_accum_kernel i arg1 harg1 arg2 harg2 arg3 harg3 arg4 harg4 arg5 harg5) K := by
  simp only [cc0__mm_accum_kernel_eq_skeleton]; unfold cc0__mm_accum_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1; subst hf2
  sl_exec (disch := first | exact hc0)
  sl_step
  iapply Hk
  isplitl [H1]; · iexists f1; isplitr; · ipureintro; rfl
                  iexact H1
  isplitl [H2]; · iexists f2; isplitr; · ipureintro; rfl
                  iexact H2
  isplitl [H3]
  · iexists _; isplitr
    swap; · iexact H3
    ipureintro
    rw [read_writes_cons_whole _ _ hz2]
    simp only [View.readAt_eq_ld, View.ld_unit_zero (S := S1x128) hz2, View.ld_unit_zero (S := S5000x128) hz2, View.ld_unit_zero (S := S5000x320) hz2, View.ld_unit_zero (S := S320x128) hz2]
  isplitl [H4]
  · iexists _; isplitr
    swap; · iexact H4
    ipureintro
    rw [read_writes_cons_whole _ _ hz2]
    sl_unfold_words
    simp only [View.readAt_eq_ld, View.ld_unit_zero (S := S1x128) hz2, View.ld_unit_zero (S := S5000x128) hz2, View.ld_unit_zero (S := S5000x320) hz2, View.ld_unit_zero (S := S320x128) hz2, View.readCov_unit_zero (S := S1x128) _ hz2]
  iexists _; isplitr
  swap; · iexact H5
  ipureintro
  rw [read_writes_cons_whole _ _ hz2]
  sl_unfold_words
  simp only [View.readAt_eq_ld, View.ld_unit_zero (S := S1x128) hz2, View.ld_unit_zero (S := S5000x128) hz2, View.ld_unit_zero (S := S5000x320) hz2, View.ld_unit_zero (S := S320x128) hz2, View.readCov_unit_zero (S := S1x128) _ hz2]

end Cert.Kernel.Hand

end
-- ==== Proof.KRegion0.lean ====
/-
  The accumulating region, at any float instance and any entry contents: what each window's staging buffer holds after the
  body at each grid point. The two inputs keep their blocks; the product window holds the block's product; each accumulator
  holds the running sum over the points so far, a recursion on the point that starts from the zero row.
-/
import proofs.«139815_j8323646619907_1_alg».proof.Proof.KBody
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating region: its proof data at any entry contents, and the body at every grid point -/

/-- The body's one branch is taken at the first grid point only. -/
theorem hcond0_0 : ∀ t : Fin cfg0.N, cond0_0 (grid0.coords t) ↔ t.val % 100 = 0 :=
  (by decide +kernel : ∀ t : Fin grid0.N, cond0_0 (grid0.coords t) ↔ t.val % 100 = 0)

section Region0
-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE RUNNING COLUMN SUMS. What the first accumulator's buffer holds after the body at position n: at the first point
    the block's column sums added to the zero row the branch stored, afterwards added to what the point before left. -/
def acc3 (c : Dev nD) : (n : ℕ) → n < cfg0.N → Vec F S1x128 .f32
  | 0, hn => k0_pay4 (iblk0 V c 0 ⟨0, hn⟩) (iblk0 V c 1 ⟨0, hn⟩) (k0_pay1 (F := F))
  | n + 1, hn => k0_pay4 (iblk0 V c 0 ⟨n + 1, hn⟩) (iblk0 V c 1 ⟨n + 1, hn⟩) (acc3 c n (Nat.lt_of_succ_lt hn))

/-- The same for the sums of squares. -/
def acc4 (c : Dev nD) : (n : ℕ) → n < cfg0.N → Vec F S1x128 .f32
  | 0, hn => k0_pay5 (iblk0 V c 0 ⟨0, hn⟩) (iblk0 V c 1 ⟨0, hn⟩) (k0_pay2 (F := F))
  | n + 1, hn => k0_pay5 (iblk0 V c 0 ⟨n + 1, hn⟩) (iblk0 V c 1 ⟨n + 1, hn⟩) (acc4 c n (Nat.lt_of_succ_lt hn))

theorem acc3_first (c : Dev nD) (t : Fin cfg0.N) (h0 : t.val = 0) :
    acc3 V c t.val t.isLt = k0_pay4 (iblk0 V c 0 t) (iblk0 V c 1 t) (k0_pay1 (F := F)) := by
  obtain ⟨n, hn⟩ := t
  cases n with
  | zero => rfl
  | succ n => exact absurd h0 (Nat.succ_ne_zero n)

theorem acc3_later (c : Dev nD) (t : Fin cfg0.N) (h0 : t.val ≠ 0) :
    acc3 V c t.val t.isLt = k0_pay4 (iblk0 V c 0 t) (iblk0 V c 1 t) (acc3 V c (t.val - 1) (Nat.lt_of_le_of_lt (Nat.sub_le _ _) t.isLt)) := by
  obtain ⟨n, hn⟩ := t
  cases n with
  | zero => exact absurd rfl h0
  | succ n => rfl

theorem acc4_first (c : Dev nD) (t : Fin cfg0.N) (h0 : t.val = 0) :
    acc4 V c t.val t.isLt = k0_pay5 (iblk0 V c 0 t) (iblk0 V c 1 t) (k0_pay2 (F := F)) := by
  obtain ⟨n, hn⟩ := t
  cases n with
  | zero => rfl
  | succ n => exact absurd h0 (Nat.succ_ne_zero n)

theorem acc4_later (c : Dev nD) (t : Fin cfg0.N) (h0 : t.val ≠ 0) :
    acc4 V c t.val t.isLt = k0_pay5 (iblk0 V c 0 t) (iblk0 V c 1 t) (acc4 V c (t.val - 1) (Nat.lt_of_le_of_lt (Nat.sub_le _ _) t.isLt)) := by
  obtain ⟨n, hn⟩ := t
  cases n with
  | zero => exact absurd rfl h0
  | succ n => rfl

/-- The proof data: the arrays as found; after the body each input's buffer at its block, the product's at the block's
    product, the accumulators' at the running sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t) (iblk0 V c 1 t)
    | ⟨3, _⟩ => acc3 V c t.val t.isLt
    | ⟨4, _⟩ => acc4 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (iblk0 V c 0 t) (iblk0 V c 1 t) := by dsimp only [dat0]
theorem after0_3 (c : Dev nD) (t : Fin cfg0.N) : (dat0 V c).after 3 t = acc3 V c t.val t.isLt := by dsimp only [dat0]
theorem after0_4 (c : Dev nD) (t : Fin cfg0.N) : (dat0 V c).after 4 t = acc4 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- After the first point an accumulator's buffer holds what the body left at the point before: it is written back at
    the last point only, and the window is never idle or clipped. -/
theorem before0_3_later (c : Dev nD) (t : Fin cfg0.N) (h0 : t.val ≠ 0) (d) :
    (dat0 V c).before 3 t d = acc3 V c (t.val - 1) (Nat.lt_of_le_of_lt (Nat.sub_le _ _) t.isLt) := by
  have hN : t.val < 100 := lt_of_lt_of_eq t.isLt (show cfg0.N = 100 from N_0)
  rw [Dat.before_out_kept _ 3 rfl t h0 (Bool.eq_false_iff.mpr fun h => by have := (flush0_3 _).mp h; dsimp only at this; omega)
    (fun _ => rfl) (fun _ _ => rfl)]
  dsimp only [dat0]

theorem before0_4_later (c : Dev nD) (t : Fin cfg0.N) (h0 : t.val ≠ 0) (d) :
    (dat0 V c).before 4 t d = acc4 V c (t.val - 1) (Nat.lt_of_le_of_lt (Nat.sub_le _ _) t.isLt) := by
  have hN : t.val < 100 := lt_of_lt_of_eq t.isLt (show cfg0.N = 100 from N_0)
  rw [Dat.before_out_kept _ 4 rfl t h0 (Bool.eq_false_iff.mpr fun h => by have := (flush0_4 _).mp h; dsimp only at this; omega)
    (fun _ => rfl) (fun _ _ => rfl)]
  dsimp only [dat0]

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' buffers hold their blocks; at the first point the branch is taken and the
    accumulators start from the stored zero row, at a later point it is not and they hold the point before's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 100 := lt_of_lt_of_eq t.isLt (show cfg0.N = 100 from N_0)
  by_cases h0 : t.val = 0
  · rw [acc3_first V c t h0, acc4_first V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) ((hcond0_0 t).mpr (by omega)) _ _ _ _ _ _ _ _ _ _ (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc3_later V c t h0, acc4_later V c t h0]
    simp only [before0_3_later V c t h0, before0_4_later V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) (fun h => h0 (by have := (hcond0_0 t).mp h; omega)) _ _ _ _ _ _ _ _ _ _ (iblk0 V c 0 t) (iblk0 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
/-
  The normalising region, at any float instance and any entry contents: after the body at a grid point the five inputs
  keep their blocks and the output's buffer holds the body's one stored value of those five blocks.
-/
import proofs.«139815_j8323646619907_1_alg».proof.Proof.KBody
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The normalising region: its proof data at any entry contents, and the body at every grid point -/

section Region1
-- the core's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as found; after the body each input's buffer at its block and the output's at the one
    stored value, a function of the five input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 3 t) (iblk1 V c 2 t) (iblk1 V c 0 t) (iblk1 V c 1 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (iblk1 V c 3 t) (iblk1 V c 2 t) (iblk1 V c 0 t) (iblk1 V c 1 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' buffers hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The whole program's run, at any float instance: three stretches of host operations, the accumulating region, one more
  stretch, the normalising region. The contents of every buffer at each boundary are a fold from the launch memory: a host
  stretch applies its operations, a region replaces its arrays by what its write-backs leave. Every execution terminates
  and ends with every buffer at the last boundary's contents; the arguments are written by nothing, so they end as
  launched, and the result array ends at what the normalising region's write-backs leave.
-/
import proofs.«139815_j8323646619907_1_alg».proof.Proof.KRegion0
import proofs.«139815_j8323646619907_1_alg».proof.Proof.KRegion1
import proofs.«139815_j8323646619907_1_alg».proof.Proof.Gen.Kernel.Regions
import Idealize.ShloMosaic.Lib.Pipeline.Kit
import Idealize.ShloMosaic.Lib.Pipeline.RegionsLoop
import Idealize.ShloMosaic.Lib.Pipeline.FrameSuffix
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: @main's six items from the launch to the return -/

variable (m : (ℓ : Loc nD τ sig) → Buf (Elt F) ℓ)

/-! ## The buffer contents at each boundary: a fold through @main -/

/-- Core c's buffers when the accumulating region is entered: the launch contents after the three host stretches. -/
abbrev W3 : Dev nD → Valuation τ sig (Elt F) := fun c => StableHlo.after hostOps0_2 (StableHlo.after hostOps0_1 (StableHlo.after hostOps0 (fun b => m (c, b))))
/-- The same read at the core's references (what the accumulating region's proof data take). -/
abbrev VE0 : (c : Dev nD) → (b : Ref sig .tc) → Buf (Elt F) ((c : Thread nD τ).loc b) := fun c b => W3 m c b
/-- At the accumulating region's exit: its arrays at what its write-backs leave, every other buffer as entered. -/
def W4 (c : Dev nD) : Valuation τ sig (Elt F) :=
  Pipeline.withArrays spec0 c (W3 m c) fun w => (dat0 (VE0 m) c).arrAt w cfg0.N
theorem W4_arr (c : Dev nD) (w : Fin cfg0.W) :
    W4 m c (Proc.devRef .tc (Pipeline.arrRef spec0 w)) = (dat0 (VE0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev VX0 : (c : Dev nD) → (b : Ref sig .tc) → Buf (Elt F) ((c : Thread nD τ).loc b) := fun c b => W4 m c b
theorem hF0 (c : Dev nD) (w : Fin cfg0.W) : (dat0 (VE0 m) c).arrAt w cfg0.N = VX0 m c (Pipeline.arrRef spec0 w) :=
  (W4_arr m c w).symm
theorem hrest0 (c : Dev nD) : ∀ b, b ∉ Finset.univ.image (Pipeline.arrRef spec0) → VX0 m c b = VE0 m c b :=
  fun b hb => W4_of_ne m c b fun w e => hb (Finset.mem_image.mpr ⟨w, Finset.mem_univ _, e⟩)

/-- After the host stretch between the regions (the normalising region's entry). -/
abbrev W5 : Dev nD → Valuation τ sig (Elt F) := fun c => StableHlo.after hostOps1 (W4 m c)
abbrev VE1 : (c : Dev nD) → (b : Ref sig .tc) → Buf (Elt F) ((c : Thread nD τ).loc b) := fun c b => W5 m c b
/-- At the normalising region's exit. -/
def W6 (c : Dev nD) : Valuation τ sig (Elt F) :=
  Pipeline.withArrays spec1 c (W5 m c) fun w => (dat1 (VE1 m) c).arrAt w cfg1.N
theorem W6_arr (c : Dev nD) (w : Fin cfg1.W) :
    W6 m c (Proc.devRef .tc (Pipeline.arrRef spec1 w)) = (dat1 (VE1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VX1 : (c : Dev nD) → (b : Ref sig .tc) → Buf (Elt F) ((c : Thread nD τ).loc b) := fun c b => W6 m c b
theorem hF1 (c : Dev nD) (w : Fin cfg1.W) : (dat1 (VE1 m) c).arrAt w cfg1.N = VX1 m c (Pipeline.arrRef spec1 w) :=
  (W6_arr m c w).symm
theorem hrest1 (c : Dev nD) : ∀ b, b ∉ Finset.univ.image (Pipeline.arrRef spec1) → VX1 m c b = VE1 m c b :=
  fun b hb => W6_of_ne m c b fun w e => hb (Finset.mem_image.mpr ⟨w, Finset.mem_univ _, e⟩)

/-! ### A buffer no host operation writes and no region may change ends as launched -/

/-- A reference outside every stretch's written list and every region's windows reads, at the end, what the launch put there. -/
theorem W6_kept (c : Dev nD) (r : Ref sig .tc) (h0 : r ∉ Gen.hostOps0_W) (h1 : r ∉ Gen.hostOps0_1_W) (h2 : r ∉ Gen.hostOps0_2_W)
    (h3 : ∀ w, Pipeline.arrRef spec0 w ≠ r) (h4 : r ∉ Gen.hostOps1_W) (h5 : ∀ w, Pipeline.arrRef spec1 w ≠ r) :
    W6 m c (Proc.devRef .tc r) = m ((c : Thread nD τ).loc r) :=
  calc W6 m c (Proc.devRef .tc r)
    _ = W5 m c (Proc.devRef .tc r) := W6_of_ne m c r h5
    _ = W4 m c (Proc.devRef .tc r) := StableHlo.after_of_writes_sub hostOps1 _ Gen.hostOps1_writes h4
    _ = W3 m c (Proc.devRef .tc r) := W4_of_ne m c r h3
    _ = m ((c : Thread nD τ).loc r) := (Gen.V3_of m c r h2).trans <| (Gen.V2_of m c r h1).trans <| (Gen.V1_of m c r h0).trans rfl

/-! ## The proof data family and the thread state -/

/-- No pallas_call has a prefetched table. -/
abbrev hadm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) hadm p) c
  | ⟨0, _⟩ => fun c => dat0 (VE0 m) c
  | ⟨1, _⟩ => fun c => dat1 (VE1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The accumulating region over the thread state: entered with every unscoped buffer at W3, left at W4. Its arrays are
    split out of the unscoped buffers and put back at the exit contents; the generator register goes into the invariant
    and comes out; nothing is owed; the kernel has no semaphore of its own. -/
def reg0 : Pipeline.RegionSeg (pcfgs (F := F)) hadm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region over the thread state: entered with every unscoped buffer at W5, left at W6. -/
def reg1 : Pipeline.RegionSeg (pcfgs (F := F)) hadm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev hsegs : List (Pipeline.Seg (pcfgs (F := F)) hadm (pdats m) () defs₀ 𝒱₀ L lv) :=
  [ .host (hseg hostOps0 hostOps0_sub Gen.hostOps0_fresh (fun c b => m (c, b))),
    .host (hseg hostOps0_1 hostOps0_1_sub Gen.hostOps0_1_fresh (fun c => StableHlo.after hostOps0 (fun b => m (c, b)))),
    .host (hseg hostOps0_2 hostOps0_2_sub Gen.hostOps0_2_fresh (fun c => StableHlo.after hostOps0_1 (StableHlo.after hostOps0 (fun b => m (c, b))))),
    .region (reg0 m),
    .host (hseg hostOps1 hostOps1_sub Gen.hostOps1_fresh (W4 m)),
    .region (reg1 m) ]

set_option backward.isDefEq.respectTransparency.types false in
/-- THE RUN. From any memory with zero counters, every weakly fair execution of @main terminates, nothing faulting, and
    in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) hadm (pdats m) () cellOf_inj emb₁ defs₀ 𝒱₀ L lv m ρ main (hsegs m)
    (fun c Q => by
      rewrite [main_chain c, Pipeline.Seg.run_eq_chain,
        show (hsegs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide))⟩)
    (run_all m ρ)

/-- THE RUN WITH ITS RESULT NAMED: the result array ends at what the normalising region's write-backs leave, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v39) = (dat1 (VE1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v39 (by decide))).trans (W6_arr m c 5),
     (h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide))⟩)
    (run_all m ρ)

end Cert.Kernel.Hand

end
-- ==== Proof.KIBody.lean ====
/-
  The two kernel bodies on whole staging buffers, at any float instance.

  The normalising body reads five buffers (the product block, the mean row, the variance row, gamma, beta) and stores one
  value, a pure function of the five. The accumulating body stores the block's matrix product and adds the block's column
  sums, and the column sums of its squares, to two one-row accumulators; at the first grid point it first stores a zero
  row into both, so that what it adds to is the zero row; at every later point it adds to what the accumulators hold.
-/
import proofs.«139815_j8323646619907_1_alg».proof.Proof.Gen.KernelIdeal.Launch
import proofs.«139815_j8323646619907_1_alg».proof.Proof.Gen.KernelIdeal.Skeleton
import proofs.«139815_j8323646619907_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Closers
variable {sig' : RefSig} {κ' : Kind} {sp' : Space} {S : Shape} {e : EltTy}

/-- After a last store through the whole-buffer rectangle, whatever was stored before, the buffer reads as that store's value. -/
theorem read_writes_cons_whole (v : View sig' κ' sp' S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

end Closers
/-- The zero offsets of a whole-buffer access, however the literal spells them. -/
theorem hz2 : (![0, 0] : Fin 2 → Nat) = fun _ => 0 := by funext a; fin_cases a <;> rfl

set_option maxHeartbeats 1000000 in
/-- The normalising kernel on whole staging memrefs: the five inputs at their contents, the output at anything; it
    ends with the inputs as they were and the output holding the one stored value, a pure function of the five. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x1 : Vec F S5000x128 .f32) (x2 x3 x4 x5 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay1 x4 x3 x1 x2 x5)) -∗ K ⟨⟩))
      ⊢ wp frame (wpE (defs₀ (F := F)) Variants.none c none) E (cc1__norm_relu_kernel i arg1 harg1 arg2 harg2 arg3 harg3 arg4 harg4 arg5 harg5 arg6 harg6) K := by
  simp only [cc1__norm_relu_kernel_eq_skeleton]; unfold cc1__norm_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  rw [read_writes_cons_whole _ _ hz2]
  simp only [View.readAt_eq_ld, View.ld_unit_zero (S := S1x128) hz2, View.ld_unit_zero (S := S5000x128) hz2, View.ld_unit_zero (S := S5000x320) hz2, View.ld_unit_zero (S := S320x128) hz2]
/-- The accumulating kernel's one branch: taken exactly when the grid coordinate is zero. -/
abbrev cond0_0 (i : grid0.Coords) : Prop := (Scalar.cmpi .ne (Scalar.extui (Scalar.cmpi .eq (BitVec.ofNat 32 (i 0).val) 0#32)) 0#32) = 1#1

set_option maxHeartbeats 1000000 in
theorem sound_kernel0_B (c : Dev nD) (E : Set ℕ) (i : grid0.Coords) (hc0 : ¬cond0_0 i)
    (arg1 : Memref sig .tc .vmem S5000x320 .f32) (harg1 : arg1.IsWhole) (arg2 : Memref sig .tc .vmem S320x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole)
    (x1 : Vec F S5000x320 .f32) (x2 : Vec F S320x128 .f32) (a4 a5 : Vec F S1x128 .f32) (K : PUnit → sProp 𝕄) :
    iprop(owns (c : Thread nD τ) arg1 fullShare x1 ∗ owns (c : Thread nD τ) arg2 fullShare x2 ∗ (∃ d, owns (c : Thread nD τ) arg3 fullShare d)
        ∗ owns (c : Thread nD τ) arg4 fullShare a4 ∗ owns (c : Thread nD τ) arg5 fullShare a5
        ∗ (iprop(owns (c : Thread nD τ) arg1 fullShare x1 ∗ owns (c : Thread nD τ) arg2 fullShare x2
            ∗ owns (c : Thread nD τ) arg3 fullShare (k0_pay3 x1 x2)
            ∗ owns (c : Thread nD τ) arg4 fullShare (k0_pay4 x1 x2 a4) ∗ owns (c : Thread nD τ) arg5 fullShare (k0_pay5 x1 x2 a5)) -∗ K ⟨⟩))
      ⊢ wp frame (wpE (defs₀ (F := F)) Variants.none c none) E (cc0__mm_accum_kernel i arg1 harg1 arg2 harg2 arg3 harg3 arg4 harg4 arg5 harg5) K := by
  simp only [cc0__mm_accum_kernel_eq_skeleton]; unfold cc0__mm_accum_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  subst hf1; subst hf2; subst hf4; subst hf5
  sl_exec (disch := first | exact hc0)
  sl_step
  iapply Hk
  isplitl [H1]; · iexists f1; isplitr; · ipureintro; rfl
                  iexact H1
  isplitl [H2]; · iexists f2; isplitr; · ipureintro; rfl
                  iexact H2
  isplitl [H3]
  · iexists _; isplitr
    swap; · iexact H3
    ipureintro
    rw [read_writes_cons_whole _ _ hz2]
    simp only [View.readAt_eq_ld, View.ld_unit_zero (S := S1x128) hz2, View.ld_unit_zero (S := S5000x128) hz2, View.ld_unit_zero (S := S5000x320) hz2, View.ld_unit_zero (S := S320x128) hz2]
  isplitl [H4]
  · iexists _; isplitr
    swap; · iexact H4
    ipureintro
    rw [read_writes_cons_whole _ _ hz2]
    simp only [View.readAt_eq_ld, View.ld_unit_zero (S := S1x128) hz2, View.ld_unit_zero (S := S5000x128) hz2, View.ld_unit_zero (S := S5000x320) hz2, View.ld_unit_zero (S := S320x128) hz2]
  iexists _; isplitr
  swap; · iexact H5
  ipureintro
  rw [read_writes_cons_whole _ _ hz2]
  simp only [View.readAt_eq_ld, View.ld_unit_zero (S := S1x128) hz2, View.ld_unit_zero (S := S5000x128) hz2, View.ld_unit_zero (S := S5000x320) hz2, View.ld_unit_zero (S := S320x128) hz2]

set_option maxHeartbeats 1000000 in
theorem sound_kernel0_A (c : Dev nD) (E : Set ℕ) (i : grid0.Coords) (hc0 : cond0_0 i)
    (arg1 : Memref sig .tc .vmem S5000x320 .f32) (harg1 : arg1.IsWhole) (arg2 : Memref sig .tc .vmem S320x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole)
    (x1 : Vec F S5000x320 .f32) (x2 : Vec F S320x128 .f32) (K : PUnit → sProp 𝕄) :
    iprop(owns (c : Thread nD τ) arg1 fullShare x1 ∗ owns (c : Thread nD τ) arg2 fullShare x2 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x1 ∗ owns (c : Thread nD τ) arg2 fullShare x2
            ∗ owns (c : Thread nD τ) arg3 fullShare (k0_pay3 x1 x2)
            ∗ owns (c : Thread nD τ) arg4 fullShare (k0_pay4 x1 x2 k0_pay1) ∗ owns (c : Thread nD τ) arg5 fullShare (k0_pay5 x1 x2 k0_pay2)) -∗ K ⟨⟩))
      ⊢ wp frame (wpE (defs₀ (F := F)) Variants.none c none) E (cc0__mm_accum_kernel i arg1 harg1 arg2 harg2 arg3 harg3 arg4 harg4 arg5 harg5) K := by
  simp only [cc0__mm_accum_kernel_eq_skeleton]; unfold cc0__mm_accum_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1; subst hf2
  sl_exec (disch := first | exact hc0)
  sl_step
  iapply Hk
  isplitl [H1]; · iexists f1; isplitr; · ipureintro; rfl
                  iexact H1
  isplitl [H2]; · iexists f2; isplitr; · ipureintro; rfl
                  iexact H2
  isplitl [H3]
  · iexists _; isplitr
    swap; · iexact H3
    ipureintro
    rw [read_writes_cons_whole _ _ hz2]
    simp only [View.readAt_eq_ld, View.ld_unit_zero (S := S1x128) hz2, View.ld_unit_zero (S := S5000x128) hz2, View.ld_unit_zero (S := S5000x320) hz2, View.ld_unit_zero (S := S320x128) hz2]
  isplitl [H4]
  · iexists _; isplitr
    swap; · iexact H4
    ipureintro
    rw [read_writes_cons_whole _ _ hz2]
    sl_unfold_words
    simp only [View.readAt_eq_ld, View.ld_unit_zero (S := S1x128) hz2, View.ld_unit_zero (S := S5000x128) hz2, View.ld_unit_zero (S := S5000x320) hz2, View.ld_unit_zero (S := S320x128) hz2, View.readCov_unit_zero (S := S1x128) _ hz2]
  iexists _; isplitr
  swap; · iexact H5
  ipureintro
  rw [read_writes_cons_whole _ _ hz2]
  sl_unfold_words
  simp only [View.readAt_eq_ld, View.ld_unit_zero (S := S1x128) hz2, View.ld_unit_zero (S := S5000x128) hz2, View.ld_unit_zero (S := S5000x320) hz2, View.ld_unit_zero (S := S320x128) hz2, View.readCov_unit_zero (S := S1x128) _ hz2]

end Cert.KernelIdeal.Hand

end
-- ==== Proof.KIRegion0.lean ====
/-
  The accumulating region, at any float instance and any entry contents: what each window's staging buffer holds after the
  body at each grid point. The two inputs keep their blocks; the product window holds the block's product; each accumulator
  holds the running sum over the points so far, a recursion on the point that starts from the zero row.
-/
import proofs.«139815_j8323646619907_1_alg».proof.Proof.KIBody
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating region: its proof data at any entry contents, and the body at every grid point -/

/-- The body's one branch is taken at the first grid point only. -/
theorem hcond0_0 : ∀ t : Fin cfg0.N, cond0_0 (grid0.coords t) ↔ t.val % 100 = 0 :=
  (by decide +kernel : ∀ t : Fin grid0.N, cond0_0 (grid0.coords t) ↔ t.val % 100 = 0)

section Region0
-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE RUNNING COLUMN SUMS. What the first accumulator's buffer holds after the body at position n: at the first point
    the block's column sums added to the zero row the branch stored, afterwards added to what the point before left. -/
def acc3 (c : Dev nD) : (n : ℕ) → n < cfg0.N → Vec F S1x128 .f32
  | 0, hn => k0_pay4 (iblk0 V c 0 ⟨0, hn⟩) (iblk0 V c 1 ⟨0, hn⟩) (k0_pay1 (F := F))
  | n + 1, hn => k0_pay4 (iblk0 V c 0 ⟨n + 1, hn⟩) (iblk0 V c 1 ⟨n + 1, hn⟩) (acc3 c n (Nat.lt_of_succ_lt hn))

/-- The same for the sums of squares. -/
def acc4 (c : Dev nD) : (n : ℕ) → n < cfg0.N → Vec F S1x128 .f32
  | 0, hn => k0_pay5 (iblk0 V c 0 ⟨0, hn⟩) (iblk0 V c 1 ⟨0, hn⟩) (k0_pay2 (F := F))
  | n + 1, hn => k0_pay5 (iblk0 V c 0 ⟨n + 1, hn⟩) (iblk0 V c 1 ⟨n + 1, hn⟩) (acc4 c n (Nat.lt_of_succ_lt hn))

theorem acc3_first (c : Dev nD) (t : Fin cfg0.N) (h0 : t.val = 0) :
    acc3 V c t.val t.isLt = k0_pay4 (iblk0 V c 0 t) (iblk0 V c 1 t) (k0_pay1 (F := F)) := by
  obtain ⟨n, hn⟩ := t
  cases n with
  | zero => rfl
  | succ n => exact absurd h0 (Nat.succ_ne_zero n)

theorem acc3_later (c : Dev nD) (t : Fin cfg0.N) (h0 : t.val ≠ 0) :
    acc3 V c t.val t.isLt = k0_pay4 (iblk0 V c 0 t) (iblk0 V c 1 t) (acc3 V c (t.val - 1) (Nat.lt_of_le_of_lt (Nat.sub_le _ _) t.isLt)) := by
  obtain ⟨n, hn⟩ := t
  cases n with
  | zero => exact absurd rfl h0
  | succ n => rfl

theorem acc4_first (c : Dev nD) (t : Fin cfg0.N) (h0 : t.val = 0) :
    acc4 V c t.val t.isLt = k0_pay5 (iblk0 V c 0 t) (iblk0 V c 1 t) (k0_pay2 (F := F)) := by
  obtain ⟨n, hn⟩ := t
  cases n with
  | zero => rfl
  | succ n => exact absurd h0 (Nat.succ_ne_zero n)

theorem acc4_later (c : Dev nD) (t : Fin cfg0.N) (h0 : t.val ≠ 0) :
    acc4 V c t.val t.isLt = k0_pay5 (iblk0 V c 0 t) (iblk0 V c 1 t) (acc4 V c (t.val - 1) (Nat.lt_of_le_of_lt (Nat.sub_le _ _) t.isLt)) := by
  obtain ⟨n, hn⟩ := t
  cases n with
  | zero => exact absurd rfl h0
  | succ n => rfl

/-- The proof data: the arrays as found; after the body each input's buffer at its block, the product's at the block's
    product, the accumulators' at the running sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t) (iblk0 V c 1 t)
    | ⟨3, _⟩ => acc3 V c t.val t.isLt
    | ⟨4, _⟩ => acc4 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (iblk0 V c 0 t) (iblk0 V c 1 t) := by dsimp only [dat0]
theorem after0_3 (c : Dev nD) (t : Fin cfg0.N) : (dat0 V c).after 3 t = acc3 V c t.val t.isLt := by dsimp only [dat0]
theorem after0_4 (c : Dev nD) (t : Fin cfg0.N) : (dat0 V c).after 4 t = acc4 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- After the first point an accumulator's buffer holds what the body left at the point before: it is written back at
    the last point only, and the window is never idle or clipped. -/
theorem before0_3_later (c : Dev nD) (t : Fin cfg0.N) (h0 : t.val ≠ 0) (d) :
    (dat0 V c).before 3 t d = acc3 V c (t.val - 1) (Nat.lt_of_le_of_lt (Nat.sub_le _ _) t.isLt) := by
  have hN : t.val < 100 := lt_of_lt_of_eq t.isLt (show cfg0.N = 100 from N_0)
  rw [Dat.before_out_kept _ 3 rfl t h0 (Bool.eq_false_iff.mpr fun h => by have := (flush0_3 _).mp h; dsimp only at this; omega)
    (fun _ => rfl) (fun _ _ => rfl)]
  dsimp only [dat0]

theorem before0_4_later (c : Dev nD) (t : Fin cfg0.N) (h0 : t.val ≠ 0) (d) :
    (dat0 V c).before 4 t d = acc4 V c (t.val - 1) (Nat.lt_of_le_of_lt (Nat.sub_le _ _) t.isLt) := by
  have hN : t.val < 100 := lt_of_lt_of_eq t.isLt (show cfg0.N = 100 from N_0)
  rw [Dat.before_out_kept _ 4 rfl t h0 (Bool.eq_false_iff.mpr fun h => by have := (flush0_4 _).mp h; dsimp only at this; omega)
    (fun _ => rfl) (fun _ _ => rfl)]
  dsimp only [dat0]

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' buffers hold their blocks; at the first point the branch is taken and the
    accumulators start from the stored zero row, at a later point it is not and they hold the point before's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 100 := lt_of_lt_of_eq t.isLt (show cfg0.N = 100 from N_0)
  by_cases h0 : t.val = 0
  · rw [acc3_first V c t h0, acc4_first V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) ((hcond0_0 t).mpr (by omega)) _ _ _ _ _ _ _ _ _ _ (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc3_later V c t h0, acc4_later V c t h0]
    simp only [before0_3_later V c t h0, before0_4_later V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) (fun h => h0 (by have := (hcond0_0 t).mp h; omega)) _ _ _ _ _ _ _ _ _ _ (iblk0 V c 0 t) (iblk0 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1.lean ====
/-
  The normalising region, at any float instance and any entry contents: after the body at a grid point the five inputs
  keep their blocks and the output's buffer holds the body's one stored value of those five blocks.
-/
import proofs.«139815_j8323646619907_1_alg».proof.Proof.KIBody
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The normalising region: its proof data at any entry contents, and the body at every grid point -/

section Region1
-- the core's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as found; after the body each input's buffer at its block and the output's at the one
    stored value, a function of the five input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 3 t) (iblk1 V c 2 t) (iblk1 V c 0 t) (iblk1 V c 1 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (iblk1 V c 3 t) (iblk1 V c 2 t) (iblk1 V c 0 t) (iblk1 V c 1 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' buffers hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
/-
  The whole program's run, at any float instance: three stretches of host operations, the accumulating region, one more
  stretch, the normalising region. The contents of every buffer at each boundary are a fold from the launch memory: a host
  stretch applies its operations, a region replaces its arrays by what its write-backs leave. Every execution terminates
  and ends with every buffer at the last boundary's contents; the arguments are written by nothing, so they end as
  launched, and the result array ends at what the normalising region's write-backs leave.
-/
import proofs.«139815_j8323646619907_1_alg».proof.Proof.KIRegion0
import proofs.«139815_j8323646619907_1_alg».proof.Proof.KIRegion1
import proofs.«139815_j8323646619907_1_alg».proof.Proof.Gen.KernelIdeal.Regions
import Idealize.ShloMosaic.Lib.Pipeline.Kit
import Idealize.ShloMosaic.Lib.Pipeline.RegionsLoop
import Idealize.ShloMosaic.Lib.Pipeline.FrameSuffix
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: @main's six items from the launch to the return -/

variable (m : (ℓ : Loc nD τ sig) → Buf (Elt F) ℓ)

/-! ## The buffer contents at each boundary: a fold through @main -/

/-- Core c's buffers when the accumulating region is entered: the launch contents after the three host stretches. -/
abbrev W3 : Dev nD → Valuation τ sig (Elt F) := fun c => StableHlo.after hostOps0_2 (StableHlo.after hostOps0_1 (StableHlo.after hostOps0 (fun b => m (c, b))))
/-- The same read at the core's references (what the accumulating region's proof data take). -/
abbrev VE0 : (c : Dev nD) → (b : Ref sig .tc) → Buf (Elt F) ((c : Thread nD τ).loc b) := fun c b => W3 m c b
/-- At the accumulating region's exit: its arrays at what its write-backs leave, every other buffer as entered. -/
def W4 (c : Dev nD) : Valuation τ sig (Elt F) :=
  Pipeline.withArrays spec0 c (W3 m c) fun w => (dat0 (VE0 m) c).arrAt w cfg0.N
theorem W4_arr (c : Dev nD) (w : Fin cfg0.W) :
    W4 m c (Proc.devRef .tc (Pipeline.arrRef spec0 w)) = (dat0 (VE0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev VX0 : (c : Dev nD) → (b : Ref sig .tc) → Buf (Elt F) ((c : Thread nD τ).loc b) := fun c b => W4 m c b
theorem hF0 (c : Dev nD) (w : Fin cfg0.W) : (dat0 (VE0 m) c).arrAt w cfg0.N = VX0 m c (Pipeline.arrRef spec0 w) :=
  (W4_arr m c w).symm
theorem hrest0 (c : Dev nD) : ∀ b, b ∉ Finset.univ.image (Pipeline.arrRef spec0) → VX0 m c b = VE0 m c b :=
  fun b hb => W4_of_ne m c b fun w e => hb (Finset.mem_image.mpr ⟨w, Finset.mem_univ _, e⟩)

/-- After the host stretch between the regions (the normalising region's entry). -/
abbrev W5 : Dev nD → Valuation τ sig (Elt F) := fun c => StableHlo.after hostOps1 (W4 m c)
abbrev VE1 : (c : Dev nD) → (b : Ref sig .tc) → Buf (Elt F) ((c : Thread nD τ).loc b) := fun c b => W5 m c b
/-- At the normalising region's exit. -/
def W6 (c : Dev nD) : Valuation τ sig (Elt F) :=
  Pipeline.withArrays spec1 c (W5 m c) fun w => (dat1 (VE1 m) c).arrAt w cfg1.N
theorem W6_arr (c : Dev nD) (w : Fin cfg1.W) :
    W6 m c (Proc.devRef .tc (Pipeline.arrRef spec1 w)) = (dat1 (VE1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VX1 : (c : Dev nD) → (b : Ref sig .tc) → Buf (Elt F) ((c : Thread nD τ).loc b) := fun c b => W6 m c b
theorem hF1 (c : Dev nD) (w : Fin cfg1.W) : (dat1 (VE1 m) c).arrAt w cfg1.N = VX1 m c (Pipeline.arrRef spec1 w) :=
  (W6_arr m c w).symm
theorem hrest1 (c : Dev nD) : ∀ b, b ∉ Finset.univ.image (Pipeline.arrRef spec1) → VX1 m c b = VE1 m c b :=
  fun b hb => W6_of_ne m c b fun w e => hb (Finset.mem_image.mpr ⟨w, Finset.mem_univ _, e⟩)

/-! ### A buffer no host operation writes and no region may change ends as launched -/

/-- A reference outside every stretch's written list and every region's windows reads, at the end, what the launch put there. -/
theorem W6_kept (c : Dev nD) (r : Ref sig .tc) (h0 : r ∉ Gen.hostOps0_W) (h1 : r ∉ Gen.hostOps0_1_W) (h2 : r ∉ Gen.hostOps0_2_W)
    (h3 : ∀ w, Pipeline.arrRef spec0 w ≠ r) (h4 : r ∉ Gen.hostOps1_W) (h5 : ∀ w, Pipeline.arrRef spec1 w ≠ r) :
    W6 m c (Proc.devRef .tc r) = m ((c : Thread nD τ).loc r) :=
  calc W6 m c (Proc.devRef .tc r)
    _ = W5 m c (Proc.devRef .tc r) := W6_of_ne m c r h5
    _ = W4 m c (Proc.devRef .tc r) := StableHlo.after_of_writes_sub hostOps1 _ Gen.hostOps1_writes h4
    _ = W3 m c (Proc.devRef .tc r) := W4_of_ne m c r h3
    _ = m ((c : Thread nD τ).loc r) := (Gen.V3_of m c r h2).trans <| (Gen.V2_of m c r h1).trans <| (Gen.V1_of m c r h0).trans rfl

/-! ## The proof data family and the thread state -/

/-- No pallas_call has a prefetched table. -/
abbrev hadm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) hadm p) c
  | ⟨0, _⟩ => fun c => dat0 (VE0 m) c
  | ⟨1, _⟩ => fun c => dat1 (VE1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The accumulating region over the thread state: entered with every unscoped buffer at W3, left at W4. Its arrays are
    split out of the unscoped buffers and put back at the exit contents; the generator register goes into the invariant
    and comes out; nothing is owed; the kernel has no semaphore of its own. -/
def reg0 : Pipeline.RegionSeg (pcfgs (F := F)) hadm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region over the thread state: entered with every unscoped buffer at W5, left at W6. -/
def reg1 : Pipeline.RegionSeg (pcfgs (F := F)) hadm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev hsegs : List (Pipeline.Seg (pcfgs (F := F)) hadm (pdats m) () defs₀ 𝒱₀ L lv) :=
  [ .host (hseg hostOps0 hostOps0_sub Gen.hostOps0_fresh (fun c b => m (c, b))),
    .host (hseg hostOps0_1 hostOps0_1_sub Gen.hostOps0_1_fresh (fun c => StableHlo.after hostOps0 (fun b => m (c, b)))),
    .host (hseg hostOps0_2 hostOps0_2_sub Gen.hostOps0_2_fresh (fun c => StableHlo.after hostOps0_1 (StableHlo.after hostOps0 (fun b => m (c, b))))),
    .region (reg0 m),
    .host (hseg hostOps1 hostOps1_sub Gen.hostOps1_fresh (W4 m)),
    .region (reg1 m) ]

set_option backward.isDefEq.respectTransparency.types false in
/-- THE RUN. From any memory with zero counters, every weakly fair execution of @main terminates, nothing faulting, and
    in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) hadm (pdats m) () cellOf_inj emb₁ defs₀ 𝒱₀ L lv m ρ main (hsegs m)
    (fun c Q => by
      rewrite [main_chain c, Pipeline.Seg.run_eq_chain,
        show (hsegs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide))⟩)
    (run_all m ρ)

/-- THE RUN WITH ITS RESULT NAMED: the result array ends at what the normalising region's write-backs leave, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v39) = (dat1 (VE1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v39 (by decide))).trans (W6_arr m c 5),
     (h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide))⟩)
    (run_all m ρ)

end Cert.KernelIdeal.Hand

end
-- ==== Proof.MeshNormSpec.lean ====
/-
  The mathematics both programs compute, stated once over plain index types.

  A matrix H of 500000 rows and 128 columns (the linear layer's result) is normalised column by column: each column's
  mean and variance over the 500000 rows are taken, the entry is centred, scaled by gamma over the square root of
  variance plus epsilon, shifted by beta, and clipped below at zero.

  The tiled program takes the variance as the mean of the squares less the square of the mean and multiplies by the
  reciprocal square root; the whole-array program takes the mean of the squared deviations and divides by the square
  root. Over the extended reals the two agree as soon as every entry of H is a real number: then both variances are
  the same non-negative real, variance plus epsilon is a positive real, and on a positive real the reciprocal square
  root is the inverse of the square root.
-/
import Idealize.ShloMosaic.PureOps.Ideal
import Idealize.ShloMosaic.Lib.ValueIdx

noncomputable section

open scoped BigOperators

namespace MeshNorm

open Idealize.ShloMosaic

/-- The number of rows, as the float literal both programs divide by. -/
def rows : EReal := Ideal.ofBits .f32 0x48F42400#32
/-- The epsilon both programs add to the variance. -/
def eps : EReal := Ideal.ofBits .f32 0x3727C5AC#32

/-- A column's sum over all rows. -/
def colSum (H : Fin 500000 → Fin 128 → EReal) (j : Fin 128) : EReal := ∑ r : Fin 500000, H r j

/-- The column mean. -/
def mean (H : Fin 500000 → Fin 128 → EReal) (j : Fin 128) : EReal := Ideal.div (colSum H j) rows

/-- The tiled program's variance: mean of squares less square of mean. -/
def varK (H : Fin 500000 → Fin 128 → EReal) (j : Fin 128) : EReal :=
  Ideal.div (colSum (fun r j => H r j * H r j) j) rows - mean H j * mean H j

/-- The whole-array program's variance: mean of squared deviations. -/
def varR (H : Fin 500000 → Fin 128 → EReal) (j : Fin 128) : EReal :=
  Ideal.div (colSum (fun r j => (H r j - mean H j) * (H r j - mean H j)) j) rows

/-- The tiled program's result entry. -/
def outK (H : Fin 500000 → Fin 128 → EReal) (g b : Fin 128 → EReal) (r : Fin 500000) (j : Fin 128) : EReal :=
  max ((H r j - mean H j) * (g j * Ideal.rsqrt (varK H j + eps)) + b j) (Ideal.ofBits .f32 0x00000000#32)

/-- The whole-array program's result entry. -/
def outR (H : Fin 500000 → Fin 128 → EReal) (g b : Fin 128 → EReal) (r : Fin 500000) (j : Fin 128) : EReal :=
  max ((H r j - mean H j) * Ideal.div (g j) (Ideal.sqrt (varR H j + eps)) + b j) (Ideal.ofBits .f32 0x00000000#32)

/-- A finite sum of coerced reals is the coerced sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The row count is the real number 500000. -/
theorem rows_eq : rows = ((500000 : ℝ) : EReal) := by
  unfold rows
  simp [Ideal.ofBits, Ideal.ieee, -EReal.coe_mul]; norm_num

/-- Epsilon is a positive real number. -/
theorem eps_eq : ∃ e : ℝ, 0 < e ∧ eps = ((e : ℝ) : EReal) := by
  refine ⟨10995116 * (2 : ℝ) ^ (-40 : Int), by positivity, ?_⟩
  unfold eps
  simp [Ideal.ofBits, Ideal.ieee, -EReal.coe_mul]

/-- On a positive real, multiplying by the reciprocal square root is dividing by the square root. -/
theorem scale_eq (g : EReal) {v : ℝ} (hv : 0 < v) :
    g * Ideal.rsqrt ((v : ℝ) : EReal) = Ideal.div g (Ideal.sqrt ((v : ℝ) : EReal)) := by
  have hs : Real.sqrt v ≠ 0 := (Real.sqrt_pos.mpr hv).ne'
  rw [Ideal.rsqrt_coe, if_neg (not_lt.mpr hv.le), if_neg hv.ne', Ideal.sqrt_coe, if_neg (not_lt.mpr hv.le),
    Ideal.div_coe hs, one_div]

/-- The sum of squared deviations from any centre, expanded. -/
theorem sum_sq_dev {ι : Type} [Fintype ι] (f : ι → ℝ) (μ : ℝ) :
    ∑ i, (f i - μ) * (f i - μ) = (∑ i, f i * f i) - 2 * μ * (∑ i, f i) + (Fintype.card ι : ℝ) * (μ * μ) := by
  have h : ∀ i, (f i - μ) * (f i - μ) = f i * f i - 2 * μ * f i + μ * μ := fun i => by ring
  simp only [h]
  rw [Finset.sum_add_distrib, Finset.sum_sub_distrib, ← Finset.mul_sum, Finset.sum_const, Finset.card_univ,
    nsmul_eq_mul]

/-- The mean of a real matrix's column is the real mean. -/
theorem mean_coe (h : Fin 500000 → Fin 128 → ℝ) (j : Fin 128) :
    mean (fun r j => ((h r j : ℝ) : EReal)) j = (((∑ r, h r j) / 500000 : ℝ) : EReal) := by
  simp only [mean, colSum, coe_sum, rows_eq]
  rw [Ideal.div_coe (by norm_num), ← EReal.coe_mul, mul_one_div]

/-- The tiled variance of a real matrix's column, as a real. -/
theorem varK_coe (h : Fin 500000 → Fin 128 → ℝ) (j : Fin 128) :
    varK (fun r j => ((h r j : ℝ) : EReal)) j
      = (((∑ r, h r j * h r j) / 500000 - (∑ r, h r j) / 500000 * ((∑ r, h r j) / 500000) : ℝ) : EReal) := by
  simp only [varK, mean_coe, colSum, ← EReal.coe_mul, coe_sum, rows_eq]
  rw [Ideal.div_coe (by norm_num), ← EReal.coe_mul, ← EReal.coe_sub, mul_one_div]

/-- The whole-array variance of a real matrix's column, as a real. -/
theorem varR_coe (h : Fin 500000 → Fin 128 → ℝ) (j : Fin 128) :
    varR (fun r j => ((h r j : ℝ) : EReal)) j
      = (((∑ r, (h r j - (∑ r, h r j) / 500000) * (h r j - (∑ r, h r j) / 500000)) / 500000 : ℝ) : EReal) := by
  simp only [varR, mean_coe, colSum, ← EReal.coe_sub, ← EReal.coe_mul, coe_sum, rows_eq]
  rw [Ideal.div_coe (by norm_num), ← EReal.coe_mul, mul_one_div]

/-- With every entry of H real, the two results agree (gamma and beta may be any extended reals). -/
theorem outK_eq_outR (H : Fin 500000 → Fin 128 → EReal) (hH : ∀ r j, ∃ x : ℝ, H r j = (x : EReal))
    (g b : Fin 128 → EReal) (r : Fin 500000) (j : Fin 128) : outK H g b r j = outR H g b r j := by
  choose h hh using hH
  obtain rfl : H = fun r j => ((h r j : ℝ) : EReal) := funext fun r => funext fun j => hh r j
  obtain ⟨e, he, hE⟩ := eps_eq
  have hvar : varK (fun r j => ((h r j : ℝ) : EReal)) j = varR (fun r j => ((h r j : ℝ) : EReal)) j := by
    rw [varK_coe, varR_coe, sum_sq_dev]
    simp only [Fintype.card_fin, Nat.cast_ofNat]
    congr 1
    field_simp
    ring
  have hpos : 0 < (∑ r, (h r j - (∑ r, h r j) / 500000) * (h r j - (∑ r, h r j) / 500000)) / 500000 + e :=
    add_pos_of_nonneg_of_pos
      (div_nonneg (Finset.sum_nonneg fun r _ => mul_self_nonneg _) (by norm_num)) he
  have hV : varR (fun r j => ((h r j : ℝ) : EReal)) j + eps
      = (((∑ r, (h r j - (∑ r, h r j) / 500000) * (h r j - (∑ r, h r j) / 500000)) / 500000 + e : ℝ) : EReal) := by
    rw [varR_coe, hE, ← EReal.coe_add]
  unfold outK outR
  rw [hvar, hV, scale_eq _ hpos]

/-- The linear layer: row r of A against column j of B. -/
def lin (A : Fin 500000 → Fin 320 → EReal) (B : Fin 320 → Fin 128 → EReal) (r : Fin 500000) (j : Fin 128) : EReal :=
  ∑ k : Fin 320, A r k * B k j

/-- A product of real matrices has real entries. -/
theorem lin_real (A : Fin 500000 → Fin 320 → EReal) (B : Fin 320 → Fin 128 → EReal)
    (hA : ∀ r k, ∃ x : ℝ, A r k = (x : EReal)) (hB : ∀ k j, ∃ x : ℝ, B k j = (x : EReal)) (r : Fin 500000) (j : Fin 128) :
    ∃ x : ℝ, lin A B r j = (x : EReal) := by
  choose a ha using hA
  choose b hb using hB
  refine ⟨∑ k, a r k * b k j, ?_⟩
  simp only [lin, ha, hb, ← EReal.coe_mul, coe_sum]

end MeshNorm

end
-- ==== Proof.KIValueH.lean ====
import proofs.«139815_j8323646619907_1_alg».proof.Proof.KIRun
import proofs.«139815_j8323646619907_1_alg».proof.Proof.MeshNormSpec
import Idealize.ShloMosaic.Lib.ValueIdx
import Idealize.ShloMosaic.PureOps.Ideal
import Idealize.ShloMosaic.PureOps.Ideal.Laws
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The product window of the accumulating region, entry by entry

Each block the body stores is the block's rows of the feature matrix against the transposed weights; after all
write-backs the product array is the linear layer's result at every index. -/

section Product

open Idealize.ShloMosaic.ValueIdx

variable (m : (ℓ : Loc nD τ sig) → Buf (Elt Ideal) ℓ) (c : Dev nD)

-- the linear layer's result: the feature matrix against the transposed weights, both as the accumulating region finds them
local notation "Hm" => MeshNorm.lin (fun (r : Fin 500000) (k : Fin 320) => (VE0 m c main_v28 : S500000x320.Idx → EReal) (ix2 r k))
  (fun (k : Fin 320) (j : Fin 128) => (VE0 m c main_v29 : S320x128.Idx → EReal) (ix2 k j))

/-! ## The block's product at an index -/

/-- The left operand's row is the result's row. -/
theorem lhs_pay3_0 (i : S5000x128.Idx) (q : dot_S5000x320_S320x128_S5000x128_1_0_0_1_n_n.contr.Idx) :
    (dot_S5000x320_S320x128_S5000x128_1_0_0_1_n_n.lhsIdx i q 0).val = (i 0).val := by
  unfold DotDims.lhsIdx
  rw [dif_neg (show ¬(0 : Fin S5000x320.rank) ∈ dot_S5000x320_S320x128_S5000x128_1_0_0_1_n_n.lhsBatch by decide), dif_pos (show (0 : Fin S5000x320.rank) ∈ dot_S5000x320_S320x128_S5000x128_1_0_0_1_n_n.lhsNonContracting by decide)]
  rfl
/-- The left operand's column is the contraction index. -/
theorem lhs_pay3_1 (i : S5000x128.Idx) (q : dot_S5000x320_S320x128_S5000x128_1_0_0_1_n_n.contr.Idx) :
    (dot_S5000x320_S320x128_S5000x128_1_0_0_1_n_n.lhsIdx i q 1).val = (q ⟨0, by decide⟩).val :=
  dot_S5000x320_S320x128_S5000x128_1_0_0_1_n_n.lhsIdx_val_of_single rfl i q
/-- The right operand's row is the contraction index. -/
theorem rhs_pay3_0 (i : S5000x128.Idx) (q : dot_S5000x320_S320x128_S5000x128_1_0_0_1_n_n.contr.Idx) :
    (dot_S5000x320_S320x128_S5000x128_1_0_0_1_n_n.rhsIdx i q 0).val = (q ⟨0, by decide⟩).val :=
  dot_S5000x320_S320x128_S5000x128_1_0_0_1_n_n.rhsIdx_val_of_single rfl i q
/-- The right operand's column is the result's column. -/
theorem rhs_pay3_1 (i : S5000x128.Idx) (q : dot_S5000x320_S320x128_S5000x128_1_0_0_1_n_n.contr.Idx) :
    (dot_S5000x320_S320x128_S5000x128_1_0_0_1_n_n.rhsIdx i q 1).val = (i 1).val := by
  unfold DotDims.rhsIdx
  rw [dif_neg (show ¬(1 : Fin S320x128.rank) ∈ dot_S5000x320_S320x128_S5000x128_1_0_0_1_n_n.rhsBatch by decide), dif_pos (show (1 : Fin S320x128.rank) ∈ dot_S5000x320_S320x128_S5000x128_1_0_0_1_n_n.rhsNonContracting by decide)]
  rfl

/-- The stored block at (p, j) is row p of the first operand against column j of the second. -/
theorem pay3_apply (x1 : Vec Ideal S5000x320 .f32) (x2 : Vec Ideal S320x128 .f32) (p : Fin 5000) (j : Fin 128) :
    (k0_pay3 x1 x2 : S5000x128.Idx → EReal) (ix2 p j) = ∑ k : Fin 320, (x1 (ix2 p k) : EReal) * (x2 (ix2 k j) : EReal) := by
  unfold k0_pay3
  show FloatOps.matmul (F := Ideal) dot_S5000x320_S320x128_S5000x128_1_0_0_1_n_n none (truncf .bf16 (shapeCast S5000x320 (x1 : FVec Ideal S5000x320 .f32) shapeCasts_S5000x320_S5000x320) bitsLt_bf16_f32)
    (truncf .bf16 (shapeCast S320x128 (x2 : FVec Ideal S320x128 .f32) shapeCasts_S320x128_S320x128) bitsLt_bf16_f32) (constant S5000x128 .f32 0x00000000#32) (ix2 p j) = _
  refine (Ideal.matmul_constant_zero_apply dot_S5000x320_S320x128_S5000x128_1_0_0_1_n_n none _ _ _).trans ?_
  refine (Equiv.sum_comp (contrEquiv1 dot_S5000x320_S320x128_S5000x128_1_0_0_1_n_n 320 rfl rfl).symm _).symm.trans ?_
  refine Finset.sum_congr rfl fun k _ => ?_
  have hk := contrEquiv1_symm_val dot_S5000x320_S320x128_S5000x128_1_0_0_1_n_n 320 rfl rfl k
  have el : dot_S5000x320_S320x128_S5000x128_1_0_0_1_n_n.lhsIdx (ix2 p j) ((contrEquiv1 dot_S5000x320_S320x128_S5000x128_1_0_0_1_n_n 320 rfl rfl).symm k) = ix2 p k := funext fun a => Fin.ext (by
    match a with
    | ⟨0, _⟩ => exact lhs_pay3_0 _ _
    | ⟨1, _⟩ => exact (lhs_pay3_1 _ _).trans hk)
  have er : dot_S5000x320_S320x128_S5000x128_1_0_0_1_n_n.rhsIdx (ix2 p j) ((contrEquiv1 dot_S5000x320_S320x128_S5000x128_1_0_0_1_n_n 320 rfl rfl).symm k) = ix2 k j := funext fun a => Fin.ext (by
    match a with
    | ⟨0, _⟩ => exact (rhs_pay3_0 _ _).trans hk
    | ⟨1, _⟩ => exact rhs_pay3_1 _ _)
  rw [el, er, shapeCast_self, shapeCast_self]
  rfl

/-! ## The blocks the body reads, at an index of their arrays -/

/-- The three windows' index maps, decided over the grid: the feature matrix and the product move one block of rows per
    point, the weights stay whole. -/
theorem idx_factsH : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- Row p of point t's block of the feature matrix is row 5000 t + p of the matrix. -/
theorem iblk0_0_apply (t : Fin cfg0.N) (p : Fin 5000) (k : Fin 320) (h : 5000 * t.val + p.val < 500000) :
    (iblk0 (VE0 m) c 0 t : S5000x320.Idx → EReal) (ix2 p k)
      = (VE0 m c main_v28 : S500000x320.Idx → EReal) (ix2 ⟨5000 * t.val + p.val, h⟩ k) := by
  obtain ⟨e0, e1, e2, e3, e4, e5⟩ := idx_factsH t
  show VE0 m c main_v28 (((cfg0.win 0).blk t).view.emb (ix2 p k)) = VE0 m c main_v28 _
  refine congrArg _ ?_
  funext a; apply Fin.ext
  match a with
  | ⟨0, _⟩ => show win0_0.index t (0 : Fin 2) * 5000 + 1 * p.val = 5000 * t.val + p.val; omega
  | ⟨1, _⟩ => show win0_0.index t (1 : Fin 2) * 320 + 1 * k.val = k.val; omega

/-- The weights' block is the whole array at every point. -/
theorem iblk0_1_apply (t : Fin cfg0.N) (k : Fin 320) (j : Fin 128) :
    (iblk0 (VE0 m) c 1 t : S320x128.Idx → EReal) (ix2 k j) = (VE0 m c main_v29 : S320x128.Idx → EReal) (ix2 k j) := by
  obtain ⟨e0, e1, e2, e3, e4, e5⟩ := idx_factsH t
  show VE0 m c main_v29 (((cfg0.win 1).blk t).view.emb (ix2 k j)) = VE0 m c main_v29 _
  refine congrArg _ ?_
  funext a; apply Fin.ext
  match a with
  | ⟨0, _⟩ => show win0_1.index t (0 : Fin 2) * 320 + 1 * k.val = k.val; omega
  | ⟨1, _⟩ => show win0_1.index t (1 : Fin 2) * 128 + 1 * j.val = j.val; omega

/-! ## The stored block, and the array after all write-backs -/

/-- THE BLOCK'S PRODUCT: what point t stores at (p, j) is the linear layer's result at row 5000 t + p, column j. -/
theorem blockProd_at (t : Fin cfg0.N) (p : Fin 5000) (j : Fin 128) (h : 5000 * t.val + p.val < 500000) :
    (k0_pay3 (iblk0 (VE0 m) c 0 t) (iblk0 (VE0 m) c 1 t) : S5000x128.Idx → EReal) (ix2 p j) = Hm ⟨5000 * t.val + p.val, h⟩ j := by
  refine (pay3_apply (iblk0 (VE0 m) c 0 t) (iblk0 (VE0 m) c 1 t) p j).trans ?_
  unfold MeshNorm.lin
  refine Finset.sum_congr rfl fun k _ => ?_
  exact congrArg₂ (· * ·) (iblk0_0_apply m c t p k h) (iblk0_1_apply m c t k j)

/-- An index of the product array is in point t's block iff each coordinate is in the block's range on its axis. -/
theorem mem_blkH (t : Fin cfg0.N) (i : S500000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32_0).slice (win0_2.rect t)).set ↔ _
  rw [View.set_slice_whole, Rect.mem_set_unit]
  exact Iff.rfl

/-- THE PRODUCT ARRAY after the region: the linear layer's result at every index. Every point writes its block back, the
    block of point t is rows 5000 t to 5000 t + 4999, and row r lies in the block of point r / 5000. -/
theorem h_arr (r : Fin 500000) (j : Fin 128) :
    ((dat0 (VE0 m) c).arrAt 2 cfg0.N : S500000x128.Idx → EReal) (ix2 r j) = Hm r j := by
  have hN : ∀ t : Fin cfg0.N, t.val < 100 := fun t => lt_of_lt_of_eq t.isLt (show cfg0.N = 100 from N_0)
  have key : (dat0 (VE0 m) c).arrAt 2 cfg0.N = (fun i : S500000x128.Idx => Hm (i 0) (i 1)) := by
    refine (dat0 (VE0 m) c).arrAt_eq_of_cover 2 _ (fun t _ => ?_) (fun i => ?_)
    · show (cfg0.win 2).cut (grid0.coords t) ((dat0 (VE0 m) c).after 2 t) = _
      rw [after0_2]
      funext y
      obtain ⟨p, q, rfl⟩ : ∃ (p : Fin 5000) (q : Fin 128), y = (ix2 p q : S5000x128.Idx) := ⟨y 0, y 1, eq_ix2 (n0 := 5000) (n1 := 128) y⟩
      obtain ⟨e0, e1, e2, e3, e4, e5⟩ := idx_factsH t
      have hb : 5000 * t.val + p.val < 500000 := by have := hN t; have := p.isLt; omega
      refine (blockProd_at m c t p q hb).trans ?_
      show Hm _ _ = Hm ((((cfg0.win 2).blk t).view.emb (ix2 p q)) 0) ((((cfg0.win 2).blk t).view.emb (ix2 p q)) 1)
      congr 1
      · apply Fin.ext; show 5000 * t.val + p.val = win0_2.index t (0 : Fin 2) * 5000 + 1 * p.val; omega
      · apply Fin.ext; show q.val = win0_2.index t (1 : Fin 2) * 128 + 1 * q.val; omega
    · have hi0 : (i 0).val < 500000 := (i 0).isLt
      have hi1 : (i 1).val < 128 := (i 1).isLt
      obtain ⟨t0, ht0⟩ : ∃ t : Fin cfg0.N, t.val = (i 0).val / 5000 :=
        ⟨⟨(i 0).val / 5000, lt_of_lt_of_eq (by omega) (show (100 : ℕ) = cfg0.N from N_0.symm)⟩, rfl⟩
      obtain ⟨e0, e1, e2, e3, e4, e5⟩ := idx_factsH t0
      refine ⟨t0, flush0_2 t0, ?_⟩
      rw [mem_blkH]
      intro a
      match a with
      | ⟨0, _⟩ => show win0_2.index t0 (0 : Fin 2) * 5000 ≤ (i 0).val ∧ (i 0).val < win0_2.index t0 (0 : Fin 2) * 5000 + 5000; omega
      | ⟨1, _⟩ => show win0_2.index t0 (1 : Fin 2) * 128 ≤ (i 1).val ∧ (i 1).val < win0_2.index t0 (1 : Fin 2) * 128 + 128; omega
  exact congrFun key (ix2 r j)

end Product

end Cert.KernelIdeal.Hand

end
-- ==== Proof.KIValueAcc.lean ====
import proofs.«139815_j8323646619907_1_alg».proof.Proof.KIRun
import proofs.«139815_j8323646619907_1_alg».proof.Proof.MeshNormSpec
import Idealize.ShloMosaic.Lib.ValueIdx
import Idealize.ShloMosaic.PureOps.Ideal
import Idealize.ShloMosaic.PureOps.Ideal.Laws
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Accumulators

open Idealize.ShloMosaic.ValueIdx

variable (m : (ℓ : Loc nD τ sig) → Buf (Elt Ideal) ℓ) (c : Dev nD)

-- the linear layer's result: the feature matrix against the transposed weights, both as the accumulating region finds them
local notation "Hm" => MeshNorm.lin (fun (r : Fin 500000) (k : Fin 320) => (VE0 m c main_v28 : S500000x320.Idx → EReal) (ix2 r k))
  (fun (k : Fin 320) (j : Fin 128) => (VE0 m c main_v29 : S320x128.Idx → EReal) (ix2 k j))

/-- Putting row p back into the reduced index j of a reduction along the rows gives (p, j). -/
theorem lift_rows {a b : ℕ} (hred : (⟨2, ![a, b]⟩ : Shape).Reduces [0] ⟨1, ![b]⟩) (j : Fin b)
    (p : Fin ((⟨2, ![a, b]⟩ : Shape).size 0)) : hred.lift (ix1 j) p = ix2 (⟨p.val, p.isLt⟩ : Fin a) j := by
  funext d; apply Fin.ext
  fin_cases d <;> rfl

/-- The first accumulator's step at column j: what it held plus the block's column sum. -/
theorem pay4_apply (x1 : Vec Ideal S5000x320 .f32) (x2 : Vec Ideal S320x128 .f32) (a : Vec Ideal S1x128 .f32) (j : Fin 128) :
    (k0_pay4 x1 x2 a : S1x128.Idx → EReal) (ix2 (0 : Fin 1) j)
      = a (ix2 (0 : Fin 1) j) + ∑ p : Fin 5000, (k0_pay3 x1 x2 : S5000x128.Idx → EReal) (ix2 p j) := by
  unfold k0_pay4
  rw [shapeCast_self]
  refine (addf_apply _ _ _).trans ?_
  congr 1
  refine (shapeCast_a_1a_apply _ _ _ _).trans ?_
  refine (Ideal.multiReduction_add_single _ _ _ _ _ _).trans ?_
  refine Finset.sum_congr rfl fun p _ => ?_
  rw [lift_rows]
  rfl

/-- The second accumulator's step at column j: what it held plus the block's column sum of squares. -/
theorem pay5_apply (x1 : Vec Ideal S5000x320 .f32) (x2 : Vec Ideal S320x128 .f32) (a : Vec Ideal S1x128 .f32) (j : Fin 128) :
    (k0_pay5 x1 x2 a : S1x128.Idx → EReal) (ix2 (0 : Fin 1) j)
      = a (ix2 (0 : Fin 1) j) + ∑ p : Fin 5000, (k0_pay3 x1 x2 : S5000x128.Idx → EReal) (ix2 p j) * (k0_pay3 x1 x2 : S5000x128.Idx → EReal) (ix2 p j) := by
  unfold k0_pay5
  rw [shapeCast_self]
  refine (addf_apply _ _ _).trans ?_
  congr 1
  refine (shapeCast_a_1a_apply _ _ _ _).trans ?_
  refine (Ideal.multiReduction_add_single _ _ _ _ _ _).trans ?_
  refine Finset.sum_congr rfl fun p _ => ?_
  rw [lift_rows]
  rfl

/-- The row the branch stores is zero everywhere. -/
theorem pay1_apply (i : S1x128.Idx) : (k0_pay1 (F := Ideal) : S1x128.Idx → EReal) i = 0 := by
  unfold k0_pay1
  exact Ideal.ofBits_zero_f32

theorem pay2_apply (i : S1x128.Idx) : (k0_pay2 (F := Ideal) : S1x128.Idx → EReal) i = 0 := by
  unfold k0_pay2
  exact Ideal.ofBits_zero_f32

/-- THE RUNNING COLUMN SUMS, CLOSED. After point n the first accumulator holds, at column j, the sum over the points so far
    of each block's column sum of the product. -/
theorem acc3_sum (j : Fin 128) : ∀ (n : ℕ) (hn : n < cfg0.N),
    (acc3 (VE0 m) c n hn : S1x128.Idx → EReal) (ix2 (0 : Fin 1) j)
      = ∑ t : Fin (n + 1), ∑ p : Fin 5000,
          (k0_pay3 (iblk0 (VE0 m) c 0 ⟨t.val, lt_of_lt_of_le t.isLt hn⟩) (iblk0 (VE0 m) c 1 ⟨t.val, lt_of_lt_of_le t.isLt hn⟩) :
            S5000x128.Idx → EReal) (ix2 p j)
  | 0, hn => by
    show (k0_pay4 (iblk0 (VE0 m) c 0 ⟨0, hn⟩) (iblk0 (VE0 m) c 1 ⟨0, hn⟩) (k0_pay1 (F := Ideal)) : S1x128.Idx → EReal) (ix2 (0 : Fin 1) j) = _
    refine (pay4_apply _ _ _ j).trans ?_
    rw [pay1_apply, zero_add, Fin.sum_univ_one]
    rfl
  | n + 1, hn => by
    show (k0_pay4 (iblk0 (VE0 m) c 0 ⟨n + 1, hn⟩) (iblk0 (VE0 m) c 1 ⟨n + 1, hn⟩) (acc3 (VE0 m) c n (Nat.lt_of_succ_lt hn)) : S1x128.Idx → EReal) (ix2 (0 : Fin 1) j) = _
    refine (pay4_apply _ _ _ j).trans ?_
    rw [acc3_sum j n (Nat.lt_of_succ_lt hn), Fin.sum_univ_castSucc (n := n + 1)]
    rfl

/-- The same for the squares. -/
theorem acc4_sum (j : Fin 128) : ∀ (n : ℕ) (hn : n < cfg0.N),
    (acc4 (VE0 m) c n hn : S1x128.Idx → EReal) (ix2 (0 : Fin 1) j)
      = ∑ t : Fin (n + 1), ∑ p : Fin 5000,
          (k0_pay3 (iblk0 (VE0 m) c 0 ⟨t.val, lt_of_lt_of_le t.isLt hn⟩) (iblk0 (VE0 m) c 1 ⟨t.val, lt_of_lt_of_le t.isLt hn⟩) :
            S5000x128.Idx → EReal) (ix2 p j)
          * (k0_pay3 (iblk0 (VE0 m) c 0 ⟨t.val, lt_of_lt_of_le t.isLt hn⟩) (iblk0 (VE0 m) c 1 ⟨t.val, lt_of_lt_of_le t.isLt hn⟩) :
            S5000x128.Idx → EReal) (ix2 p j)
  | 0, hn => by
    show (k0_pay5 (iblk0 (VE0 m) c 0 ⟨0, hn⟩) (iblk0 (VE0 m) c 1 ⟨0, hn⟩) (k0_pay2 (F := Ideal)) : S1x128.Idx → EReal) (ix2 (0 : Fin 1) j) = _
    refine (pay5_apply _ _ _ j).trans ?_
    rw [pay2_apply, zero_add, Fin.sum_univ_one]
    rfl
  | n + 1, hn => by
    show (k0_pay5 (iblk0 (VE0 m) c 0 ⟨n + 1, hn⟩) (iblk0 (VE0 m) c 1 ⟨n + 1, hn⟩) (acc4 (VE0 m) c n (Nat.lt_of_succ_lt hn)) : S1x128.Idx → EReal) (ix2 (0 : Fin 1) j) = _
    refine (pay5_apply _ _ _ j).trans ?_
    rw [acc4_sum j n (Nat.lt_of_succ_lt hn), Fin.sum_univ_castSucc (n := n + 1)]
    rfl

/-- A sum over 100 blocks of 5000 rows is the sum over all 500000 rows: row 5000 t + p is row p of block t. -/
theorem sum_blocks (f : Fin 500000 → EReal) :
    ∑ t : Fin 100, ∑ p : Fin 5000, f ⟨5000 * t.val + p.val, by have := t.isLt; have := p.isLt; omega⟩ = ∑ r : Fin 500000, f r := by
  rw [← Equiv.sum_comp (finProdFinEquiv : Fin 100 × Fin 5000 ≃ Fin 500000) f, Fintype.sum_prod_type]
  refine Finset.sum_congr rfl fun t _ => Finset.sum_congr rfl fun p _ => congrArg f (Fin.ext ?_)
  show 5000 * t.val + p.val = p.val + 5000 * t.val
  omega

/-- The accumulators' windows sit at block (0, 0) at every point. -/
theorem idx_facts34 : ∀ t : Fin cfg0.N, win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem lt99 : 99 < cfg0.N := by rw [show cfg0.N = 100 from N_0]; decide

/-- THE FIRST ACCUMULATOR'S ARRAY after the region: what the last point left, its one block being the whole row. -/
theorem arr3_final : (dat0 (VE0 m) c).arrAt 3 cfg0.N = (acc3 (VE0 m) c 99 lt99 : Buf (Elt Ideal) ((c : Thread nD τ).loc main_v32_1)) := by
  refine (dat0 (VE0 m) c).arrAt_eq_of_cover 3 (acc3 (VE0 m) c 99 lt99 : Buf (Elt Ideal) ((c : Thread nD τ).loc main_v32_1)) (fun t hf => ?_) (fun i => ⟨⟨99, lt99⟩, (flush0_3 _).mpr rfl, ?_⟩)
  · obtain ⟨n, hn⟩ := t
    obtain rfl : n = 99 := by
      have h1 := (flush0_3 ⟨n, hn⟩).mp hf
      have h2 : n < 100 := lt_of_lt_of_eq hn (show cfg0.N = 100 from N_0)
      dsimp only at h1; omega
    show (cfg0.win 3).cut (grid0.coords ⟨99, hn⟩) ((dat0 (VE0 m) c).after 3 ⟨99, hn⟩) = _
    rw [after0_3]
    obtain ⟨e0, e1, -, -⟩ := idx_facts34 ⟨99, hn⟩
    have hz' : (fun a => win0_3.index ⟨99, hn⟩ a * main_v32_1.ty.shape.size a) = fun _ => 0 := funext fun a => by
      match a with
      | ⟨0, _⟩ => show win0_3.index ⟨99, hn⟩ (0 : Fin 2) * _ = 0; rw [e0, Nat.zero_mul]
      | ⟨1, _⟩ => show win0_3.index ⟨99, hn⟩ (1 : Fin 2) * _ = 0; rw [e1, Nat.zero_mul]
    exact (Memref.read_access_unit_zero (Elt Ideal) main_v32_1 hz' (fun a => by rw [congrFun hz' a]; simp) _).symm
  · show i ∈ ((View.whole main_v32_1).slice (win0_3.rect ⟨99, lt99⟩)).set
    rw [View.set_slice_whole, Rect.mem_set_unit]
    obtain ⟨e0, e1, -, -⟩ := idx_facts34 ⟨99, lt99⟩
    have h0 : (i 0 : Nat) < 1 := (i 0).isLt
    have h1 : (i 1 : Nat) < 128 := (i 1).isLt
    intro a
    match a with
    | ⟨0, _⟩ => show win0_3.index ⟨99, lt99⟩ (0 : Fin 2) * 1 ≤ (i 0 : Nat) ∧ (i 0 : Nat) < win0_3.index ⟨99, lt99⟩ (0 : Fin 2) * 1 + 1
                rw [e0]; omega
    | ⟨1, _⟩ => show win0_3.index ⟨99, lt99⟩ (1 : Fin 2) * 128 ≤ (i 1 : Nat) ∧ (i 1 : Nat) < win0_3.index ⟨99, lt99⟩ (1 : Fin 2) * 128 + 128
                rw [e1]; omega

/-- THE SECOND ACCUMULATOR'S ARRAY after the region, likewise. -/
theorem arr4_final : (dat0 (VE0 m) c).arrAt 4 cfg0.N = (acc4 (VE0 m) c 99 lt99 : Buf (Elt Ideal) ((c : Thread nD τ).loc main_v32_2)) := by
  refine (dat0 (VE0 m) c).arrAt_eq_of_cover 4 (acc4 (VE0 m) c 99 lt99 : Buf (Elt Ideal) ((c : Thread nD τ).loc main_v32_2)) (fun t hf => ?_) (fun i => ⟨⟨99, lt99⟩, (flush0_4 _).mpr rfl, ?_⟩)
  · obtain ⟨n, hn⟩ := t
    obtain rfl : n = 99 := by
      have h1 := (flush0_4 ⟨n, hn⟩).mp hf
      have h2 : n < 100 := lt_of_lt_of_eq hn (show cfg0.N = 100 from N_0)
      dsimp only at h1; omega
    show (cfg0.win 4).cut (grid0.coords ⟨99, hn⟩) ((dat0 (VE0 m) c).after 4 ⟨99, hn⟩) = _
    rw [after0_4]
    obtain ⟨-, -, e0, e1⟩ := idx_facts34 ⟨99, hn⟩
    have hz' : (fun a => win0_4.index ⟨99, hn⟩ a * main_v32_2.ty.shape.size a) = fun _ => 0 := funext fun a => by
      match a with
      | ⟨0, _⟩ => show win0_4.index ⟨99, hn⟩ (0 : Fin 2) * _ = 0; rw [e0, Nat.zero_mul]
      | ⟨1, _⟩ => show win0_4.index ⟨99, hn⟩ (1 : Fin 2) * _ = 0; rw [e1, Nat.zero_mul]
    exact (Memref.read_access_unit_zero (Elt Ideal) main_v32_2 hz' (fun a => by rw [congrFun hz' a]; simp) _).symm
  · show i ∈ ((View.whole main_v32_2).slice (win0_4.rect ⟨99, lt99⟩)).set
    rw [View.set_slice_whole, Rect.mem_set_unit]
    obtain ⟨-, -, e0, e1⟩ := idx_facts34 ⟨99, lt99⟩
    have h0 : (i 0 : Nat) < 1 := (i 0).isLt
    have h1 : (i 1 : Nat) < 128 := (i 1).isLt
    intro a
    match a with
    | ⟨0, _⟩ => show win0_4.index ⟨99, lt99⟩ (0 : Fin 2) * 1 ≤ (i 0 : Nat) ∧ (i 0 : Nat) < win0_4.index ⟨99, lt99⟩ (0 : Fin 2) * 1 + 1
                rw [e0]; omega
    | ⟨1, _⟩ => show win0_4.index ⟨99, lt99⟩ (1 : Fin 2) * 128 ≤ (i 1 : Nat) ∧ (i 1 : Nat) < win0_4.index ⟨99, lt99⟩ (1 : Fin 2) * 128 + 128
                rw [e1]; omega

/-- THE COLUMN SUMS. Given the product block's reading, the first accumulator's array ends at the linear layer's column
    sums over all rows. -/
theorem sum_arr_of (hP : ∀ (t : Fin cfg0.N) (p : Fin 5000) (j : Fin 128) (h : 5000 * t.val + p.val < 500000), (k0_pay3 (iblk0 (VE0 m) c 0 t) (iblk0 (VE0 m) c 1 t) : S5000x128.Idx → EReal) (ix2 p j) = Hm ⟨5000 * t.val + p.val, h⟩ j) (j : Fin 128) :
    ((dat0 (VE0 m) c).arrAt 3 cfg0.N : S1x128.Idx → EReal) (ix2 (0 : Fin 1) j) = MeshNorm.colSum Hm j := by
  rw [arr3_final]
  refine (acc3_sum m c j 99 lt99).trans ?_
  unfold MeshNorm.colSum
  rw [← sum_blocks (fun r => Hm r j)]
  exact Finset.sum_congr rfl fun t _ => Finset.sum_congr rfl fun p _ => hP ⟨t.val, _⟩ p j _

/-- THE COLUMN SUMS OF SQUARES. Likewise the second accumulator's array ends at the column sums of the squares. -/
theorem sumsq_arr_of (hP : ∀ (t : Fin cfg0.N) (p : Fin 5000) (j : Fin 128) (h : 5000 * t.val + p.val < 500000), (k0_pay3 (iblk0 (VE0 m) c 0 t) (iblk0 (VE0 m) c 1 t) : S5000x128.Idx → EReal) (ix2 p j) = Hm ⟨5000 * t.val + p.val, h⟩ j) (j : Fin 128) :
    ((dat0 (VE0 m) c).arrAt 4 cfg0.N : S1x128.Idx → EReal) (ix2 (0 : Fin 1) j) = MeshNorm.colSum (fun r j => Hm r j * Hm r j) j := by
  rw [arr4_final]
  refine (acc4_sum m c j 99 lt99).trans ?_
  unfold MeshNorm.colSum
  rw [← sum_blocks (fun r => Hm r j * Hm r j)]
  refine Finset.sum_congr rfl fun t _ => Finset.sum_congr rfl fun p _ => ?_
  rw [hP ⟨t.val, _⟩ p j _]

end Accumulators

end Cert.KernelIdeal.Hand

end
-- ==== Proof.KIValueOut.lean ====
import proofs.«139815_j8323646619907_1_alg».proof.Proof.KIRun
import proofs.«139815_j8323646619907_1_alg».proof.Proof.MeshNormSpec
import Idealize.ShloMosaic.Lib.ValueIdx
import Idealize.ShloMosaic.PureOps.Ideal
import Idealize.ShloMosaic.PureOps.Ideal.Laws
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Preamble

open Idealize.ShloMosaic.ValueIdx

variable (m : (ℓ : Loc nD τ sig) → Buf (Elt Ideal) ℓ) (c : Dev nD)

-- the linear layer's result: the feature matrix against the transposed weights, both as the accumulating region finds them
local notation "Hm" => MeshNorm.lin (fun (r : Fin 500000) (k : Fin 320) => (VE0 m c main_v28 : S500000x320.Idx → EReal) (ix2 r k))
  (fun (k : Fin 320) (j : Fin 128) => (VE0 m c main_v29 : S320x128.Idx → EReal) (ix2 k j))

end Preamble

/-! # The normalising region's result, entry by entry -/

section OutArr

open Idealize.ShloMosaic.ValueIdx

/-- The body's one stored value at row p, column j of its block: the product block's entry less the mean, scaled by
    gamma over the root of variance plus epsilon, shifted by beta, clipped below at zero. -/
theorem normPay_apply (x1 : Vec Ideal S5000x128 .f32) (x2 x3 x4 x5 : Vec Ideal S1x128 .f32) (p : Fin 5000) (j : Fin 128) :
    k1_pay1 x4 x3 x1 x2 x5 (ix2 p j)
      = max ((x1 (ix2 p j) - x2 (ix2 (0 : Fin 1) j)) * (x4 (ix2 (0 : Fin 1) j) * Ideal.rsqrt (x3 (ix2 (0 : Fin 1) j) + MeshNorm.eps)) + x5 (ix2 (0 : Fin 1) j))
          (Ideal.ofBits .f32 0x00000000#32) := by
  unfold k1_pay1
  simp only [shapeCast_self]
  rw [maximumf_apply, addf_apply, mulf_apply, subf_apply]
  rw [broadcastTo_1b_ab_apply, broadcastTo_1b_ab_apply, broadcastTo_1b_ab_apply]
  rfl

/-- One entry of the result from the five numbers it is made of: the product's entry h, the mean mn, the variance vr,
    gamma g and beta b at its column. -/
def normOut (h mn vr g b : EReal) : EReal :=
  max ((h - mn) * (g * Ideal.rsqrt (vr + MeshNorm.eps)) + b) (Ideal.ofBits .f32 0x00000000#32)

variable (V : (c : Dev nD) → (b : Ref sig .tc) → Buf (Elt Ideal) ((c : Thread nD τ).loc b))

/-- The index maps of the region's windows, decided over the grid: the product's and the result's blocks move down the
    rows with the point, the four one-row inputs stay at the one block. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row p, column j of the result's block at point t is row 5000 t + p, column j of the array. -/
theorem emb1_5 (t : Fin cfg1.N) (p : Fin 5000) (j : Fin 128) (hb : 5000 * t.val + p.val < 500000) :
    (((cfg1.win 5).blk t).view.emb (ix2 p j) : S500000x128.Idx) = ix2 (⟨5000 * t.val + p.val, hb⟩ : Fin 500000) j := by
  obtain ⟨e0, e1, e2, e3, -⟩ := idx_facts1 t
  funext a; apply Fin.ext
  match a with
  | ⟨0, _⟩ => show win1_5.index t (0 : Fin 2) * 5000 + 1 * p.val = 5000 * t.val + p.val; omega
  | ⟨1, _⟩ => show win1_5.index t (1 : Fin 2) * 128 + 1 * j.val = j.val; omega

/-- The product's block at point t, at row p and column j, is the array's row 5000 t + p there. -/
theorem blk1_0 (c : Dev nD) (t : Fin cfg1.N) (p : Fin 5000) (j : Fin 128) (hb : 5000 * t.val + p.val < 500000) :
    (iblk1 V c 0 t : S5000x128.Idx → EReal) (ix2 p j)
      = (V c main_v32_0 : S500000x128.Idx → EReal) (ix2 (⟨5000 * t.val + p.val, hb⟩ : Fin 500000) j) := by
  obtain ⟨e0, e1, -⟩ := idx_facts1 t
  show (V c main_v32_0 : S500000x128.Idx → EReal) (((cfg1.win 0).blk t).view.emb (ix2 p j)) = _
  refine congrArg _ ?_
  funext a; apply Fin.ext
  match a with
  | ⟨0, _⟩ => show win1_0.index t (0 : Fin 2) * 5000 + 1 * p.val = 5000 * t.val + p.val; omega
  | ⟨1, _⟩ => show win1_0.index t (1 : Fin 2) * 128 + 1 * j.val = j.val; omega

/-- The mean row's block at any point is the whole row. -/
theorem blk1_1 (c : Dev nD) (t : Fin cfg1.N) (j : Fin 128) :
    (iblk1 V c 1 t : S1x128.Idx → EReal) (ix2 (0 : Fin 1) j) = (V c main_v34 : S1x128.Idx → EReal) (ix2 (0 : Fin 1) j) := by
  obtain ⟨-, -, -, -, e0, e1, -⟩ := idx_facts1 t
  show (V c main_v34 : S1x128.Idx → EReal) (((cfg1.win 1).blk t).view.emb (ix2 (0 : Fin 1) j)) = _
  refine congrArg _ ?_
  funext a; apply Fin.ext
  match a with
  | ⟨0, _⟩ => show win1_1.index t (0 : Fin 2) * 1 + 1 * 0 = 0; omega
  | ⟨1, _⟩ => show win1_1.index t (1 : Fin 2) * 128 + 1 * j.val = j.val; omega

/-- The variance row's block at any point is the whole row. -/
theorem blk1_2 (c : Dev nD) (t : Fin cfg1.N) (j : Fin 128) :
    (iblk1 V c 2 t : S1x128.Idx → EReal) (ix2 (0 : Fin 1) j) = (V c main_v38 : S1x128.Idx → EReal) (ix2 (0 : Fin 1) j) := by
  obtain ⟨-, -, -, -, -, -, e0, e1, -⟩ := idx_facts1 t
  show (V c main_v38 : S1x128.Idx → EReal) (((cfg1.win 2).blk t).view.emb (ix2 (0 : Fin 1) j)) = _
  refine congrArg _ ?_
  funext a; apply Fin.ext
  match a with
  | ⟨0, _⟩ => show win1_2.index t (0 : Fin 2) * 1 + 1 * 0 = 0; omega
  | ⟨1, _⟩ => show win1_2.index t (1 : Fin 2) * 128 + 1 * j.val = j.val; omega

/-- The gamma row's block at any point is the whole row. -/
theorem blk1_3 (c : Dev nD) (t : Fin cfg1.N) (j : Fin 128) :
    (iblk1 V c 3 t : S1x128.Idx → EReal) (ix2 (0 : Fin 1) j) = (V c main_v30 : S1x128.Idx → EReal) (ix2 (0 : Fin 1) j) := by
  obtain ⟨-, -, -, -, -, -, -, -, e0, e1, -⟩ := idx_facts1 t
  show (V c main_v30 : S1x128.Idx → EReal) (((cfg1.win 3).blk t).view.emb (ix2 (0 : Fin 1) j)) = _
  refine congrArg _ ?_
  funext a; apply Fin.ext
  match a with
  | ⟨0, _⟩ => show win1_3.index t (0 : Fin 2) * 1 + 1 * 0 = 0; omega
  | ⟨1, _⟩ => show win1_3.index t (1 : Fin 2) * 128 + 1 * j.val = j.val; omega

/-- The beta row's block at any point is the whole row. -/
theorem blk1_4 (c : Dev nD) (t : Fin cfg1.N) (j : Fin 128) :
    (iblk1 V c 4 t : S1x128.Idx → EReal) (ix2 (0 : Fin 1) j) = (V c main_v31 : S1x128.Idx → EReal) (ix2 (0 : Fin 1) j) := by
  obtain ⟨-, -, -, -, -, -, -, -, -, -, e0, e1⟩ := idx_facts1 t
  show (V c main_v31 : S1x128.Idx → EReal) (((cfg1.win 4).blk t).view.emb (ix2 (0 : Fin 1) j)) = _
  refine congrArg _ ?_
  funext a; apply Fin.ext
  match a with
  | ⟨0, _⟩ => show win1_4.index t (0 : Fin 2) * 1 + 1 * 0 = 0; omega
  | ⟨1, _⟩ => show win1_4.index t (1 : Fin 2) * 128 + 1 * j.val = j.val; omega

/-- What the result array ends holding, as a function of the index: the normalised, scaled, shifted and clipped entry of
    the product array, the four rows read at the index's column. -/
def outG (c : Dev nD) : S500000x128.Idx → EReal := fun i =>
  normOut ((V c main_v32_0 : S500000x128.Idx → EReal) i) ((V c main_v34 : S1x128.Idx → EReal) (ix2 (0 : Fin 1) (i 1)))
    ((V c main_v38 : S1x128.Idx → EReal) (ix2 (0 : Fin 1) (i 1))) ((V c main_v30 : S1x128.Idx → EReal) (ix2 (0 : Fin 1) (i 1)))
    ((V c main_v31 : S1x128.Idx → EReal) (ix2 (0 : Fin 1) (i 1)))

/-- What point t writes back is block t of that function. -/
theorem flushed1_5_eq (c : Dev nD) (t : Fin cfg1.N) :
    (dat1 V c).flushed 5 t = ((cfg1.win 5).blk t).view.read (Elt Ideal) (outG V c) := by
  show (cfg1.win 5).cut (grid1.coords t) ((dat1 V c).after 5 t) = _
  rw [after1_5]
  funext y
  obtain ⟨p, q, rfl⟩ : ∃ (p : Fin 5000) (q : Fin 128), y = ix2 p q := ⟨y 0, y 1, eq_ix2 y⟩
  have ht : t.val < 100 := t.isLt
  have hp : p.val < 5000 := p.isLt
  have hb : 5000 * t.val + p.val < 500000 := by omega
  show k1_pay1 (iblk1 V c 3 t) (iblk1 V c 2 t) (iblk1 V c 0 t) (iblk1 V c 1 t) (iblk1 V c 4 t) (ix2 p q)
    = outG V c (((cfg1.win 5).blk t).view.emb (ix2 p q))
  refine (normPay_apply (iblk1 V c 0 t) (iblk1 V c 1 t) (iblk1 V c 2 t) (iblk1 V c 3 t) (iblk1 V c 4 t) p q).trans ?_
  rw [emb1_5 t p q hb]
  rw [blk1_0 V c t p q hb, blk1_1 V c t q, blk1_2 V c t q, blk1_3 V c t q, blk1_4 V c t q]
  rfl

/-- An index of the result array is in point t's block iff each coordinate is in the block's range on its axis. -/
theorem mem_blk1_5 (t : Fin cfg1.N) (i : S500000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- Every index of the result array is in some point's block: row r is in block r / 5000. -/
theorem cover1_5 (i : S500000x128.Idx) :
    ∃ t : Fin cfg1.N, (cfg1.win 5).flush t = true ∧ i ∈ ((cfg1.win 5).blk t).view.set := by
  have hi0 : (i 0).val < 500000 := (i 0).isLt
  have hi1 : (i 1).val < 128 := (i 1).isLt
  let t : Fin cfg1.N := ⟨(i 0).val / 5000, by show (i 0).val / 5000 < 100; omega⟩
  obtain ⟨-, -, e2, e3, -⟩ := idx_facts1 t
  have e2' : win1_5.index t (0 : Fin 2) = (i 0).val / 5000 := e2
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the region, entry by entry, from the entry contents of the five arrays it reads. -/
theorem out_arr (c : Dev nD) (V : (c : Dev nD) → (b : Ref sig .tc) → Buf (Elt Ideal) ((c : Thread nD τ).loc b)) (r : Fin 500000) (j : Fin 128)
    {h mn vr g b : EReal} (hh : (V c main_v32_0 : S500000x128.Idx → EReal) (ix2 r j) = h)
    (hmn : (V c main_v34 : S1x128.Idx → EReal) (ix2 (0 : Fin 1) j) = mn) (hvr : (V c main_v38 : S1x128.Idx → EReal) (ix2 (0 : Fin 1) j) = vr)
    (hg : (V c main_v30 : S1x128.Idx → EReal) (ix2 (0 : Fin 1) j) = g) (hb : (V c main_v31 : S1x128.Idx → EReal) (ix2 (0 : Fin 1) j) = b) :
    ((dat1 V c).arrAt 5 cfg1.N : S500000x128.Idx → EReal) (ix2 r j)
      = max ((h - mn) * (g * Ideal.rsqrt (vr + MeshNorm.eps)) + b) (Ideal.ofBits .f32 0x00000000#32) := by
  subst hh hmn hvr hg hb
  exact congrFun ((dat1 V c).arrAt_eq_of_cover 5 (outG V c) (fun t _ => flushed1_5_eq V c t) cover1_5) (ix2 r j)

end OutArr

end Cert.KernelIdeal.Hand

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.KIValueMid.lean ====
import proofs.«139815_j8323646619907_1_alg».proof.Proof.KIRun
import proofs.«139815_j8323646619907_1_alg».proof.Proof.MeshNormSpec
import Idealize.ShloMosaic.Lib.ValueIdx
import Idealize.ShloMosaic.PureOps.Ideal
import Idealize.ShloMosaic.PureOps.Ideal.Laws
import Idealize.ShloMosaic.Lib.Pipeline.Value
import Idealize.ShloMosaic.Lib.ValueLayout
import Idealize.ShloMosaic.Lib.StableHlo.Run
import proofs.«139815_j8323646619907_1_alg».proof.Proof.LibRowLayers

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Mid

open Idealize.ShloMosaic.ValueIdx

variable (m : (ℓ : Loc nD τ sig) → Buf (Elt Ideal) ℓ) (c : Dev nD)

-- the linear layer's result: the feature matrix against the transposed weights, both as the accumulating region finds them
local notation "Hm" => MeshNorm.lin (fun (r : Fin 500000) (k : Fin 320) => (VE0 m c main_v28 : S500000x320.Idx → EReal) (ix2 r k))
  (fun (k : Fin 320) (j : Fin 128) => (VE0 m c main_v29 : S320x128.Idx → EReal) (ix2 k j))

/-! # The host stretch between the regions

Eight operations: the mean row is the first accumulator over the number of rows, the mean of squares the second over the
same, the variance row their difference with the mean's square. Every other buffer passes through. -/

/-- A buffer the stretch does not write reads, at the normalising region's entry, what the accumulating region left. -/
theorem mid_keep (r : Ref sig .tc) (h : r ∉ Gen.hostOps1_W) :
    W5 m c (Proc.devRef .tc r) = W4 m c (Proc.devRef .tc r) :=
  StableHlo.after_of_writes_sub hostOps1 _ Gen.hostOps1_writes h

theorem mid_h (i : S500000x128.Idx) :
    (VE1 m c main_v32_0 : S500000x128.Idx → EReal) i = ((dat0 (VE0 m) c).arrAt 2 cfg0.N : S500000x128.Idx → EReal) i := by
  have e : VE1 m c main_v32_0 = (dat0 (VE0 m) c).arrAt 2 cfg0.N :=
    (mid_keep m c main_v32_0 (by decide)).trans (W4_arr m c 2)
  exact congrFun e i

theorem mid_gamma (i : S1x128.Idx) : (VE1 m c main_v30 : S1x128.Idx → EReal) i = (VE0 m c main_v30 : S1x128.Idx → EReal) i := by
  have e : VE1 m c main_v30 = VE0 m c main_v30 :=
    (mid_keep m c main_v30 (by decide)).trans (W4_of_ne m c main_v30 (by decide))
  exact congrFun e i

theorem mid_beta (i : S1x128.Idx) : (VE1 m c main_v31 : S1x128.Idx → EReal) i = (VE0 m c main_v31 : S1x128.Idx → EReal) i := by
  have e : VE1 m c main_v31 = VE0 m c main_v31 :=
    (mid_keep m c main_v31 (by decide)).trans (W4_of_ne m c main_v31 (by decide))
  exact congrFun e i

theorem mid_mean (j : Fin 128) {s1 : EReal} (hs1 : ((dat0 (VE0 m) c).arrAt 3 cfg0.N : S1x128.Idx → EReal) (ix2 (0 : Fin 1) j) = s1) :
    (VE1 m c main_v34 : S1x128.Idx → EReal) (ix2 (0 : Fin 1) j) = Ideal.div s1 MeshNorm.rows := by
  have e : VE1 m c main_v34 = (Host.divf (W4 m c (Proc.devRef .tc main_v32_1) : (⟨S1x128, .f32⟩ : BufTy).Contents (Elt Ideal))
      (broadcastInDim S1x128 ![] bcast_S_S1x128 (constant (F := Ideal) S_ .f32 0x48F42400#32)) : (⟨S1x128, .f32⟩ : BufTy).Contents (Elt Ideal)) := by
    show StableHlo.after hostOps1 _ (Proc.devRef .tc main_v34) = _
    after_results
  have h3 : (W4 m c (Proc.devRef .tc main_v32_1) : S1x128.Idx → EReal) (ix2 (0 : Fin 1) j) = s1 :=
    (congrFun (W4_arr m c 3) _).trans hs1
  have hb : (broadcastInDim S1x128 ![] bcast_S_S1x128 (constant (F := Ideal) S_ .f32 0x48F42400#32) : S1x128.Idx → EReal)
      (ix2 (0 : Fin 1) j) = MeshNorm.rows :=
    RowLayers.scalarBroadcast_apply (t := S1x128) 0x48F42400#32 bcast_S_S1x128 (ix2 (0 : Fin 1) j)
  refine (congrFun e (ix2 (0 : Fin 1) j)).trans ?_
  refine (RowLayers.hostDivf_apply _ _ _).trans ?_
  rw [h3, hb]

theorem mid_var (j : Fin 128) {s1 s2 : EReal} (hs1 : ((dat0 (VE0 m) c).arrAt 3 cfg0.N : S1x128.Idx → EReal) (ix2 (0 : Fin 1) j) = s1)
    (hs2 : ((dat0 (VE0 m) c).arrAt 4 cfg0.N : S1x128.Idx → EReal) (ix2 (0 : Fin 1) j) = s2) :
    (VE1 m c main_v38 : S1x128.Idx → EReal) (ix2 (0 : Fin 1) j)
      = Ideal.div s2 MeshNorm.rows - Ideal.div s1 MeshNorm.rows * Ideal.div s1 MeshNorm.rows := by
  have e : VE1 m c main_v38 = (subf
      (Host.divf (W4 m c (Proc.devRef .tc main_v32_2) : (⟨S1x128, .f32⟩ : BufTy).Contents (Elt Ideal))
        (broadcastInDim S1x128 ![] bcast_S_S1x128 (constant (F := Ideal) S_ .f32 0x48F42400#32)))
      (mulf
        (Host.divf (W4 m c (Proc.devRef .tc main_v32_1) : (⟨S1x128, .f32⟩ : BufTy).Contents (Elt Ideal))
          (broadcastInDim S1x128 ![] bcast_S_S1x128 (constant (F := Ideal) S_ .f32 0x48F42400#32)))
        (Host.divf (W4 m c (Proc.devRef .tc main_v32_1) : (⟨S1x128, .f32⟩ : BufTy).Contents (Elt Ideal))
          (broadcastInDim S1x128 ![] bcast_S_S1x128 (constant (F := Ideal) S_ .f32 0x48F42400#32))))
      : (⟨S1x128, .f32⟩ : BufTy).Contents (Elt Ideal)) := by
    show StableHlo.after hostOps1 _ (Proc.devRef .tc main_v38) = _
    after_results
  have h3 : (W4 m c (Proc.devRef .tc main_v32_1) : S1x128.Idx → EReal) (ix2 (0 : Fin 1) j) = s1 :=
    (congrFun (W4_arr m c 3) _).trans hs1
  have h4 : (W4 m c (Proc.devRef .tc main_v32_2) : S1x128.Idx → EReal) (ix2 (0 : Fin 1) j) = s2 :=
    (congrFun (W4_arr m c 4) _).trans hs2
  have hb : (broadcastInDim S1x128 ![] bcast_S_S1x128 (constant (F := Ideal) S_ .f32 0x48F42400#32) : S1x128.Idx → EReal)
      (ix2 (0 : Fin 1) j) = MeshNorm.rows :=
    RowLayers.scalarBroadcast_apply (t := S1x128) 0x48F42400#32 bcast_S_S1x128 (ix2 (0 : Fin 1) j)
  refine (congrFun e (ix2 (0 : Fin 1) j)).trans ?_
  generalize (W4 m c (Proc.devRef .tc main_v32_1) : S1x128.Idx → EReal) = a1 at h3 ⊢
  generalize (W4 m c (Proc.devRef .tc main_v32_2) : S1x128.Idx → EReal) = a2 at h4 ⊢
  generalize (broadcastInDim S1x128 ![] bcast_S_S1x128 (constant (F := Ideal) S_ .f32 0x48F42400#32) : S1x128.Idx → EReal) = b at hb ⊢
  show Ideal.div (a2 (ix2 (0 : Fin 1) j)) (b (ix2 (0 : Fin 1) j))
    - Ideal.div (a1 (ix2 (0 : Fin 1) j)) (b (ix2 (0 : Fin 1) j)) * Ideal.div (a1 (ix2 (0 : Fin 1) j)) (b (ix2 (0 : Fin 1) j)) = _
  rw [h3, h4, hb]

end Mid

end Cert.KernelIdeal.Hand

end
-- ==== Proof.KIValue.lean ====
/-
  What the tiled program leaves in its result array, entry by entry, at the exact instance: the normalising region's reading
  of its five inputs, with the product read off the accumulating region's blocks, the mean and the variance rows off the host
  stretch between the regions, and the column sums off the accumulators.
-/
import proofs.«139815_j8323646619907_1_alg».proof.Proof.KIValueH
import proofs.«139815_j8323646619907_1_alg».proof.Proof.KIValueAcc
import proofs.«139815_j8323646619907_1_alg».proof.Proof.KIValueOut
import proofs.«139815_j8323646619907_1_alg».proof.Proof.KIValueMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The result array, entry by entry -/

section Asm

open Idealize.ShloMosaic.ValueIdx

variable (m : (ℓ : Loc nD τ sig) → Buf (Elt Ideal) ℓ) (c : Dev nD)

-- the linear layer's result: the feature matrix against the transposed weights, both as the accumulating region finds them
local notation "Hm" => MeshNorm.lin (fun (r : Fin 500000) (k : Fin 320) => (VE0 m c main_v28 : S500000x320.Idx → EReal) (ix2 r k))
  (fun (k : Fin 320) (j : Fin 128) => (VE0 m c main_v29 : S320x128.Idx → EReal) (ix2 k j))

/-- The result array, entry by entry, is the tiled program's formula of the linear layer's result: the normalising region's
    reading, with the mean and the variance rows read off the host stretch and the accumulators, and the product read off
    the accumulating region. -/
theorem result_at (r : Fin 500000) (j : Fin 128) :
    ((dat1 (VE1 m) c).arrAt 5 cfg1.N : S500000x128.Idx → EReal) (ix2 r j)
      = MeshNorm.outK Hm (fun j => (VE0 m c main_v30 : S1x128.Idx → EReal) (ix2 (0 : Fin 1) j)) (fun j => (VE0 m c main_v31 : S1x128.Idx → EReal) (ix2 (0 : Fin 1) j)) r j :=
  out_arr c (VE1 m) r j ((mid_h m c _).trans (h_arr m c r j))
    (mid_mean m c j (sum_arr_of m c (blockProd_at m c) j))
    (mid_var m c j (sum_arr_of m c (blockProd_at m c) j) (sumsq_arr_of m c (blockProd_at m c) j))
    (mid_gamma m c _) (mid_beta m c _)

end Asm

end Cert.KernelIdeal.Hand

end
-- ==== Proof.KIFeat.lean ====
import proofs.«139815_j8323646619907_1_alg».proof.Proof.KIRun
import proofs.«139815_j8323646619907_1_alg».proof.Proof.MeshNormSpec
import Idealize.ShloMosaic.Lib.ValueIdx
import Idealize.ShloMosaic.PureOps.Ideal
import Idealize.ShloMosaic.Lib.StableHlo.Run
import Idealize.ShloMosaic.Lib.ValueLayout
import proofs.«139815_j8323646619907_1_alg».proof.Proof.ReadP

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The region's inputs, as functions of the program's arguments

  The three stretches of host operations before the accumulating region build the feature matrix (the table's own rows beside
  the pairwise minima and maxima of four gathered neighbour rows), transpose the weights and lay gamma and beta out as rows.
  The whole-array program builds the feature matrix and the transposed weights by the same operations on the same arguments.
-/

section Feat
open Idealize.ShloMosaic.ValueIdx Idealize.ShloMosaic.StableHlo

variable (m : (ℓ : Loc nD τ sig) → Buf (Elt Ideal) ℓ) (c : Dev nD)

set_option maxHeartbeats 4000000 in
set_option maxRecDepth 8192 in
/-- The feature matrix the accumulating region finds is the whole-array program's, of the same two arguments. -/
theorem feat_eq : (VE0 m c main_v28 : S500000x320.Idx → EReal)
    = Cert.ReferenceIdeal.ReadP.val_main_v28 (F := Ideal) (m ((c.tc : Thread nD τ).loc main_arg0)) (m ((c.tc : Thread nD τ).loc main_arg1)) := by
  show StableHlo.after hostOps0_2 (StableHlo.after hostOps0_1 (StableHlo.after hostOps0 _)) (Proc.devRef .tc main_v28) = _
  after_results_simp
  rfl

/-- The transposed weights likewise. -/
theorem wt_eq : (VE0 m c main_v29 : S320x128.Idx → EReal)
    = Cert.ReferenceIdeal.ReadP.val_main_v29 (F := Ideal) (m ((c.tc : Thread nD τ).loc main_arg2)) := by
  show StableHlo.after hostOps0_2 (StableHlo.after hostOps0_1 (StableHlo.after hostOps0 _)) (Proc.devRef .tc main_v29) = _
  after_results
  rfl

/-- The gamma row at column j is gamma's entry j. -/
theorem gamma_at (j : Fin 128) :
    (VE0 m c main_v30 : S1x128.Idx → EReal) (ix2 (0 : Fin 1) j) = (m ((c.tc : Thread nD τ).loc main_arg3) : S128.Idx → EReal) (ix1 j) := by
  have e : (VE0 m c main_v30 : S1x128.Idx → EReal) = shapeCast S1x128 (m ((c.tc : Thread nD τ).loc main_arg3) : S128.Idx → EReal) shapeCasts_S128_S1x128 := by
    show StableHlo.after hostOps0_2 (StableHlo.after hostOps0_1 (StableHlo.after hostOps0 _)) (Proc.devRef .tc main_v30) = _
    after_results
    rfl
  rw [e]
  exact shapeCast_a_1a_apply _ _ _ _

/-- The beta row at column j is beta's entry j. -/
theorem beta_at (j : Fin 128) :
    (VE0 m c main_v31 : S1x128.Idx → EReal) (ix2 (0 : Fin 1) j) = (m ((c.tc : Thread nD τ).loc main_arg4) : S128.Idx → EReal) (ix1 j) := by
  have e : (VE0 m c main_v31 : S1x128.Idx → EReal) = shapeCast S1x128 (m ((c.tc : Thread nD τ).loc main_arg4) : S128.Idx → EReal) shapeCasts_S128_S1x128 := by
    show StableHlo.after hostOps0_2 (StableHlo.after hostOps0_1 (StableHlo.after hostOps0 _)) (Proc.devRef .tc main_v31) = _
    after_results
    rfl
  rw [e]
  exact shapeCast_a_1a_apply _ _ _ _

end Feat

end Cert.KernelIdeal.Hand

end
-- ==== Proof.RefValue.lean ====
/-
  The whole-array program's result read at one entry, at the exact instance (floats read as extended reals).

  Entry (r, j) of the result is the specification's whole-array normalisation of the matrix H, where H is the
  product of the feature matrix (500000 by 320) with the transposed weights (320 by 128): the column mean and the
  mean of squared deviations are taken over the 500000 rows, the entry is centred, divided by the square root of
  variance plus epsilon, scaled by gamma, shifted by beta and clipped below at zero.
-/
import proofs.«139815_j8323646619907_1_alg».proof.Proof.ReadP
import proofs.«139815_j8323646619907_1_alg».proof.Proof.MeshNormSpec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal

/-- The linear layer's result as a matrix over plain indices: features against transposed weights. -/
abbrev linH (x0 : (⟨S500000x64, .f32⟩ : BufTy).Contents (Elt Ideal)) (x1 : (⟨S500000x4, .i32⟩ : BufTy).Contents (Elt Ideal))
    (x2 : (⟨S128x320, .f32⟩ : BufTy).Contents (Elt Ideal)) : Fin 500000 → Fin 128 → EReal :=
  MeshNorm.lin (fun r k => ReadP.val_main_v28 (F := Ideal) x0 x1 (ix2 r k)) (fun k j => ReadP.val_main_v29 (F := Ideal) x2 (ix2 k j))

section
variable (x0 : (⟨S500000x64, .f32⟩ : BufTy).Contents (Elt Ideal)) (x1 : (⟨S500000x4, .i32⟩ : BufTy).Contents (Elt Ideal))
  (x2 : (⟨S128x320, .f32⟩ : BufTy).Contents (Elt Ideal)) (x3 x4 : (⟨S128, .f32⟩ : BufTy).Contents (Elt Ideal))

/-! ### Index equations: the operand entry each broadcast, sum and product reads, at an entry given by its coordinates -/

theorem lidx_v30 (r : Fin 500000) (j : Fin 128) (k : Fin 320) : ReadP.lidx_main_v30 (ix2 r j) k = ix2 r k :=
  funext fun a => Fin.ext (by match a with | ⟨0, _⟩ => rfl | ⟨1, _⟩ => rfl)

theorem ridx_v30 (r : Fin 500000) (j : Fin 128) (k : Fin 320) : ReadP.ridx_main_v30 (ix2 r j) k = ix2 k j :=
  funext fun a => Fin.ext (by match a with | ⟨0, _⟩ => rfl | ⟨1, _⟩ => rfl)

theorem idx_v31 (j : Fin 128) (k : Fin 500000) : ReadP.idx_main_v31 (ix1 j) k = ix2 k j :=
  funext fun a => Fin.ext (by match a with | ⟨0, _⟩ => rfl | ⟨1, _⟩ => rfl)

theorem idx_v38 (j : Fin 128) (k : Fin 500000) : ReadP.idx_main_v38 (ix1 j) k = ix2 k j :=
  funext fun a => Fin.ext (by match a with | ⟨0, _⟩ => rfl | ⟨1, _⟩ => rfl)

theorem idx_v34_v35 (r : Fin 500000) (j : Fin 128) : ReadP.idx_main_v34 (ReadP.idx_main_v35 (ix2 r j)) = ix1 j :=
  funext fun a => Fin.ext (by match a with | ⟨0, _⟩ => rfl)

theorem idx_v41_v42 (r : Fin 500000) (j : Fin 128) : ReadP.idx_main_v41 (ReadP.idx_main_v42 (ix2 r j)) = ix1 j :=
  funext fun a => Fin.ext (by match a with | ⟨0, _⟩ => rfl)

theorem idx_v48_v49 (r : Fin 500000) (j : Fin 128) : ReadP.idx_main_v48 (ReadP.idx_main_v49 (ix2 r j)) = ix1 j :=
  funext fun a => Fin.ext (by match a with | ⟨0, _⟩ => rfl)

theorem idx_v51_v52 (r : Fin 500000) (j : Fin 128) : ReadP.idx_main_v51 (ReadP.idx_main_v52 (ix2 r j)) = ix1 j :=
  funext fun a => Fin.ext (by match a with | ⟨0, _⟩ => rfl)

/-! ### The stages at an entry -/

/-- The product at (r, j) is the specification's linear layer. -/
theorem val_main_v30_at (r : Fin 500000) (j : Fin 128) :
    ReadP.val_main_v30 (F := Ideal) x0 x1 x2 (ix2 r j) = linH x0 x1 x2 r j := by
  rw [ReadP.val_main_v30_apply]
  show _ = ∑ k : Fin 320, _
  refine Finset.sum_congr rfl fun k _ => ?_
  rw [lidx_v30, ridx_v30]

/-- The column mean at j. -/
theorem val_main_v33_at (j : Fin 128) :
    ReadP.val_main_v33 (F := Ideal) x0 x1 x2 (ix1 j) = MeshNorm.mean (linH x0 x1 x2) j := by
  rw [ReadP.val_main_v33_apply, ReadP.val_main_v31_apply, ReadP.val_main_v32_apply, ReadP.val_main_cst_3_apply,
    ReadP.val_main_cst_apply, Ideal.hostDivf_def, Ideal.ofBits_def, Ideal.ofBits_def, Ideal.ofBits_zero_f32, zero_add]
  unfold MeshNorm.mean MeshNorm.colSum MeshNorm.rows
  refine congrArg₂ Ideal.div (Finset.sum_congr rfl fun k _ => ?_) rfl
  rw [idx_v31, val_main_v30_at]

/-- The centred entry at (r, j), as the subtraction feeding the squares. -/
theorem val_main_v36_at (r : Fin 500000) (j : Fin 128) :
    ReadP.val_main_v36 (F := Ideal) x0 x1 x2 (ix2 r j) = linH x0 x1 x2 r j - MeshNorm.mean (linH x0 x1 x2) j := by
  rw [ReadP.val_main_v36_apply, ReadP.val_main_v35_apply, ReadP.val_main_v34_apply, idx_v34_v35, val_main_v33_at,
    val_main_v30_at, Ideal.subf_def]

/-- The centred entry at (r, j), as the subtraction feeding the result. -/
theorem val_main_v43_at (r : Fin 500000) (j : Fin 128) :
    ReadP.val_main_v43 (F := Ideal) x0 x1 x2 (ix2 r j) = linH x0 x1 x2 r j - MeshNorm.mean (linH x0 x1 x2) j := by
  rw [ReadP.val_main_v43_apply, ReadP.val_main_v42_apply, ReadP.val_main_v41_apply, idx_v41_v42, val_main_v33_at,
    val_main_v30_at, Ideal.subf_def]

/-- The variance at j: the mean of the squared deviations. -/
theorem val_main_v40_at (j : Fin 128) :
    ReadP.val_main_v40 (F := Ideal) x0 x1 x2 (ix1 j) = MeshNorm.varR (linH x0 x1 x2) j := by
  rw [ReadP.val_main_v40_apply, ReadP.val_main_v38_apply, ReadP.val_main_v39_apply, ReadP.val_main_cst_5_apply,
    ReadP.val_main_cst_4_apply, Ideal.hostDivf_def, Ideal.ofBits_def, Ideal.ofBits_def, Ideal.ofBits_zero_f32, zero_add]
  unfold MeshNorm.varR MeshNorm.colSum MeshNorm.rows
  refine congrArg₂ Ideal.div (Finset.sum_congr rfl fun k _ => ?_) rfl
  rw [idx_v38, ReadP.val_main_v37_apply, val_main_v36_at, Ideal.mulf_def]

/-- The scale at j: gamma over the square root of variance plus epsilon. -/
theorem val_main_v47_at (j : Fin 128) :
    ReadP.val_main_v47 (F := Ideal) x0 x1 x2 x3 (ix1 j)
      = Ideal.div (x3 (ix1 j)) (Ideal.sqrt (MeshNorm.varR (linH x0 x1 x2) j + MeshNorm.eps)) := by
  rw [ReadP.val_main_v47_apply, ReadP.val_main_v46_apply, ReadP.val_main_v45_apply, ReadP.val_main_v44_apply,
    ReadP.val_main_cst_6_apply, val_main_v40_at, Ideal.hostDivf_def, Ideal.hostUnary_sqrt_def, Ideal.addf_def,
    Ideal.ofBits_def]
  rfl

end

/-- The whole-array program's result at (r, j) is the specification's whole-array normalisation of the linear layer. -/
theorem val_main_v55_at (x0 : (⟨S500000x64, .f32⟩ : BufTy).Contents (Elt Ideal)) (x1 : (⟨S500000x4, .i32⟩ : BufTy).Contents (Elt Ideal))
    (x2 : (⟨S128x320, .f32⟩ : BufTy).Contents (Elt Ideal)) (x3 x4 : (⟨S128, .f32⟩ : BufTy).Contents (Elt Ideal))
    (r : Fin 500000) (j : Fin 128) :
    ReadP.val_main_v55 (F := Ideal) x0 x1 x2 x3 x4 (ix2 r j)
      = MeshNorm.outR (MeshNorm.lin (fun r k => ReadP.val_main_v28 (F := Ideal) x0 x1 (ix2 r k)) (fun k j => ReadP.val_main_v29 (F := Ideal) x2 (ix2 k j)))
          (fun j => x3 (ix1 j)) (fun j => x4 (ix1 j)) r j := by
  rw [ReadP.val_main_v55_apply, ReadP.val_main_v54_apply, ReadP.val_main_cst_7_apply, ReadP.val_main_v53_apply,
    ReadP.val_main_v52_apply, ReadP.val_main_v51_apply, idx_v51_v52, ReadP.val_main_v50_apply, ReadP.val_main_v49_apply,
    ReadP.val_main_v48_apply, idx_v48_v49, val_main_v47_at, val_main_v43_at, Ideal.maximumf_def, Ideal.addf_def,
    Ideal.mulf_def, Ideal.ofBits_def]
  rfl

end Cert.ReferenceIdeal.RefValue

end
-- ==== Proof.Finite.lean ====
/-
  FINITENESS. Under the certificate's precondition every float argument holds real numbers only; the feature
  matrix (the table's rows next to pairwise minima and maxima of gathered rows) and the transposed weight matrix
  are assembled from such entries by selection, `min` and `max`, so their entries are real numbers too.
-/
import proofs.«139815_j8323646619907_1_alg».proof.Defs
import proofs.«139815_j8323646619907_1_alg».proof.Proof.Gen.Pre_finite_inputs
import proofs.«139815_j8323646619907_1_alg».proof.Proof.ReadP
import Idealize.ShloMosaic.Lib.ReduceAll
import Idealize.ShloMosaic.Lib.ValueIdx
import Idealize.ShloMosaic.Lib.ValueLayout

noncomputable section

namespace Cert.Proof.Finite

open Idealize.ShloMosaic Idealize.SL.Sem

/-! ## The precondition, decoded -/

instance : Subsingleton Cert.Pre_finite_inputs.S_.Idx := ⟨fun a b => funext fun d => d.elim0⟩

/-- An extended real whose absolute value `max x (-x)` lies strictly below `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have ht : Ideal.ofBits .f32 0x7F800000#32 = ⊤ := by simp [Ideal.ofBits, Ideal.ieee]
  change Ideal.cmp .olt (max x (-x)) (Ideal.ofBits .f32 0x7F800000#32) = 1#1 at h
  rw [ht] at h
  induction x using EReal.rec with
  | bot => simp [Ideal.cmp] at h
  | coe r => exact ⟨r, rfl⟩
  | top => simp [Ideal.cmp] at h

/-- Under the precondition, the feature table and the weight matrix hold real numbers only. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg2) i = (x : EReal)) := by
  have h1 := congrFun (h c) ValueIdx.ix0
  dsimp only [Cert.Pre_finite_inputs.fn, Cert.Pre_finite_inputs.fn_part1] at h1
  obtain ⟨h123, -⟩ := IntOp.andi_eq_one.1 h1
  obtain ⟨h12, -⟩ := IntOp.andi_eq_one.1 h123
  obtain ⟨ha, hb⟩ := IntOp.andi_eq_one.1 h12
  refine ⟨fun i => ?_, fun i => ?_⟩
  · exact real_of_abs_lt _ (Host.reduce_andi_all _ _ _ _ _ ha i)
  · exact real_of_abs_lt _ (Host.reduce_andi_all _ _ _ _ _ hb i)

/-! ## Selections, minima and maxima of real entries are real -/

/-- Every entry of the array is a real number. -/
def Real' {ι : Type} (f : ι → EReal) : Prop := ∀ i, ∃ x : ℝ, f i = (x : EReal)

theorem real_min {a b : EReal} (ha : ∃ x : ℝ, a = (x : EReal)) (hb : ∃ x : ℝ, b = (x : EReal)) :
    ∃ x : ℝ, FloatOps.minimumf (F := Ideal) (φ := .f32) a b = (x : EReal) := by
  show ∃ x : ℝ, min a b = (x : EReal)
  rcases min_choice a b with e | e <;> rw [e]
  exacts [ha, hb]

theorem real_max {a b : EReal} (ha : ∃ x : ℝ, a = (x : EReal)) (hb : ∃ x : ℝ, b = (x : EReal)) :
    ∃ x : ℝ, FloatOps.maximumf (F := Ideal) (φ := .f32) a b = (x : EReal) := by
  show ∃ x : ℝ, max a b = (x : EReal)
  rcases max_choice a b with e | e <;> rw [e]
  exacts [ha, hb]

/-- Every entry of a concatenation is an entry of one of its pieces: a property of every entry of every piece holds
    of every entry of the concatenation. -/
theorem concatenate_pred {α : Type} (P : α → Prop) {t : Shape} (a : Fin t.rank)
    (xs : List ((s : Shape) × (s.Idx → α))) (h : Shape.Concatenates (xs.map (·.1)) t a)
    (hx : ∀ p ∈ xs, ∀ i, P (p.2 i)) (j : t.Idx) : P (concatenate t a xs h j) := by
  unfold concatenate
  exact hx _ (List.getElem_mem _) _

/-! ## The feature chain -/

open Cert.ReferenceIdeal Cert.ReferenceIdeal.ReadP

section Chain

variable (x0 : (⟨Cert.ReferenceIdeal.S500000x64, .f32⟩ : BufTy).Contents (Elt Ideal))
  (x1 : (⟨Cert.ReferenceIdeal.S500000x4, .i32⟩ : BufTy).Contents (Elt Ideal))
  (h0 : ∀ i, ∃ x : ℝ, x0 i = (x : EReal))
include h0

/-- A gathered entry is an entry of the table. -/
theorem v7_real : Real' (val_main_v7 (F := Ideal) x0 x1) := fun i => by
  unfold val_main_v7 Host.gather; exact h0 _

theorem v8_real : Real' (val_main_v8 (F := Ideal) x0 x1) := fun i => by
  rw [val_main_v8_apply]; exact v7_real x0 x1 h0 _
theorem v9_real : Real' (val_main_v9 (F := Ideal) x0 x1) := fun i => by
  rw [val_main_v9_apply]; exact v8_real x0 x1 h0 _
theorem v10_real : Real' (val_main_v10 (F := Ideal) x0 x1) := fun i => by
  rw [val_main_v10_apply]; exact v7_real x0 x1 h0 _
theorem v11_real : Real' (val_main_v11 (F := Ideal) x0 x1) := fun i => by
  rw [val_main_v11_apply]; exact v10_real x0 x1 h0 _
theorem v12_real : Real' (val_main_v12 (F := Ideal) x0 x1) := fun i => by
  rw [val_main_v12_apply]; exact real_min (v9_real x0 x1 h0 i) (v11_real x0 x1 h0 i)
theorem v13_real : Real' (val_main_v13 (F := Ideal) x0 x1) := fun i => by
  rw [val_main_v13_apply]; exact v7_real x0 x1 h0 _
theorem v14_real : Real' (val_main_v14 (F := Ideal) x0 x1) := fun i => by
  rw [val_main_v14_apply]; exact v13_real x0 x1 h0 _
theorem v15_real : Real' (val_main_v15 (F := Ideal) x0 x1) := fun i => by
  rw [val_main_v15_apply]; exact v7_real x0 x1 h0 _
theorem v16_real : Real' (val_main_v16 (F := Ideal) x0 x1) := fun i => by
  rw [val_main_v16_apply]; exact v15_real x0 x1 h0 _
theorem v17_real : Real' (val_main_v17 (F := Ideal) x0 x1) := fun i => by
  rw [val_main_v17_apply]; exact real_max (v14_real x0 x1 h0 i) (v16_real x0 x1 h0 i)
theorem v18_real : Real' (val_main_v18 (F := Ideal) x0 x1) := fun i => by
  rw [val_main_v18_apply]; exact v7_real x0 x1 h0 _
theorem v19_real : Real' (val_main_v19 (F := Ideal) x0 x1) := fun i => by
  rw [val_main_v19_apply]; exact v18_real x0 x1 h0 _
theorem v20_real : Real' (val_main_v20 (F := Ideal) x0 x1) := fun i => by
  rw [val_main_v20_apply]; exact v7_real x0 x1 h0 _
theorem v21_real : Real' (val_main_v21 (F := Ideal) x0 x1) := fun i => by
  rw [val_main_v21_apply]; exact v20_real x0 x1 h0 _
theorem v22_real : Real' (val_main_v22 (F := Ideal) x0 x1) := fun i => by
  rw [val_main_v22_apply]; exact real_min (v19_real x0 x1 h0 i) (v21_real x0 x1 h0 i)
theorem v23_real : Real' (val_main_v23 (F := Ideal) x0 x1) := fun i => by
  rw [val_main_v23_apply]; exact v7_real x0 x1 h0 _
theorem v24_real : Real' (val_main_v24 (F := Ideal) x0 x1) := fun i => by
  rw [val_main_v24_apply]; exact v23_real x0 x1 h0 _
theorem v25_real : Real' (val_main_v25 (F := Ideal) x0 x1) := fun i => by
  rw [val_main_v25_apply]; exact v7_real x0 x1 h0 _
theorem v26_real : Real' (val_main_v26 (F := Ideal) x0 x1) := fun i => by
  rw [val_main_v26_apply]; exact v25_real x0 x1 h0 _
theorem v27_real : Real' (val_main_v27 (F := Ideal) x0 x1) := fun i => by
  rw [val_main_v27_apply]; exact real_max (v24_real x0 x1 h0 i) (v26_real x0 x1 h0 i)

end Chain

/-- The feature matrix has real entries. -/
theorem feat_real (x0 : (⟨Cert.ReferenceIdeal.S500000x64, .f32⟩ : BufTy).Contents (Elt Ideal))
    (x1 : (⟨Cert.ReferenceIdeal.S500000x4, .i32⟩ : BufTy).Contents (Elt Ideal))
    (h0 : ∀ i, ∃ x : ℝ, x0 i = (x : EReal)) (i : Cert.ReferenceIdeal.S500000x320.Idx) :
    ∃ x : ℝ, Cert.ReferenceIdeal.ReadP.val_main_v28 (F := Ideal) x0 x1 i = (x : EReal) := by
  unfold val_main_v28
  refine concatenate_pred (fun v => ∃ x : ℝ, v = (x : EReal)) _ _ _ (fun p hp i' => ?_) i
  simp only [List.mem_cons, List.not_mem_nil, or_false] at hp
  rcases hp with rfl | rfl | rfl | rfl | rfl
  · exact h0 i'
  · exact v12_real x0 x1 h0 i'
  · exact v17_real x0 x1 h0 i'
  · exact v22_real x0 x1 h0 i'
  · exact v27_real x0 x1 h0 i'

/-- The transposed weight matrix has real entries. -/
theorem wt_real (x2 : (⟨Cert.ReferenceIdeal.S128x320, .f32⟩ : BufTy).Contents (Elt Ideal))
    (h2 : ∀ i, ∃ x : ℝ, x2 i = (x : EReal)) (i : Cert.ReferenceIdeal.S320x128.Idx) :
    ∃ x : ℝ, Cert.ReferenceIdeal.ReadP.val_main_v29 (F := Ideal) x2 i = (x : EReal) := by
  rw [val_main_v29_apply]; exact h2 _

end Cert.Proof.Finite
-- ==== Proof.lean ====
/-
  The proof of the certificate's claim: the tiled program (a gather of four neighbour rows per row, their pairwise minima and
  maxima laid beside the row, a linear layer, batch normalisation over all rows and a clip at zero, the linear layer and the
  normalisation as two kernel regions) against the whole-array program.

  Frames. Each tiled program runs as six items: three stretches of host operations, the region that multiplies a block of
  5000 rows by the transposed weights and accumulates the column sums of the products and of their squares over the 100
  blocks, the stretch that turns the sums into the mean and the variance, and the region that normalises each block. No item
  writes an argument. The whole-array program is host operations only.

  Values, at the exact instance. The tiled program's result entry (r, j) is
  max ((H r j - mean j) * (gamma j * rsqrt (var j + eps)) + beta j) 0 with var the mean of the squares less the square of the
  mean; the whole-array program's is the same with var the mean of the squared deviations and gamma j / sqrt (var j + eps).
  H is the same matrix on both sides: the same feature matrix times the same transposed weights. Under the precondition every
  entry of the table and of the weights is real, so every entry of H is real, the two variances are one non-negative real and
  the two scales agree.
-/
import proofs.«139815_j8323646619907_1_alg».proof.Defs
import proofs.«139815_j8323646619907_1_alg».proof.Proof.Gen.Kernel
import proofs.«139815_j8323646619907_1_alg».proof.Proof.Gen.KernelIdeal
import proofs.«139815_j8323646619907_1_alg».proof.Proof.Gen.ReferenceIdeal
import proofs.«139815_j8323646619907_1_alg».proof.Proof.Gen.Pre_finite_inputs
import proofs.«139815_j8323646619907_1_alg».proof.Proof.ReadP
import proofs.«139815_j8323646619907_1_alg».proof.Proof.RefRun
import proofs.«139815_j8323646619907_1_alg».proof.Proof.KRun
import proofs.«139815_j8323646619907_1_alg».proof.Proof.KIRun
import proofs.«139815_j8323646619907_1_alg».proof.Proof.KIValue
import proofs.«139815_j8323646619907_1_alg».proof.Proof.KIFeat
import proofs.«139815_j8323646619907_1_alg».proof.Proof.RefValue
import proofs.«139815_j8323646619907_1_alg».proof.Proof.Finite
import proofs.«139815_j8323646619907_1_alg».proof.Proof.MeshNormSpec

noncomputable section

namespace Cert.Proof

open Idealize.ShloMosaic Idealize.ShloMosaic.TcCoe Idealize.SL.Sem Idealize.ShloMosaic.ValueIdx

/-- The word-level tiled program runs and leaves its arguments as launched. -/
theorem frame_p : Cert.frame_Kernel := fun m ρ _ => Cert.Kernel.Hand.frame (F := Bits) m ρ

/-- So does its reading at the exact instance. -/
theorem frame_pi : Cert.frame_KernelIdeal := fun m ρ _ => Cert.KernelIdeal.Hand.frame (F := Ideal) m ρ

/-- The whole-array program's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two programs' results agree entry by entry: both are a normalisation of one real matrix. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.ReadP.val_main_v55 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
      = ((Cert.KernelIdeal.Hand.dat1 (Cert.KernelIdeal.Hand.VE1 m) c).arrAt 5 Cert.KernelIdeal.cfg1.N : Cert.KernelIdeal.S500000x128.Idx → EReal) := by
  funext i
  obtain ⟨r, j, rfl⟩ : ∃ (r : Fin 500000) (j : Fin 128), i = ix2 r j := ⟨i 0, i 1, eq_ix2 i⟩
  have hx := Cert.Proof.Finite.args_real m hpre c
  rw [(hagree c).1, (hagree c).2.1, (hagree c).2.2.1, (hagree c).2.2.2.1, (hagree c).2.2.2.2]
  refine (Cert.ReferenceIdeal.RefValue.val_main_v55_at _ _ _ _ _ r j).trans ?_
  refine Eq.trans ?_ (Cert.KernelIdeal.Hand.result_at m c r j).symm
  simp only [Cert.KernelIdeal.Hand.feat_eq m c, Cert.KernelIdeal.Hand.wt_eq m c, Cert.KernelIdeal.Hand.gamma_at m c, Cert.KernelIdeal.Hand.beta_at m c]
  exact (MeshNorm.outK_eq_outR _
    (fun r j => MeshNorm.lin_real _ _ (fun r k => Cert.Proof.Finite.feat_real _ _ hx.1 _) (fun k j => Cert.Proof.Finite.wt_real _ hx.2 _) r j) _ _ r j).symm

/-- From memories that agree on the arguments both programs run and end with equal results. -/
theorem algebraic : Cert.algebraic_KernelIdeal_ReferenceIdeal := by
  intro m ρ m' ρ' hpre hagree
  refine ⟨fun c => (Cert.KernelIdeal.Hand.dat1 (Cert.KernelIdeal.Hand.VE1 m) c).arrAt 5 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.RefRun.run (F := Ideal) m' ρ')
  exact result_eq m m' hpre hagree c

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
